-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg5 : IVec S4096 32) (main_arg6 : IVec S4096 32) (main_arg7 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg5 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg6 main_v21
  let main_c_8 : IVec S_ 32 := constantI S_ 32 50000#32
  let main_v23 : IVec S4096 32 := broadcastInDim S4096 ![] bcast_S_S4096 main_c_8
  let main_v24 : IVec S4096 1 := cmpi .slt main_arg6 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg7 main_v28
  let main_c_11 : IVec S_ 32 := constantI S_ 32 50000#32
  let main_v30 : IVec S4096 32 := broadcastInDim S4096 ![] bcast_S_S4096 main_c_11
  let main_v31 : IVec S4096 1 := cmpi .slt main_arg7 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_c_5 : IVec S_ 32 := constantI S_ 32 100000#32
  fn_part1 (F := F) main_arg5 main_arg6 main_arg7 main_v13 main_v15 main_c_5
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S6000x64 : Shape := ⟨2, ![6000, 64]⟩
abbrev S100000x128 : Shape := ⟨2, ![100000, 128]⟩
abbrev S50000x128 : Shape := ⟨2, ![50000, 128]⟩
abbrev S100000x1x128 : Shape := ⟨3, ![100000, 1, 128]⟩
abbrev S50000x1x128 : Shape := ⟨3, ![50000, 1, 128]⟩
abbrev S1x128 : Shape := ⟨2, ![1, 128]⟩
abbrev S1x1x128 : Shape := ⟨3, ![1, 1, 128]⟩
abbrev S1 : Shape := ⟨1, ![1]⟩
abbrev S1x64 : Shape := ⟨2, ![1, 64]⟩
abbrev S1x1 : Shape := ⟨2, ![1, 1]⟩
abbrev S1x126 : Shape := ⟨2, ![1, 126]⟩

abbrev nBuf : Space → Nat
  | .hbm => 70
  | .vmem => 25
  | .smem => 3
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S150000x64, .f32⟩
  | .hbm, ⟨6, _⟩ => ⟨S_, .i32⟩
  | .hbm, ⟨7, _⟩ => ⟨S4000000, .i32⟩
  | .hbm, ⟨8, _⟩ => ⟨S4000000, .i1⟩
  | .hbm, ⟨9, _⟩ => ⟨S_, .i32⟩
  | .hbm, ⟨10, _⟩ => ⟨S4000000, .i32⟩
  | .hbm, ⟨11, _⟩ => ⟨S4000000, .i32⟩
  | .hbm, ⟨12, _⟩ => ⟨S4000000, .i32⟩
  | .hbm, ⟨13, _⟩ => ⟨S4000000x1, .i32⟩
  | .hbm, ⟨14, _⟩ => ⟨S4000000x64, .f32⟩
  | .hbm, ⟨15, _⟩ => ⟨S4000000x1, .f32⟩
  | .hbm, ⟨16, _⟩ => ⟨S4000000x64, .f32⟩
  | .hbm, ⟨17, _⟩ => ⟨S4000000x64, .f32⟩
  | .hbm, ⟨18, _⟩ => ⟨S_, .f32⟩
  | .hbm, ⟨19, _⟩ => ⟨S150000x64, .f32⟩
  | .hbm, ⟨20, _⟩ => ⟨S4000000x1, .i32⟩
  | .hbm, ⟨21, _⟩ => ⟨S150000x64, .f32⟩
  | .hbm, ⟨22, _⟩ => ⟨S150000x64, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000x64, .f32⟩
  | .hbm, ⟨32, _⟩ => ⟨S4000000x1, .f32⟩
  | .hbm, ⟨33, _⟩ => ⟨S4000000x64, .f32⟩
  | .hbm, ⟨34, _⟩ => ⟨S4000000x64, .f32⟩
  | .hbm, ⟨35, _⟩ => ⟨S_, .f32⟩
  | .hbm, ⟨36, _⟩ => ⟨S150000x64, .f32⟩
  | .hbm, ⟨37, _⟩ => ⟨S4000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x64, .f32⟩
  | .hbm, ⟨49, _⟩ => ⟨S4000000x1, .f32⟩
  | .hbm, ⟨50, _⟩ => ⟨S4000000x64, .f32⟩
  | .hbm, ⟨51, _⟩ => ⟨S4000000x64, .f32⟩
  | .hbm, ⟨52, _⟩ => ⟨S_, .f32⟩
  | .hbm, ⟨53, _⟩ => ⟨S150000x64, .f32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S100000x64, .f32⟩
  | .hbm, ⟨58, _⟩ => ⟨S50000x64, .f32⟩
  | .hbm, ⟨59, _⟩ => ⟨S100000x128, .f32⟩
  | .hbm, ⟨60, _⟩ => ⟨S50000x128, .f32⟩
  | .hbm, ⟨61, _⟩ => ⟨S100000x1x128, .f32⟩
  | .hbm, ⟨62, _⟩ => ⟨S50000x1x128, .f32⟩
  | .hbm, ⟨63, _⟩ => ⟨S1x128, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S6000x64, .f32⟩
  | .local _ .vmem, ⟨17, _⟩ => ⟨S6000x64, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x128, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4096], ![false]⟩

abbrev pre3 : Pipeline.Prefetch sig := ⟨3, ![main_arg5.idx, main_arg6.idx, main_arg7.idx], fun | 0 => main_arg5.names | 1 => main_arg6.names | 2 => main_arg7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S4096.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 2 (Rect.unit (s := S4096) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  concatenates_S100000x64_S50000x64_S150000x64_d0 : Shape.Concatenates [S100000x64, S50000x64] S150000x64 0
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  concatenates_S100000x64_S100000x64_S100000x128_d1 : Shape.Concatenates [S100000x64, S100000x64] S100000x128 1
  concatenates_S50000x64_S50000x64_S50000x128_d1 : Shape.Concatenates [S50000x64, S50000x64] S50000x128 1
  shapeCasts_S100000x128_S100000x1x128 : S100000x128.ShapeCasts S100000x1x128
  shapeCasts_S50000x128_S50000x1x128 : S50000x128.ShapeCasts S50000x1x128
  numel1_S1 : S1.numel = 1
  inb_S1x128_S1x128_0_0 : ∀ a, (![0, 0] : Fin 2 → Nat) a + S1x128.size a ≤ S1x128.size a
  h_S1x128 : 0 < S1x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  slices_S1x128_o0_0_S1x64 : S1x128.Slices ![0, 0] S1x64
  slices_S1x128_o0_64_S1x64 : S1x128.Slices ![0, 64] S1x64
  reduces_S1x64_S1 : S1x64.Reduces [1] S1
  shapeCasts_S1_S1x1 : S1.ShapeCasts S1x1
  concatenates_S1x1_S1x1_S1x126_S1x128_d1 : Shape.Concatenates [S1x1, S1x1, S1x126] S1x128 1
  shapeCasts_S1x128_S1x128 : S1x128.ShapeCasts S1x128
  slices_S1x128_S1x1_0_0 : S1x128.Slices ![0, 0] S1x1
  shapeCasts_S1x1_S_ : S1x1.ShapeCasts S_
  slices_S1x128_S1x1_0_1 : S1x128.Slices ![0, 1] S1x1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .f32 = 32 ∨ (Rect.block (s := S150000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S150000x64.size a
  hwx2_1 : ∀ i : grid2.Coords, EltTy.bits .f32 = 32 ∨ (Rect.block (s := S150000x64) S6000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S150000x64.size a
  hwx2_2 : ∀ i : grid2.Coords, EltTy.bits .f32 = 32 ∨ (Rect.block (s := S150000x64) S6000x64.size (cc2_transform_2 i) (hinb2_2 i)).WholeWords (EltTy.packing .f32)
  hrank3 : 0 < grid3.rank
  k3_off1_inb : ∀ i : grid3.Coords, ∀ a, (k3_off1 i) a + S1.size a ≤ S4096.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S6000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev spec3_0 : Pipeline.WinSpec sig grid3.rank :=
  Pipeline.WinSpec.ofSpec (Memref.whole main_v47) S1x1x128.size reads3_0 false false 2 stage3_0 sem3_0 nbuf3_0 hstage3_0

abbrev spec3_1 : Pipeline.WinSpec sig grid3.rank :=
  Pipeline.WinSpec.ofSpec (Memref.whole main_v48) S1x1x128.size reads3_1 false false 2 stage3_1 sem3_1 nbuf3_1 hstage3_1

abbrev spec3_2 : Pipeline.WinSpec sig grid3.rank :=
  Pipeline.WinSpec.ofSpec (Memref.whole main_v48) S1x1x128.size reads3_2 false false 2 stage3_2 sem3_2 nbuf3_2 hstage3_2

abbrev spec3_3 : Pipeline.WinSpec sig grid3.rank :=
  Pipeline.WinSpec.ofSpec (Memref.whole main_v49) S1x128.size reads3_3 true true 1 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 k3_off1_inb numel1_S1 pf | 1 => cc3_transform_1 k3_off1_inb numel1_S1 pf | 2 => cc3_transform_2 k3_off1_inb numel1_S1 pf | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S100000x1x128.size a), EltTy.bits .f32 = 32 ∨ (Rect.block (s := S100000x1x128) S1x1x128.size (cc3_transform_0 k3_off1_inb numel1_S1 pf i) h).WholeWords (EltTy.packing .f32)) ∧
  (∀ i : grid3.Coords, ∃ h : (∀ a, (cc3_transform_1 k3_off1_inb numel1_S1 pf i a + 1) * S1x1x128.size a ≤ S50000x1x128.size a), EltTy.bits .f32 = 32 ∨ (Rect.block (s := S50000x1x128) S1x1x128.size (cc3_transform_1 k3_off1_inb numel1_S1 pf i) h).WholeWords (EltTy.packing .f32)) ∧
  (∀ i : grid3.Coords, ∃ h : (∀ a, (cc3_transform_2 k3_off1_inb numel1_S1 pf i a + 1) * S1x1x128.size a ≤ S50000x1x128.size a), EltTy.bits .f32 = 32 ∨ (Rect.block (s := S50000x1x128) S1x1x128.size (cc3_transform_2 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2 i).elim fun h _ => h a | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2 i).elim fun _ h => h | 3 => hwx3_3 | ⟨_ + 4, h⟩ => absurd h (Nat.not_lt.2 (Nat.le_add_left _ _))

class Facts : Prop extends Facts₀ where
  harr3 : ∀ w, (spec3 w).arr.IsWhole

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 157
  | .vmem => 0
  | .smem => 0
  | _ => 0

abbrev hbmTy0_0 (i : Nat) : BufTy := match i % 128 with
  | 0 => ⟨S100000x64, .f32⟩
  | 1 => ⟨S50000x64, .f32⟩
  | 2 => ⟨S4000000, .f32⟩
  | 3 => ⟨S4000000, .i32⟩
  | 4 => ⟨S4000000, .i32⟩
  | 5 => ⟨S4096, .i32⟩
  | 6 => ⟨S4096, .i32⟩
  | 7 => ⟨S4096, .i32⟩
  | 8 => ⟨S150000x64, .f32⟩
  | 9 => ⟨S_, .i32⟩
  | 10 => ⟨S4000000, .i32⟩
  | 11 => ⟨S4000000, .i1⟩
  | 12 => ⟨S_, .i32⟩
  | 13 => ⟨S4000000, .i32⟩
  | 14 => ⟨S4000000, .i32⟩
  | 15 => ⟨S4000000, .i32⟩
  | 16 => ⟨S4000000x1, .i32⟩
  | 17 => ⟨S4000000x64, .f32⟩
  | 18 => ⟨S4000000x1, .f32⟩
  | 19 => ⟨S4000000x64, .f32⟩
  | 20 => ⟨S4000000x64, .f32⟩
  | 21 => ⟨S_, .f32⟩
  | 22 => ⟨S150000x64, .f32⟩
  | 23 => ⟨S4000000x1, .i32⟩
  | 24 => ⟨S150000x64, .f32⟩
  | 25 => ⟨S150000x64, .f32⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000x64, .f32⟩
  | 35 => ⟨S4000000x1, .f32⟩
  | 36 => ⟨S4000000x64, .f32⟩
  | 37 => ⟨S4000000x64, .f32⟩
  | 38 => ⟨S_, .f32⟩
  | 39 => ⟨S150000x64, .f32⟩
  | 40 => ⟨S4000000x1, .i32⟩
  | 41 => ⟨S150000x64, .f32⟩
  | 42 => ⟨S150000x64, .f32⟩
  | 43 => ⟨S_, .i32⟩
  | 44 => ⟨S4000000, .i32⟩
  | 45 => ⟨S4000000, .i1⟩
  | 46 => ⟨S_, .i32⟩
  | 47 => ⟨S4000000, .i32⟩
  | 48 => ⟨S4000000, .i32⟩
  | 49 => ⟨S4000000, .i32⟩
  | 50 => ⟨S4000000x1, .i32⟩
  | 51 => ⟨S4000000x64, .f32⟩
  | 52 => ⟨S4000000x1, .f32⟩
  | 53 => ⟨S4000000x64, .f32⟩
  | 54 => ⟨S4000000x64, .f32⟩
  | 55 => ⟨S_, .f32⟩
  | 56 => ⟨S150000x64, .f32⟩
  | 57 => ⟨S4000000x1, .i32⟩
  | 58 => ⟨S150000x64, .f32⟩
  | 59 => ⟨S150000x64, .f32⟩
  | 60 => ⟨S_, .f32⟩
  | 61 => ⟨S150000x64, .f32⟩
  | 62 => ⟨S150000x64, .f32⟩
  | 63 => ⟨S100000x64, .f32⟩
  | 64 => ⟨S50000x64, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x64, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x64, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x64, .f32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S4096x64, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x64, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x64, .f32⟩
  | 119 => ⟨S4096x64, .f32⟩
  | 120 => ⟨S_, .f32⟩
  | 121 => ⟨S_, .f32⟩
  | 122 => ⟨S4096x64, .f32⟩
  | 123 => ⟨S_, .f32⟩
  | 124 => ⟨S_, .f32⟩
  | 125 => ⟨S_, .f32⟩
  | 126 => ⟨S4096x64, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S4096x64, .f32⟩
  | 7 => ⟨S_, .f32⟩
  | 8 => ⟨S4096, .f32⟩
  | 9 => ⟨S4096x64, .f32⟩
  | 10 => ⟨S_, .f32⟩
  | 11 => ⟨S4096, .f32⟩
  | 12 => ⟨S4096, .f32⟩
  | 13 => ⟨S_, .f32⟩
  | 14 => ⟨S4096, .f32⟩
  | 15 => ⟨S4096, .f32⟩
  | 16 => ⟨S4096, .f32⟩
  | 17 => ⟨S4096, .f32⟩
  | 18 => ⟨S4096, .i1⟩
  | 19 => ⟨S4096, .f32⟩
  | 20 => ⟨S4096, .f32⟩
  | 21 => ⟨S4096, .f32⟩
  | 22 => ⟨S4096, .f32⟩
  | 23 => ⟨S4096, .f32⟩
  | 24 => ⟨S4096, .f32⟩
  | 25 => ⟨S4096, .f32⟩
  | 26 => ⟨S4096, .f32⟩
  | 27 => ⟨S_, .f32⟩
  | 28 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_c_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_20 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_22 : Ref sig .tc := ⟨.hbm, 127, rfl⟩
abbrev main_v95 : Ref sig .tc := ⟨.hbm, 128, rfl⟩
abbrev main_v96 : Ref sig .tc := ⟨.hbm, 129, rfl⟩
abbrev main_cst_23 : Ref sig .tc := ⟨.hbm, 130, rfl⟩
abbrev main_v97 : Ref sig .tc := ⟨.hbm, 131, rfl⟩
abbrev main_cst_24 : Ref sig .tc := ⟨.hbm, 132, rfl⟩
abbrev main_v98 : Ref sig .tc := ⟨.hbm, 133, rfl⟩
abbrev main_v99 : Ref sig .tc := ⟨.hbm, 134, rfl⟩
abbrev main_cst_25 : Ref sig .tc := ⟨.hbm, 135, rfl⟩
abbrev main_v100 : Ref sig .tc := ⟨.hbm, 136, rfl⟩
abbrev main_v101 : Ref sig .tc := ⟨.hbm, 137, rfl⟩
abbrev main_cst_26 : Ref sig .tc := ⟨.hbm, 138, rfl⟩
abbrev main_v102 : Ref sig .tc := ⟨.hbm, 139, rfl⟩
abbrev main_v103 : Ref sig .tc := ⟨.hbm, 140, rfl⟩
abbrev main_call0_cst : Ref sig .tc := ⟨.hbm, 141, rfl⟩
abbrev main_call0_v0 : Ref sig .tc := ⟨.hbm, 142, rfl⟩
abbrev main_call0_v1 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_v5 : Ref sig .tc := ⟨.hbm, 147, rfl⟩
abbrev main_call0_v6 : Ref sig .tc := ⟨.hbm, 148, rfl⟩
abbrev main_call0_v7 : Ref sig .tc := ⟨.hbm, 149, rfl⟩
abbrev main_call0_v8 : Ref sig .tc := ⟨.hbm, 150, rfl⟩
abbrev main_call0_v9 : Ref sig .tc := ⟨.hbm, 151, rfl⟩
abbrev main_call0_v10 : Ref sig .tc := ⟨.hbm, 152, rfl⟩
abbrev main_call0_v11 : Ref sig .tc := ⟨.hbm, 153, rfl⟩
abbrev main_v104 : Ref sig .tc := ⟨.hbm, 154, rfl⟩
abbrev main_cst_27 : Ref sig .tc := ⟨.hbm, 155, rfl⟩
abbrev main_v105 : Ref sig .tc := ⟨.hbm, 156, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S_d0_1 : S4096x64.ReducesTo [0, 1] S_
  h_S_ : 0 < S_.numel
  reducesTo_S4096x64_S4096_d1 : S4096x64.ReducesTo [1] S4096
  reducesTo_S4096_S_d0 : S4096.ReducesTo [0] S_
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.RefModules.lean ====
/-
  The reference program's generated run and its read-at-an-index lemmas, gathered under one name for the
  modules that state what the reference computes.
-/
import proofs.«428003_j33079838114572_4_alg».proof.Proof.Gen.ReferenceIdeal.Run
import proofs.«428003_j33079838114572_4_alg».proof.Proof.Gen.ReferenceIdeal.Read
-- ==== Proof.Kernel.Acc0.lean ====
/-
  The first accumulate call of the program, custom_call 0, read at the contents `V` its region is entered
  with: its three windows are blocks of 6000 rows of [150000, 64] arrays, block t of each at grid point t. The body
  loads the two input blocks whole, adds them entry by entry, multiplies by the constant 1 and stores the result
  over the whole output block. So after the body at point t the output window's staging buffer holds
  `k0_pay1` of the two input blocks (`out0_2`), and the input windows' buffers hold their blocks as fetched.
  From this the proof data of the pipeline (`dat0`) and its body obligation at every grid point.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over the arrays `V` whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each buffer: all of it. -/
abbrev r0_0 : Rect S6000x64 := Rect.unit (s := S6000x64) ![0, 0] S6000x64.size inb_S6000x64_S6000x64_0_0

/-- What the body leaves in the output window's buffer: its one store, the sum of the two input blocks times 1. -/
def out0_2 (x0 x1 : Vec F S6000x64 .f32) : Vec F S6000x64 .f32 :=
  View.canon [⟨r0_0, k0_pay1 (View.ld x0 r0_0) (View.ld x1 r0_0)⟩]

/-- The store covers the buffer. -/
theorem cover0_2 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

set_option maxHeartbeats 1000000 in
/-- The body on whole buffers, the inputs' holding `x0`, `x1` and the output's anything, ends with the inputs' as
    they were and the output's at `out0_2 x0 x1`. -/
theorem sound_kernel0 (c : Dev nD) (E : Set ℕ) (i : grid0.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__accumulate_kernel i arg1 harg1 arg2 harg2 arg3 harg3) K := by
  simp only [cc0__accumulate_kernel_eq_skeleton]; unfold cc0__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the two; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Acc1.lean ====
/-
  Accumulate call number 1 (counting from 0) of the program, custom_call 1, read at the contents `V` its region is entered
  with: its three windows are blocks of 6000 rows of [150000, 64] arrays, block t of each at grid point t. The body
  loads the two input blocks whole, adds them entry by entry, multiplies by the constant of the call (1) and stores the result
  over the whole output block. So after the body at point t the output window's staging buffer holds
  `k1_pay1` of the two input blocks (`out1_2`), and the input windows' buffers hold their blocks as fetched.
  From this the proof data of the pipeline (`dat1`) and its body obligation at every grid point.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over the arrays `V` whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches in each buffer: all of it. -/
abbrev r1_0 : Rect S6000x64 := Rect.unit (s := S6000x64) ![0, 0] S6000x64.size inb_S6000x64_S6000x64_0_0

/-- What the body leaves in the output window's buffer: its one store, the sum of the two input blocks times that constant. -/
def out1_2 (x0 x1 : Vec F S6000x64 .f32) : Vec F S6000x64 .f32 :=
  View.canon [⟨r1_0, k1_pay1 (View.ld x0 r1_0) (View.ld x1 r1_0)⟩]

/-- The store covers the buffer. -/
theorem cover1_2 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

set_option maxHeartbeats 1000000 in
/-- The body on whole buffers, the inputs' holding `x0`, `x1` and the output's anything, ends with the inputs' as
    they were and the output's at `out1_2 x0 x1`. -/
theorem sound_kernel1 (c : Dev nD) (E : Set ℕ) (i : grid1.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__accumulate_kernel i arg1 harg1 arg2 harg2 arg3 harg3) K := by
  simp only [cc1__accumulate_kernel_eq_skeleton]; unfold cc1__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the two; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Acc2.lean ====
/-
  Accumulate call number 2 (counting from 0) of the program, custom_call 2, read at the contents `V` its region is entered
  with: its three windows are blocks of 6000 rows of [150000, 64] arrays, block t of each at grid point t. The body
  loads the two input blocks whole, adds them entry by entry, multiplies by the constant of the call (1/4) and stores the result
  over the whole output block. So after the body at point t the output window's staging buffer holds
  `k2_pay1` of the two input blocks (`out2_2`), and the input windows' buffers hold their blocks as fetched.
  From this the proof data of the pipeline (`dat2`) and its body obligation at every grid point.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over the arrays `V` whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each buffer: all of it. -/
abbrev r2_0 : Rect S6000x64 := Rect.unit (s := S6000x64) ![0, 0] S6000x64.size inb_S6000x64_S6000x64_0_0

/-- What the body leaves in the output window's buffer: its one store, the sum of the two input blocks times that constant. -/
def out2_2 (x0 x1 : Vec F S6000x64 .f32) : Vec F S6000x64 .f32 :=
  View.canon [⟨r2_0, k2_pay1 (View.ld x0 r2_0) (View.ld x1 r2_0)⟩]

/-- The store covers the buffer. -/
theorem cover2_2 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

set_option maxHeartbeats 1000000 in
/-- The body on whole buffers, the inputs' holding `x0`, `x1` and the output's anything, ends with the inputs' as
    they were and the output's at `out2_2 x0 x1`. -/
theorem sound_kernel2 (c : Dev nD) (E : Set ℕ) (i : grid2.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__accumulate_kernel i arg1 harg1 arg2 harg2 arg3 harg3) K := by
  simp only [cc2__accumulate_kernel_eq_skeleton]; unfold cc2__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the two; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Lookup.lean ====
/-
  The lookup call of the program, custom_call 3, at admissible contents `a` of its three index tables and at the
  contents `V` its region is entered with. Grid point t fetches row users[t] of the users table and rows pos[t],
  neg[t] of the items table, each a [1, 1, 128] block whose first 64 lanes are the propagated embedding and whose
  last 64 the raw one. The body forms the two scores (sums over the first 64 lanes of products), the softplus of
  their difference, half the three squared norms of the last 64 lanes, and adds the row
  [softplus, half the norms, 0, …, 0] to the one [1, 128] output block, which stays in its buffer from point to
  point and is zeroed first at point 0. So after point t the output buffer holds the sum of the rows of points 0 … t
  (`acc3`), one `step3` per point.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-- Window `w`'s block at grid point `t`, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- One grid point: the output block `prev` plus the point's row, from the three fetched blocks. -/
def step3 (x0 x1 x2 : Vec F S1x1x128 .f32) (prev : Vec F S1x128 .f32) : Vec F S1x128 .f32 :=
  k3_pay1 (k3_pay6 x2) (k3_pay7 x0 x1 x2) (k3_pay8 x0) (k3_pay9 x1) prev

/-- The output block after grid point `n`: the zero block, then one `step3` per point up to `n`. -/
def acc3 (c : Dev nD) : (n : ℕ) → n < (cfg3 a).N → Vec F S1x128 .f32
  | 0, h => step3 (iblk3 a V c 0 ⟨0, h⟩) (iblk3 a V c 1 ⟨0, h⟩) (iblk3 a V c 2 ⟨0, h⟩) (k3_pay2 (F := F))
  | n + 1, h => step3 (iblk3 a V c 0 ⟨n + 1, h⟩) (iblk3 a V c 1 ⟨n + 1, h⟩) (iblk3 a V c 2 ⟨n + 1, h⟩) (acc3 c n (Nat.lt_of_succ_lt h))

theorem acc3_zero (c : Dev nD) (h : 0 < (cfg3 a).N) :
    acc3 a V c 0 h = step3 (iblk3 a V c 0 ⟨0, h⟩) (iblk3 a V c 1 ⟨0, h⟩) (iblk3 a V c 2 ⟨0, h⟩) (k3_pay2 (F := F)) := rfl

theorem acc3_succ (c : Dev nD) (n : ℕ) (h : n + 1 < (cfg3 a).N) :
    acc3 a V c (n + 1) h = step3 (iblk3 a V c 0 ⟨n + 1, h⟩) (iblk3 a V c 1 ⟨n + 1, h⟩) (iblk3 a V c 2 ⟨n + 1, h⟩) (acc3 a V c n (Nat.lt_of_succ_lt h)) := rfl

/-- The proof data of the lookup pipeline on core `c`: the arrays as the region finds them; after the body at point
    `t` each input's buffer at its block and the output's at `acc3`; the invariant the scoped rest, the generator
    register and the three tables, untouched; nothing owed; the two windows on the items table hold half of it each. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => acc3 a V c t.val t.isLt
  Φ _ := iprop(Pipeline.ΦA spec3 c ∗ Pipeline.prefHeld (Ix := Unit) (Name := ℕ) (U := UR sig nD τ) (Lvl := ℕ) pre3 c (fun _ => fullShare) a.1)
  q w := match w with
    | ⟨0, _⟩ => fullShare
    | ⟨1, _⟩ => fullShare.left
    | ⟨2, _⟩ => fullShare.right
    | ⟨3, _⟩ => fullShare
  owed _ := 0

theorem A_eq3 (c : Dev nD) (w : Fin (cfg3 a).W) : (dat3 a V c).A w = V c (Pipeline.arrRef spec3 w) := by
  dsimp only [dat3]

theorem after3_0 (c : Dev nD) (t : Fin (cfg3 a).N) : (dat3 a V c).after 0 t = iblk3 a V c 0 t := by dsimp only [dat3]; try rfl
theorem after3_1 (c : Dev nD) (t : Fin (cfg3 a).N) : (dat3 a V c).after 1 t = iblk3 a V c 1 t := by dsimp only [dat3]; try rfl
theorem after3_2 (c : Dev nD) (t : Fin (cfg3 a).N) : (dat3 a V c).after 2 t = iblk3 a V c 2 t := by dsimp only [dat3]; try rfl
theorem after3_3 (c : Dev nD) (t : Fin (cfg3 a).N) : (dat3 a V c).after 3 t = acc3 a V c t.val t.isLt := by dsimp only [dat3]; try rfl

theorem Φ3_eq (c : Dev nD) (t : Fin ((cfg3 a).N + 1)) :
    (dat3 a V c).Φ t = iprop(Pipeline.ΦA spec3 c ∗ Pipeline.prefHeld (Ix := Unit) (Name := ℕ) (U := UR sig nD τ) (Lvl := ℕ) pre3 c (fun _ => fullShare) a.1) := rfl

theorem owed3 (c : Dev nD) (t : Fin ((cfg3 a).N + 1)) : (dat3 a V c).owed t = 0 := rfl

/-! ## The body on whole buffers -/

/-- The body's one branch condition, over the grid coordinate: the reset of the output block. -/
abbrev cond3 (i : grid3.Coords) : Prop := (Scalar.cmpi .ne (Scalar.extui (Scalar.cmpi .eq (BitVec.ofNat 32 (i 0).val) 0#32)) 0#32) = 1#1

/-- It holds at the first point only: a coordinate below 4096 is its own 32-bit word. -/
theorem hcond3 (i : grid3.Coords) : cond3 i ↔ (i 0).val = 0 := by
  unfold cond3
  rw [Scalar.guard_iff]
  have h : (i 0).val < 4096 := (i 0).isLt
  constructor
  · intro h1
    have h2 := congrArg BitVec.toNat ((IntOp.cmpi_eq).mp h1)
    simp only [BitVec.toNat_ofNat] at h2
    omega
  · intro h0; rw [h0]; decide

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at the first point, on whole buffers: the inputs' holding `x0`, `x1`, `x2` and the output's anything.
    It stores the zero block over the output buffer, reads it back and leaves one step over it. -/
theorem sound_kernel3_A (c : Dev nD) (E : Set ℕ) (i : grid3.Coords) (hc : cond3 i)
    (arg1 : Memref sig .tc .smem S4096 .i32) (harg1 : arg1.IsWhole) (arg2 : Memref sig .tc .smem S4096 .i32) (harg2 : arg2.IsWhole) (arg3 : Memref sig .tc .smem S4096 .i32) (harg3 : arg3.IsWhole)
    (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole)
    (x0 x1 x2 : Vec F S1x1x128 .f32) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d)
        ∗ (iprop(owns (c : Thread nD τ) arg4 fullShare x0 ∗ owns (c : Thread nD τ) arg5 fullShare x1 ∗ owns (c : Thread nD τ) arg6 fullShare x2 ∗ owns (c : Thread nD τ) arg7 fullShare (step3 x0 x1 x2 (k3_pay2 (F := F)))) -∗ K ⟨⟩))
      ⊢ wp frame (wpE (defs₀ (F := F)) Variants.none c none) E (cc3__lookup_loss_kernel i arg1 harg1 arg2 harg2 arg3 harg3 arg4 harg4 arg5 harg5 arg6 harg6 arg7 harg7) K := by
  simp only [cc3__lookup_loss_kernel_eq_skeleton]; unfold cc3__lookup_loss_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero (S := S1x128) hz2 inb_S1x128_S1x128_0_0 y⟩)]
  sl_unfold_words
  rw [View.canon_cons_unit_zero (S := S1x128) hz2, View.readCov_unit_zero (S := S1x128) _ hz2]
  unfold step3
  simp only [View.readAt_eq_ld, View.ld_unit_zero (S := S1x1x128) hz3]

set_option maxHeartbeats 1000000 in
/-- The body at a later point, on whole buffers: the inputs' holding `x0`, `x1`, `x2` and the output's `prev`.
    It leaves one step over `prev`. -/
theorem sound_kernel3_B (c : Dev nD) (E : Set ℕ) (i : grid3.Coords) (hc : ¬cond3 i)
    (arg1 : Memref sig .tc .smem S4096 .i32) (harg1 : arg1.IsWhole) (arg2 : Memref sig .tc .smem S4096 .i32) (harg2 : arg2.IsWhole) (arg3 : Memref sig .tc .smem S4096 .i32) (harg3 : arg3.IsWhole)
    (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole)
    (x0 x1 x2 : Vec F S1x1x128 .f32) (prev : Vec F S1x128 .f32) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare prev
        ∗ (iprop(owns (c : Thread nD τ) arg4 fullShare x0 ∗ owns (c : Thread nD τ) arg5 fullShare x1 ∗ owns (c : Thread nD τ) arg6 fullShare x2 ∗ owns (c : Thread nD τ) arg7 fullShare (step3 x0 x1 x2 prev)) -∗ K ⟨⟩))
      ⊢ wp frame (wpE (defs₀ (F := F)) Variants.none c none) E (cc3__lookup_loss_kernel i arg1 harg1 arg2 harg2 arg3 harg3 arg4 harg4 arg5 harg5 arg6 harg6 arg7 harg7) K := by
  simp only [cc3__lookup_loss_kernel_eq_skeleton]; unfold cc3__lookup_loss_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero (S := S1x128) hz2 inb_S1x128_S1x128_0_0 y⟩)]
  rw [View.canon_unit_zero (S := S1x128) hz2]
  unfold step3
  simp only [View.readAt_eq_ld, View.ld_unit_zero (S := S1x1x128) hz3, View.ld_unit_zero (S := S1x128) hz2]

/-! ## The schedule, at any contents of the tables -/

/-- The grid has one axis of 4096 points, so a point's coordinate is the point. -/
theorem coord3 (t : Fin grid3.N) : ((grid3.coords t) 0).val = t.val := by
  have h : t.val < 4096 := lt_of_lt_of_eq t.isLt N_3
  show t.val / grid3.stride 0 % grid3.bound 0 = t.val
  rw [show grid3.stride 0 = 1 from by decide, show grid3.bound 0 = 4096 from rfl, Nat.div_one, Nat.mod_eq_of_lt h]

/-- The output window's block index is the same at every point, so the window is written back only after the last. -/
theorem flush3_3 (t : Fin (cfg3 a).N) (ht : t.val ≠ 0) :
    ((cfg3 a).win 3).flush ⟨t.val - 1, Nat.lt_of_le_of_lt (Nat.sub_le _ _) t.isLt⟩ = false := by
  rw [Bool.eq_false_iff]
  intro h
  have hN : t.val < 4096 := lt_of_lt_of_eq t.isLt N_3
  rcases (((cfg3 a).win 3).flush_out rfl _).mp h with h1 | ⟨_, h2⟩
  · have h3 : t.val - 1 + 1 = 4096 := h1.trans N_3
    omega
  · exact h2 rfl

/-- An input window's staging buffer holds its block at every point, for any proof data over the arrays `V` whose
    body leaves the block in place. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ (cfg3 a) c) (hA : dat.A 1 = V c (Pipeline.arrRef spec3 1))
    (hafter : ∀ t, dat.after 1 t = iblk3 a V c 1 t) (t : Fin (cfg3 a).N) (d) : dat.before 1 t d = iblk3 a V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ (cfg3 a) c) (hA : dat.A 2 = V c (Pipeline.arrRef spec3 2))
    (hafter : ∀ t, dat.after 2 t = iblk3 a V c 2 t) (t : Fin (cfg3 a).N) (d) : dat.before 2 t d = iblk3 a V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin (cfg3 a).N) (d) : (dat3 a V c).before 0 t d = iblk3 a V c 0 t :=
  before3_0_of a V (dat3 a V c) (A_eq3 a V c 0) (after3_0 a V c) t d
theorem before3_1 (c : Dev nD) (t : Fin (cfg3 a).N) (d) : (dat3 a V c).before 1 t d = iblk3 a V c 1 t :=
  before3_1_of a V (dat3 a V c) (A_eq3 a V c 1) (after3_1 a V c) t d
theorem before3_2 (c : Dev nD) (t : Fin (cfg3 a).N) (d) : (dat3 a V c).before 2 t d = iblk3 a V c 2 t :=
  before3_2_of a V (dat3 a V c) (A_eq3 a V c 2) (after3_2 a V c) t d

/-- At the first point the output window's buffer is fresh: it holds anything. -/
theorem before3_3_A (c : Dev nD) (t : Fin (cfg3 a).N) (h0 : t.val = 0) (d) : (dat3 a V c).before 3 t d = d :=
  (dat3 a V c).before_out_reset 3 rfl t (.inl h0) d

/-- At a later point it holds what the body left at the point before: it was not written back between. -/
theorem before3_3_B (c : Dev nD) (t : Fin (cfg3 a).N) (h0 : t.val ≠ 0) (d) :
    (dat3 a V c).before 3 t d = acc3 a V c (t.val - 1) (Nat.lt_of_le_of_lt (Nat.sub_le _ _) t.isLt) := by
  rw [Dat.before_out_kept _ 3 rfl t h0 (flush3_3 a t h0) (fun _ => rfl) (fun _ _ => rfl)]
  exact after3_3 a V c _

/-- The accumulated block at the first point: one step over the zero block. -/
theorem acc3_A (c : Dev nD) (t : Fin (cfg3 a).N) (h0 : t.val = 0) :
    acc3 a V c t.val t.isLt = step3 (iblk3 a V c 0 t) (iblk3 a V c 1 t) (iblk3 a V c 2 t) (k3_pay2 (F := F)) := by
  obtain ⟨n, hn⟩ := t
  cases n with
  | zero => rfl
  | succ n => exact absurd h0 (Nat.succ_ne_zero n)

/-- The accumulated block at a later point: one step over the block of the point before. -/
theorem acc3_B (c : Dev nD) (t : Fin (cfg3 a).N) (h0 : t.val ≠ 0) :
    acc3 a V c t.val t.isLt = step3 (iblk3 a V c 0 t) (iblk3 a V c 1 t) (iblk3 a V c 2 t)
      (acc3 a V c (t.val - 1) (Nat.lt_of_le_of_lt (Nat.sub_le _ _) t.isLt)) := by
  obtain ⟨n, hn⟩ := t
  cases n with
  | zero => exact absurd rfl h0
  | succ n => rfl

/-! ## The body obligation, at a generic point -/

/-- Each window's current staging memref at point `t`, as the pipeline passes it to the body, and its wholeness. -/
abbrev ms3_0 (t : Fin (cfg3 a).N) : Memref sig .tc .vmem S1x1x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1x1x128 .f32 := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) : Memref sig .tc .vmem S1x1x128 .f32 := spec3_2.stage ((cfg3 a).slots t 2)
abbrev hs3_2 (t : Fin (cfg3 a).N) : (ms3_2 a t).IsWhole := hstage3_2 (((cfg3 a).slots t 2).cast nbuf3_2)
abbrev ms3_3 (t : Fin (cfg3 a).N) : Memref sig .tc .vmem S1x128 .f32 := spec3_3.stage ((cfg3 a).slots t 3)
abbrev hs3_3 (t : Fin (cfg3 a).N) : (ms3_3 a t).IsWhole := hstage3_3 (((cfg3 a).slots t 3).cast nbuf3_3)

/-- The kernel body at point `t`, on what the pipeline calls it with: the three tables whole, each window's current
    staging memref. -/
abbrev bodyAt3 (t : Fin (cfg3 a).N) : Prog (TpuEff nD τ sig (Elt F) Λ₀ .tc) PUnit :=
  cc3__lookup_loss_kernel (grid3.coords t) (Memref.whole main_arg5) (Memref.isWhole_whole _) (Memref.whole main_arg6) (Memref.isWhole_whole _)
    (Memref.whole main_arg7) (Memref.isWhole_whole _) (ms3_0 a t) (hs3_0 a t) (ms3_1 a t) (hs3_1 a t) (ms3_2 a t) (hs3_2 a t) (ms3_3 a t) (hs3_3 a t)

/-- What the body is called with at point `t`, -/
def bodyPre3 (c : Dev nD) (t : Fin (cfg3 a).N) : sProp 𝕄 :=
  iprop((dat3 a V c).Φ t.castSucc ∗ (dat3 a V c).owesAt () t.castSucc
    ∗ (∃ d, owns (c : Thread nD τ) (ms3_0 a t) fullShare ((dat3 a V c).before 0 t d))
    ∗ (∃ d, owns (c : Thread nD τ) (ms3_1 a t) fullShare ((dat3 a V c).before 1 t d))
    ∗ (∃ d, owns (c : Thread nD τ) (ms3_2 a t) fullShare ((dat3 a V c).before 2 t d))
    ∗ (∃ d, owns (c : Thread nD τ) (ms3_3 a t) fullShare ((dat3 a V c).before 3 t d)))

/-- and what it returns. -/
def bodyPost3 (c : Dev nD) (t : Fin (cfg3 a).N) : sProp 𝕄 :=
  iprop((dat3 a V c).Φ t.succ ∗ (dat3 a V c).owesAt () t.succ
    ∗ owns (c : Thread nD τ) (ms3_0 a t) fullShare ((dat3 a V c).after 0 t)
    ∗ owns (c : Thread nD τ) (ms3_1 a t) fullShare ((dat3 a V c).after 1 t)
    ∗ owns (c : Thread nD τ) (ms3_2 a t) fullShare ((dat3 a V c).after 2 t)
    ∗ owns (c : Thread nD τ) (ms3_3 a t) fullShare ((dat3 a V c).after 3 t))

set_option maxHeartbeats 800000 in
/-- The body at any point: the inputs' buffers hold their blocks; at the first point the output's buffer holds
    anything and the body resets it, at a later point it holds what the point before left; the invariant passes
    through unread; the core owes nothing throughout. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [before3_0, before3_1, before3_2]
  rw [show (dat3 a V c).Φ t.succ = (dat3 a V c).Φ t.castSucc from rfl,
    show (dat3 a V c).owesAt () t.succ = (dat3 a V c).owesAt () t.castSucc from rfl,
    after3_0, after3_1, after3_2, after3_3]
  by_cases h0 : t.val = 0
  · rw [acc3_A a V c t h0]
    simp only [before3_3_A a V c t h0]
    iintro ⟨HΦ, Ho, ⟨%d0, H0⟩, ⟨%d1, H1⟩, ⟨%d2, H2⟩, ⟨%d3, H3⟩⟩
    iapply (sound_kernel3_A c Set.univ (grid3.coords t) ((hcond3 _).mpr ((coord3 t).trans h0)) _ _ _ _ _ _ _ _ _ _ _ _ _ _
      (iblk3 a V c 0 t) (iblk3 a V c 1 t) (iblk3 a V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc3_B a V c t h0]
    simp only [before3_3_B a V c t h0]
    iintro ⟨HΦ, Ho, ⟨%d0, H0⟩, ⟨%d1, H1⟩, ⟨%d2, H2⟩, ⟨%d3, H3⟩⟩
    iapply (sound_kernel3_B c Set.univ (grid3.coords t) (fun h => h0 ((coord3 t).symm.trans ((hcond3 _).mp h))) _ _ _ _ _ _ _ _ _ _ _ _ _ _
      (iblk3 a V c 0 t) (iblk3 a V c 1 t) (iblk3 a V c 2 t) (acc3 a V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the lookup pipeline, at every point. -/
theorem body_obligation3 (c : Dev nD) : BodyObligation (dat3 (F := F) a V c) (defs₀ (F := F)) Variants.none () Set.univ := fun t => by
  rw [bigSep_W3, bigSep_W3]
  exact sound_body3 a V c t

end Cert.Kernel.Hand

end
-- ==== Proof.Kernel.Thread.lean ====
/-
  What rides beside the buffers from one item of the program to the next on a core: the generator register at some
  state and the core owing nothing; no level is assigned, no variant is used. Shared by the modules that state the
  program's items as segments.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Kernel.LookupSeg.lean ====
/-
  The lookup call as an item of the program: how a core's thread state — every unscoped buffer whole at the contents
  `Wv c`, the generator register, nothing owed — enters the lookup pipeline and leaves it. At entry the three arrays
  of the four windows are split out of the unscoped buffers (the items table, read by two windows, as two half
  shares), the three index tables are handed over whole, the generator register goes into the invariant and every
  other unscoped buffer bypasses the region; at exit the halves are joined again, the output array is held at what
  the pipeline left in it, and everything else is as it was.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import proofs.«428003_j33079838114572_4_alg».proof.Proof.Kernel.Lookup
import proofs.«428003_j33079838114572_4_alg».proof.Proof.Kernel.Thread
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm) (Wv : Dev nD → Valuation τ sig (Elt F))

/-- The contents `Wv` read at the TensorCore's references. -/
abbrev Vof : (c : Dev nD) → (b : Ref sig .tc) → Buf (Elt F) ((c : Thread nD τ).loc b) := fun c b => Wv c b

/-- The contents after the lookup region: the output array at what the pipeline's one write-back leaves, every
    other buffer as entered. -/
def Wout3 (c : Dev nD) : Valuation τ sig (Elt F) :=
  Function.update (Wv c) (Proc.devRef .tc main_v49) ((dat3 a3 (Vof Wv) c).arrAt 3 (cfg3 a3).N)

theorem Wout3_out (c : Dev nD) : Wout3 a3 Wv c (Proc.devRef .tc main_v49) = (dat3 a3 (Vof Wv) c).arrAt 3 (cfg3 a3).N := by
  unfold Wout3; exact Function.update_self _ _ _

theorem Wout3_of_ne (c : Dev nD) (b : Ref sig .tc) (hb : b ≠ main_v49) : Wout3 a3 Wv c (Proc.devRef .tc b) = Wv c (Proc.devRef .tc b) := by
  unfold Wout3; exact Function.update_of_ne (StableHlo.devRef_ne_of_ne hb) _ _

variable (V : (c : Dev nD) → (b : Ref sig .tc) → Buf (Elt F) ((c : Thread nD τ).loc b))

/-- The arrays behind the four windows are three buffers: the items table is read by two windows. -/
theorem image_arr3 : Finset.univ.image (Pipeline.arrRef spec3) = ({main_v47, main_v48, main_v49} : Finset (Ref sig .tc)) := by decide

theorem share3_0 (c : Dev nD) : (dat3 a3 V c).share (0 : Fin 4) = fullShare := rfl
theorem share3_1 (c : Dev nD) : (dat3 a3 V c).share (1 : Fin 4) = fullShare.left := rfl
theorem share3_2 (c : Dev nD) : (dat3 a3 V c).share (2 : Fin 4) = fullShare.right := rfl
theorem share3_3 (c : Dev nD) : (dat3 a3 V c).share (3 : Fin 4) = fullShare := rfl

/-- The four windows' arrays one by one: the users table and the output whole, the items table as two halves. -/
theorem arrays3_eq (c : Dev nD) (G : (w : Fin (cfg3 a3).W) → Buf (Elt F) (((cfg3 a3).win w).arr.view.loc (c.tc : Thread nD τ))) :
    (dat3 a3 V c).arrays G
      = (iprop((((c : Thread nD τ).loc main_v47) ↦{fullShare} G 0) ∗ (((c : Thread nD τ).loc main_v48) ↦{fullShare.left} G 1)
          ∗ (((c : Thread nD τ).loc main_v48) ↦{fullShare.right} G 2) ∗ (((c : Thread nD τ).loc main_v49) ↦{fullShare} G 3)) : sProp 𝕄) := by
  unfold Pipeline.Dat.arrays
  rw [bigSep_W3]
  refine congrArg₂ _ ?_ (congrArg₂ _ ?_ (congrArg₂ _ ?_ ?_))
  · rw [show ((cfg3 a3).win (0 : Fin 4)).arr.view.set = Finset.univ from (arr_whole3 0).set_eq_univ]; rfl
  · rw [show ((cfg3 a3).win (1 : Fin 4)).arr.view.set = Finset.univ from (arr_whole3 1).set_eq_univ]; rfl
  · rw [show ((cfg3 a3).win (2 : Fin 4)).arr.view.set = Finset.univ from (arr_whole3 2).set_eq_univ]; rfl
  · rw [show ((cfg3 a3).win (3 : Fin 4)).arr.view.set = Finset.univ from (arr_whole3 3).set_eq_univ]; rfl

/-- The three buffers behind the arrays, each whole. -/
theorem arrBufs3_eq (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      = iprop((((c : Thread nD τ).loc main_v47) ↦{fullShare} X main_v47) ∗ (((c : Thread nD τ).loc main_v48) ↦{fullShare} X main_v48)
          ∗ (((c : Thread nD τ).loc main_v49) ↦{fullShare} X main_v49)) := by
  unfold Pipeline.arrBufs
  rw [image_arr3, BI.bigSep_insert (by decide), BI.bigSep_insert (by decide), BI.bigSep_singleton]
  rfl

include a3 in
/-- The core's unscoped buffers: the three buffers behind the arrays, the three tables, and the rest. -/
theorem unscoped3_split (c : Dev nD) (X : (b : Ref sig .tc) → Buf (Elt F) ((c : Thread nD τ).loc b)) :
    (unscopedBufs (Ix := Unit) (Name := ℕ) (U := UR sig nD τ) (Lvl := ℕ) c X : sProp 𝕄)
      = iprop(((((c : Thread nD τ).loc main_v47) ↦{fullShare} X main_v47) ∗ (((c : Thread nD τ).loc main_v48) ↦{fullShare} X main_v48)
            ∗ (((c : Thread nD τ).loc main_v49) ↦{fullShare} X main_v49))
          ∗ Pipeline.prefHeld (Ix := Unit) (Name := ℕ) (U := UR sig nD τ) (Lvl := ℕ) pre3 c (fun _ => fullShare) (fun k => X (pre3.ref k))
          ∗ Pipeline.unscopedRestP (Ix := Unit) (Name := ℕ) (U := UR sig nD τ) (Lvl := ℕ) pre3 spec3 c X) := by
  rw [Pipeline.unscopedBufs_split₀ (fun _ : Unit => cfg3 a3) () winFacts₀3.arr_unscoped c X]
  show iprop(Pipeline.arrBufs spec3 c X ∗ Pipeline.unscopedRest spec3 c X) = _
  rw [arrBufs3_eq, Pipeline.unscopedRest_split preFacts3 c X]

/-- ENTRY. -/
theorem entry3 (c : Dev nD) (ha : ∀ k, a3.1 k = Vof Wv c (pre3.ref k)) :
    iprop((StableHlo.held (c : Thread nD τ) (Pipeline.ucRefs τ sig) (Wv c) ∗ R (F := F) c) ∗ Pipeline.ownSems0 (fun k : PEmpty => k.elim) c ∗ levAts L lv)
      ⊢ |={Set.univ}=> (iprop((dat3 a3 (Vof Wv) c).arrays ((dat3 a3 (Vof Wv) c).arrAt · 0)
          ∗ Pipeline.prefHeld (Ix := Unit) (Name := ℕ) (U := UR sig nD τ) (Lvl := ℕ) pre3 c (fun _ => fullShare) a3.1
          ∗ (dat3 a3 (Vof Wv) c).owesAt () 0 ∗ (∃ r, prngReg c r)
          ∗ Pipeline.unscopedRestP (Ix := Unit) (Name := ℕ) (U := UR sig nD τ) (Lvl := ℕ) pre3 spec3 c (Vof Wv c)) : sProp 𝕄) := by
  have hpf : (fun k => Vof Wv c (pre3.ref k)) = a3.1 := funext fun k => (ha k).symm
  have hsplit : StableHlo.held (c : Thread nD τ) (Pipeline.ucRefs τ sig) (Wv c)
      ⊢ (iprop((dat3 a3 (Vof Wv) c).arrays ((dat3 a3 (Vof Wv) c).arrAt · 0)
          ∗ Pipeline.prefHeld (Ix := Unit) (Name := ℕ) (U := UR sig nD τ) (Lvl := ℕ) pre3 c (fun _ => fullShare) a3.1
          ∗ Pipeline.unscopedRestP (Ix := Unit) (Name := ℕ) (U := UR sig nD τ) (Lvl := ℕ) pre3 spec3 c (Vof Wv c)) : sProp 𝕄) := by
    rw [← Pipeline.unscopedBufs_held (Ix := Unit) (Name := ℕ) (U := UR sig nD τ) (Lvl := ℕ) c (Wv c)]
    show (unscopedBufs c (Vof Wv c) : sProp 𝕄) ⊢ _
    rw [unscoped3_split a3 c (Vof Wv c), hpf, arrays3_eq]
    iintro ⟨⟨H47, H48, H49⟩, Hpf, Hrest⟩
    ihave H48' := (pointsTo_share (PosShare.mem_left_op_right fullShare)).1 $$ H48
    icases H48' with ⟨H48l, H48r⟩
    isplitl [H47 H48l H48r H49]
    · isplitl [H47]; · iexact H47
      isplitl [H48l]; · iexact H48l
      isplitl [H48r]; · iexact H48r
      iexact H49
    isplitl [Hpf]; · iexact Hpf
    iexact Hrest
  iintro ⟨⟨Hub, Hp, HO⟩, -, -⟩
  ihave H := hsplit $$ Hub
  icases H with ⟨Ha, Hpf, Hrest⟩
  imodintro
  isplitl [Ha]; · iexact Ha
  isplitl [Hpf]; · iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- The invariant at the first point: the scoped buffers no window stages, the generator register, the tables. -/
theorem in3 (c : Dev nD) :
    (iprop((∃ r, prngReg c r) ∗ Pipeline.prefHeld (Ix := Unit) (Name := ℕ) (U := UR sig nD τ) (Lvl := ℕ) pre3 c (fun _ => fullShare) a3.1 ∗ Pipeline.scopedRest spec3 c) : sProp 𝕄) ⊢ (dat3 a3 (Vof Wv) c).Φ 0 := by
  rw [Φ3_eq]; unfold Pipeline.ΦA
  iintro ⟨Hp, Ht, Hr⟩
  isplitl [Hr Hp]
  · isplitl [Hr]; · iexact Hr
    iexact Hp
  iexact Ht

/-- The invariant at the last point gives all of it back. -/
theorem out3 (c : Dev nD) :
    (dat3 a3 (Vof Wv) c).Φ (Fin.last _) ⊢ (iprop(((∃ r, prngReg c r) ∗ Pipeline.prefHeld (Ix := Unit) (Name := ℕ) (U := UR sig nD τ) (Lvl := ℕ) pre3 c (fun _ => fullShare) a3.1) ∗ Pipeline.ownSems0 (fun k : PEmpty => k.elim) c ∗ Pipeline.scopedRest spec3 c) : sProp 𝕄) := by
  rw [Φ3_eq, Pipeline.ownSems0_none]; unfold Pipeline.ΦA
  iintro ⟨⟨Hr, Hp⟩, Ht⟩
  isplitl [Hp Ht]
  · isplitl [Hp]; · iexact Hp
    iexact Ht
  isplitr; · iempintro
  iexact Hr

/-- Equal contents, equal holdings. -/
theorem pt_eq3 {ℓ : Loc nD τ sig} {q : PosShare TreeShare} {f g : Buf (Elt F) ℓ} (h : f = g) : (ℓ ↦{q} f : sProp 𝕄) = ℓ ↦{q} g := by rw [h]
/-- EXIT. -/
theorem exit3 (c : Dev nD) (ha : ∀ k, a3.1 k = Vof Wv c (pre3.ref k)) :
    (iprop((dat3 a3 (Vof Wv) c).arrays ((dat3 a3 (Vof Wv) c).arrAt · (cfg3 a3).N) ∗ (dat3 a3 (Vof Wv) c).owesAt () (Fin.last _)
        ∗ ((∃ r, prngReg c r) ∗ Pipeline.prefHeld (Ix := Unit) (Name := ℕ) (U := UR sig nD τ) (Lvl := ℕ) pre3 c (fun _ => fullShare) a3.1)
        ∗ Pipeline.unscopedRestP (Ix := Unit) (Name := ℕ) (U := UR sig nD τ) (Lvl := ℕ) pre3 spec3 c (Vof Wv c)) : sProp 𝕄)
      ⊢ |={Set.univ}=> iprop(StableHlo.held (c : Thread nD τ) (Pipeline.ucRefs τ sig) (Wout3 a3 Wv c) ∗ R (F := F) c) := by
  have hA : (dat3 a3 (Vof Wv) c).arrays ((dat3 a3 (Vof Wv) c).arrAt · (cfg3 a3).N)
      = (iprop((((c : Thread nD τ).loc main_v47) ↦{fullShare} (dat3 a3 (Vof Wv) c).arrAt 0 (cfg3 a3).N)
          ∗ (((c : Thread nD τ).loc main_v48) ↦{fullShare.left} (dat3 a3 (Vof Wv) c).arrAt 1 (cfg3 a3).N)
          ∗ (((c : Thread nD τ).loc main_v48) ↦{fullShare.right} (dat3 a3 (Vof Wv) c).arrAt 2 (cfg3 a3).N)
          ∗ (((c : Thread nD τ).loc main_v49) ↦{fullShare} (dat3 a3 (Vof Wv) c).arrAt 3 (cfg3 a3).N)) : sProp 𝕄) :=
    arrays3_eq a3 (Vof Wv) c _
  have e0 : (dat3 a3 (Vof Wv) c).arrAt 0 (cfg3 a3).N = Wout3 a3 Wv c (Proc.devRef .tc main_v47) :=
    ((dat3 a3 (Vof Wv) c).arrAt_in 0 rfl _).trans (Wout3_of_ne a3 Wv c main_v47 (by decide)).symm
  have e1 : (dat3 a3 (Vof Wv) c).arrAt 1 (cfg3 a3).N = Wout3 a3 Wv c (Proc.devRef .tc main_v48) :=
    ((dat3 a3 (Vof Wv) c).arrAt_in 1 rfl _).trans (Wout3_of_ne a3 Wv c main_v48 (by decide)).symm
  have e2 : (dat3 a3 (Vof Wv) c).arrAt 2 (cfg3 a3).N = Wout3 a3 Wv c (Proc.devRef .tc main_v48) :=
    ((dat3 a3 (Vof Wv) c).arrAt_in 2 rfl _).trans (Wout3_of_ne a3 Wv c main_v48 (by decide)).symm
  have e3 : (dat3 a3 (Vof Wv) c).arrAt 3 (cfg3 a3).N = Wout3 a3 Wv c (Proc.devRef .tc main_v49) := (Wout3_out a3 Wv c).symm
  have hP : (fun k => (fun b : Ref sig .tc => Wout3 a3 Wv c b) (pre3.ref k)) = a3.1 :=
    funext fun k => (Wout3_of_ne a3 Wv c (pre3.ref k) (by revert k; decide)).trans (ha k).symm
  have hR : (Pipeline.unscopedRestP (Ix := Unit) (Name := ℕ) (U := UR sig nD τ) (Lvl := ℕ) pre3 spec3 c (fun b => Wout3 a3 Wv c b) : sProp 𝕄)
      = Pipeline.unscopedRestP pre3 spec3 c (Vof Wv c) := by
    unfold Pipeline.unscopedRestP
    exact BI.bigSep_congr fun b hb => pt_eq3 (Wout3_of_ne a3 Wv c b fun e =>
      (Finset.mem_sdiff.mp (Finset.mem_sdiff.mp hb).1).2 (e ▸ Finset.mem_image.mpr ⟨3, Finset.mem_univ _, rfl⟩))
  have hjoin : (iprop((dat3 a3 (Vof Wv) c).arrays ((dat3 a3 (Vof Wv) c).arrAt · (cfg3 a3).N)
        ∗ Pipeline.prefHeld (Ix := Unit) (Name := ℕ) (U := UR sig nD τ) (Lvl := ℕ) pre3 c (fun _ => fullShare) a3.1
        ∗ Pipeline.unscopedRestP (Ix := Unit) (Name := ℕ) (U := UR sig nD τ) (Lvl := ℕ) pre3 spec3 c (Vof Wv c)) : sProp 𝕄)
      ⊢ StableHlo.held (c : Thread nD τ) (Pipeline.ucRefs τ sig) (Wout3 a3 Wv c) := by
    rw [← Pipeline.unscopedBufs_held (Ix := Unit) (Name := ℕ) (U := UR sig nD τ) (Lvl := ℕ) c (Wout3 a3 Wv c),
      unscoped3_split a3 c (fun b => Wout3 a3 Wv c b), hP, hR, hA, pt_eq3 (ℓ := (c : Thread nD τ).loc main_v47) e0, pt_eq3 (ℓ := (c : Thread nD τ).loc main_v48) e1,
      pt_eq3 (ℓ := (c : Thread nD τ).loc main_v48) e2, pt_eq3 (ℓ := (c : Thread nD τ).loc main_v49) e3]
    iintro ⟨⟨H47, H48l, H48r, H49⟩, Hpf, Hrest⟩
    isplitl [H47 H48l H48r H49]
    · isplitl [H47]; · iexact H47
      isplitl [H48l H48r]
      · iapply (pointsTo_share (PosShare.mem_left_op_right fullShare)).2
        isplitl [H48l]; · iexact H48l
        iexact H48r
      iexact H49
    isplitl [Hpf]; · iexact Hpf
    iexact Hrest
  iintro ⟨Ha, HO, ⟨HY, Hpf⟩, Hrest⟩
  imodintro
  isplitl [Ha Hpf Hrest]
  · iapply hjoin
    isplitl [Ha]; · iexact Ha
    isplitl [Hpf]; · iexact Hpf
    iexact Hrest
  isplitl [HY]; · iexact HY
  unfold Pipeline.Dat.owesAt Pipeline.owesWithin
  icases HO with ⟨%W, -, HO⟩; iexists W; iexact HO

end Cert.Kernel.Hand

end
-- ==== Proof.Kernel.Run.lean ====
/-
  The whole program as a run of its nine items — five stretches of host operations and the four kernel calls between
  them — from the launch memory `m`, at admissible contents `a3` of the lookup call's index tables that are what the
  tables hold when that call is entered. The contents of a core's unscoped buffers at each boundary are a fold from `m`: a host stretch
  applies its operations (`StableHlo.after`), an accumulate call leaves its output array at what its 25 write-backs
  make of it, the lookup call leaves its [1, 128] output at what its one write-back leaves. Every weakly fair
  execution terminates, and the final memory holds every unscoped buffer at the last contents `W9` (`run`).
  This module's layout of the accumulate calls as segments follows the shape of a generated several-region frame.
-/
import proofs.«428003_j33079838114572_4_alg».proof.Proof.KernelLaunch
import proofs.«428003_j33079838114572_4_alg».proof.Proof.Gen.Kernel.Skeleton
import proofs.«428003_j33079838114572_4_alg».proof.Proof.Gen.Kernel.Points
import proofs.«428003_j33079838114572_4_alg».proof.Proof.Kernel.Acc0
import proofs.«428003_j33079838114572_4_alg».proof.Proof.Kernel.Acc1
import proofs.«428003_j33079838114572_4_alg».proof.Proof.Kernel.Acc2
import proofs.«428003_j33079838114572_4_alg».proof.Proof.Kernel.LookupSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a3 : (pcfg3 (F := F)).Adm)

/-! ## The buffer contents at each boundary -/

/-- Core `c`'s buffers at launch. -/
abbrev W0 : Dev nD → Valuation τ sig (Elt F) := fun c b => m (c, b)
/-- After the first host stretch (accumulate call 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At accumulate call 0's exit: its arrays at what the pipeline leaves (the inputs as entered, the output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (accumulate call 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At accumulate call 1's exit: its arrays at what the pipeline leaves (the inputs as entered, the output's
    write-backs folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (accumulate call 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At accumulate call 2's exit: its arrays at what the pipeline leaves (the inputs as entered, the output's
    write-backs folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the fourth host stretch (the lookup call's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the lookup call's exit. -/
abbrev W8 : Dev nD → Valuation τ sig (Elt F) := fun c => Wout3 a3 (W7 m) c
/-- After the last host stretch: the contents the program ends with. -/
abbrev W9 : Dev nD → Valuation τ sig (Elt F) := fun c => StableHlo.after hostOps4 (W8 m a3 c)

/-! ## The proof data family -/

/-- The tables' admissible contents per pipeline: the accumulate calls have none. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨_ + 4, h⟩ => absurd h (Nat.not_lt.2 (Nat.le_add_left _ _))

/-- Every pipeline's proof data, each at its region's entry contents. -/
def pdats : (p : Fin 4) → (c : Dev nD) → Dat τ (Elt F) Unit ℕ (UR sig nD τ) ℕ (Pipeline.pin (pcfgs (F := F)) (adm a3) p) c
  | ⟨0, _⟩ => fun c => dat0 (V1 m) c
  | ⟨1, _⟩ => fun c => dat1 (V3 m) c
  | ⟨2, _⟩ => fun c => dat2 (V5 m) c
  | ⟨3, _⟩ => fun c => dat3 a3 (V7 m) c
  | ⟨_ + 4, h⟩ => absurd h (Nat.not_lt.2 (Nat.le_add_left _ _))

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W9 m a3 c) ∗ ∃ r, prngReg c r)

/-! ## The kernel calls as segments -/

set_option backward.isDefEq.respectTransparency.types false in
/-- Accumulate call 0 over the thread state: entered from every unscoped buffer at `W1`, left at `W2`. Its
    three arrays are split out of the unscoped buffers and put back at the exit contents; the generator register goes
    into the invariant and comes out; nothing is owed; the kernel has no semaphore of its own. -/
def reg0 : Pipeline.RegionSeg (pcfgs (F := F)) (adm a3) (pdats m a3) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm a3) (pdats m a3) (launch0 (F := F)).win (launch0 (F := F)).arr_whole c
      ((pdats m a3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a3) (Ix := Unit) (Name := ℕ) (U := UR sig nD τ) (Lvl := ℕ)
      (launch0 (F := F)).win (launch0 (F := F)).arr_whole c (pdats m a3) ((pdats m a3 0 c).share_full fun _ => rfl)
      (V1 m c) (V2 m c) ((pdats m a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Accumulate call 1 over the thread state: entered from every unscoped buffer at `W3`, left at `W4`. Its
    three arrays are split out of the unscoped buffers and put back at the exit contents; the generator register goes
    into the invariant and comes out; nothing is owed; the kernel has no semaphore of its own. -/
def reg1 : Pipeline.RegionSeg (pcfgs (F := F)) (adm a3) (pdats m a3) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) (adm a3) (pdats m a3) (launch1 (F := F)).win (launch1 (F := F)).arr_whole c
      ((pdats m a3 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a3) (Ix := Unit) (Name := ℕ) (U := UR sig nD τ) (Lvl := ℕ)
      (launch1 (F := F)).win (launch1 (F := F)).arr_whole c (pdats m a3) ((pdats m a3 1 c).share_full fun _ => rfl)
      (V3 m c) (V4 m c) ((pdats m a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Accumulate call 2 over the thread state: entered from every unscoped buffer at `W5`, left at `W6`. Its
    three arrays are split out of the unscoped buffers and put back at the exit contents; the generator register goes
    into the invariant and comes out; nothing is owed; the kernel has no semaphore of its own. -/
def reg2 : Pipeline.RegionSeg (pcfgs (F := F)) (adm a3) (pdats m a3) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) (adm a3) (pdats m a3) (launch2 (F := F)).win (launch2 (F := F)).arr_whole c
      ((pdats m a3 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a3) (Ix := Unit) (Name := ℕ) (U := UR sig nD τ) (Lvl := ℕ)
      (launch2 (F := F)).win (launch2 (F := F)).arr_whole c (pdats m a3) ((pdats m a3 2 c).share_full fun _ => rfl)
      (V5 m c) (V6 m c) ((pdats m a3 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The lookup call over the thread state: entered from every unscoped buffer at `W7`, left at `W8`. -/
def reg3 (ha3 : ∀ (c : Dev nD) k, a3.1 k = V7 m c (pre3.ref k)) : Pipeline.RegionSeg (pcfgs (F := F)) (adm a3) (pdats m a3) () defs₀ 𝒱₀ L lv 3 where
  win := winFacts₀3
  block_pos := block_pos3
  stage_whole := stage_whole3
  K := PEmpty
  osem k := k.elim
  ho := Pipeline.OwnSemFacts.none _
  hbody c := (body_obligation3 a3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m a3 c) ∗ R c)
  X c := iprop(∃ r, prngReg c r)
  Y c := iprop((∃ r, prngReg c r) ∗ Pipeline.prefHeld (Ix := Unit) (Name := ℕ) (U := UR sig nD τ) (Lvl := ℕ) pre3 c (fun _ => fullShare) a3.1)
  Z c := Pipeline.unscopedRestP (Ix := Unit) (Name := ℕ) (U := UR sig nD τ) (Lvl := ℕ) pre3 spec3 c (V7 m c)
  hentry c := entry3 a3 (W7 m) c (fun k => ha3 c k)
  hin c := in3 a3 (W7 m) c
  hout c := out3 a3 (W7 m) c
  hexit c := exit3 a3 (W7 m) c (fun k => ha3 c k)

/-! ## The program as segments, and the run -/

abbrev segs (ha3 : ∀ (c : Dev nD) k, a3.1 k = V7 m c (pre3.ref k)) : List (Pipeline.Seg (pcfgs (F := F)) (adm a3) (pdats m a3) () defs₀ 𝒱₀ L lv) :=
  [ .host (hseg hostOps0 hostOps0_sub hostOps0_fresh (W0 m)),
    .region (reg0 m a3),
    .host (hseg hostOps1 hostOps1_sub hostOps1_fresh (W2 m)),
    .region (reg1 m a3),
    .host (hseg hostOps2 hostOps2_sub hostOps2_fresh (W4 m)),
    .region (reg2 m a3),
    .host (hseg hostOps3 hostOps3_sub hostOps3_fresh (W6 m)),
    .region (reg3 m a3 ha3),
    .host (hseg hostOps4 hostOps4_sub hostOps4_fresh (W8 m a3)) ]

/-- The program is the run of the segments. -/
theorem main_run (ha3 : ∀ (c : Dev nD) k, a3.1 k = V7 m c (pre3.ref k)) (c : Dev nD) : main (F := F) c = Pipeline.Seg.run (segs m a3 ha3) := (main_chain c).trans (by chain_rfl)

set_option backward.isDefEq.respectTransparency.types false in
/-- THE RUN: from any memory `m` with zero counters every weakly fair execution of the program terminates, nothing
    faulting, and the final memory holds every unscoped buffer of every core at the last contents `W9`. -/
theorem run (ha3 : ∀ (c : Dev nD) k, a3.1 k = V7 m c (pre3.ref k)) : θ_run defs (onTc (τ := τ) (main (F := F))) ⟨m, fun _ => 0, ρ⟩ (fun r => ∀ c : Dev nD,
      ∀ b ∈ Pipeline.ucRefs τ sig, r.2.mem (((c : Thread nD τ)).1, b) = W9 m a3 c b) :=
  Pipeline.θ_run_regions_kit (pcfgs (F := F)) (adm a3) (pdats m a3) () (cellOf_inj (adm a3)) emb₁ defs₀ 𝒱₀ L lv m ρ main (segs m a3 ha3)
    (fun c Q => by rw [main_run m a3 ha3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a3)) (cellOf_inj (adm a3))) (Pipeline.launchToks (Pipeline.pin (pcfgs (F := F)) (adm a3)) (cellOf_inj (adm a3))))
    (hu₀ := by
      iintro Hu; imodintro
      isplitl [Hu]
      · iapply (show (ownU (initOf (Pipeline.cells (Pipeline.pin (pcfgs (F := F)) (adm a3)) (cellOf_inj (adm a3))) (Pipeline.launchToks (Pipeline.pin (pcfgs (F := F)) (adm a3)) (cellOf_inj (adm a3)))) : sProp 𝕄)
            ⊢ BI.own (emb₁ (initOf (Pipeline.cells (Pipeline.pin (pcfgs (F := F)) (adm a3)) (cellOf_inj (adm a3))) (Pipeline.launchToks (Pipeline.pin (pcfgs (F := F)) (adm a3)) (cellOf_inj (adm a3))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a3)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m a3 c) ∗ R c) : sProp 𝕄)
          ⊢ iprop(Tₙ m a3 c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m a3 c b)
    (hfin := fun c s' => by
      iintro ⟨⟨Hh, -⟩, HSI⟩
      unfold StableHlo.held
      imodintro
      iapply (pointsTo_read_all (Pipeline.ucRefs τ sig) (fun b => (((c : Thread nD τ)).1, b)) (W9 m a3 c) s')
      isplitl [Hh] <;> iassumption)
    (hQ := fun s h c => h c)

end Cert.Kernel.Hand

end
-- ==== Proof.Kernel.GlueEnd.lean ====
/-
  The two ends of the host side of the program, over the fold of buffer contents from the launch memory.
  FRONT: the eight arguments are written by no host operation and are no array of a kernel call, so each keeps its
  launch contents through all nine items; in particular the three index tables reach the lookup call as launched.
  BACK: the last host stretch cuts the lookup call's [1, 128] output block at lanes 0 and 1, reshapes each [1, 1]
  corner to a scalar, and divides the second by the constant 4096; so the first result is entry (0, 0) of the block
  and the second is entry (0, 1) over 4096.
-/
import proofs.«428003_j33079838114572_4_alg».proof.Proof.KernelLaunch
import proofs.«428003_j33079838114572_4_alg».proof.Proof.Kernel.Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What each host stretch writes -/

/-- The references the first host stretch writes: the result of each of its operations. -/
abbrev wr0 : List (Ref sig .tc) := [main_v0, main_c, main_v1, main_v2, main_c_0, main_v3, main_v4, main_v5, main_v6, main_v7, main_v8, main_v9, main_v10, main_cst, main_v11, main_v12, main_v13]
/-- Those of the second, -/
abbrev wr1 : List (Ref sig .tc) := [main_c_1, main_v15, main_v16, main_c_2, main_v17, main_v18, main_v19, main_v20, main_v21, main_v22, main_v23, main_v24, main_cst_3, main_v25, main_v26, main_v27]
/-- the third, -/
abbrev wr2 : List (Ref sig .tc) := [main_c_4, main_v29, main_v30, main_c_5, main_v31, main_v32, main_v33, main_v34, main_v35, main_v36, main_v37, main_v38, main_cst_6, main_v39, main_v40, main_v41]
/-- the fourth (the two tables the lookup call reads rows of), -/
abbrev wr3 : List (Ref sig .tc) := [main_v43, main_v44, main_v45, main_v46, main_v47, main_v48]
/-- and the last (the two results). -/
abbrev wr4 : List (Ref sig .tc) := [main_v50, main_v51, main_v52, main_v53, main_cst_7, main_v54]

theorem host0_writes : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host1_writes : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host2_writes : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host3_writes : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host4_writes : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference a stretch does not write keeps its contents through it, from any contents `W`. -/
theorem host0_keep (W : Valuation τ sig (Elt F)) (r : Ref sig .tc) (h : r ∉ wr0) :
    StableHlo.after hostOps0 W (Proc.devRef .tc r) = W (Proc.devRef .tc r) := StableHlo.after_of_writes_sub hostOps0 W host0_writes h
theorem host1_keep (W : Valuation τ sig (Elt F)) (r : Ref sig .tc) (h : r ∉ wr1) :
    StableHlo.after hostOps1 W (Proc.devRef .tc r) = W (Proc.devRef .tc r) := StableHlo.after_of_writes_sub hostOps1 W host1_writes h
theorem host2_keep (W : Valuation τ sig (Elt F)) (r : Ref sig .tc) (h : r ∉ wr2) :
    StableHlo.after hostOps2 W (Proc.devRef .tc r) = W (Proc.devRef .tc r) := StableHlo.after_of_writes_sub hostOps2 W host2_writes h
theorem host3_keep (W : Valuation τ sig (Elt F)) (r : Ref sig .tc) (h : r ∉ wr3) :
    StableHlo.after hostOps3 W (Proc.devRef .tc r) = W (Proc.devRef .tc r) := StableHlo.after_of_writes_sub hostOps3 W host3_writes h
theorem host4_keep (W : Valuation τ sig (Elt F)) (r : Ref sig .tc) (h : r ∉ wr4) :
    StableHlo.after hostOps4 W (Proc.devRef .tc r) = W (Proc.devRef .tc r) := StableHlo.after_of_writes_sub hostOps4 W host4_writes h

/-! ## The last stretch's two results, from any contents -/

theorem numel_S1x1 : S1x1.numel = 1 := by decide
theorem numel_S_ : S_.numel = 1 := by decide

/-- A [1, 1] array reshaped to a scalar reads its one entry. -/
theorem cast_S1x1_S_ {α : Type} (x : S1x1.Idx → α) (h : S1x1.ShapeCasts S_) (i : S_.Idx) :
    shapeCast S_ x h i = x (ix2 (0 : Fin 1) (0 : Fin 1)) :=
  shapeCast_apply x h i _ (by
    have h1 : (S1x1.rowMajor (ix2 (0 : Fin 1) (0 : Fin 1))).val < 1 := lt_of_lt_of_eq (S1x1.rowMajor _).isLt numel_S1x1
    have h2 : (S_.rowMajor i).val < 1 := lt_of_lt_of_eq (S_.rowMajor i).isLt numel_S_
    omega)

/-- The [1, 1] corner of a [1, 128] row at lane 0 reads entry (0, 0), -/
theorem slice_lane0 {α : Type} (x : S1x128.Idx → α) (h : S1x128.Slices ![0, 0] S1x1) :
    extractStridedSlice S1x1 ![0, 0] x h (ix2 (0 : Fin 1) (0 : Fin 1)) = x (ix2 (0 : Fin 1) (0 : Fin 128)) :=
  extractStridedSlice_apply _ x h _ _ (fun a => match a with | ⟨0, _⟩ => rfl | ⟨1, _⟩ => rfl)
/-- and at lane 1 entry (0, 1). -/
theorem slice_lane1 {α : Type} (x : S1x128.Idx → α) (h : S1x128.Slices ![0, 1] S1x1) :
    extractStridedSlice S1x1 ![0, 1] x h (ix2 (0 : Fin 1) (0 : Fin 1)) = x (ix2 (0 : Fin 1) (1 : Fin 128)) :=
  extractStridedSlice_apply _ x h _ _ (fun a => match a with | ⟨0, _⟩ => rfl | ⟨1, _⟩ => rfl)

/-- The first result is entry (0, 0) of the lookup call's output block. -/
theorem host4_loss (W : Valuation τ sig (Elt F)) :
    StableHlo.after hostOps4 W (Proc.devRef .tc main_v51) = fun _ => (W (Proc.devRef .tc main_v49) : S1x128.Idx → Elt F .f32) (ix2 (0 : Fin 1) (0 : Fin 128)) := by
  after_results
  funext i
  show shapeCast S_ (extractStridedSlice S1x1 ![0, 0] (W (Proc.devRef .tc main_v49)) slices_S1x128_S1x1_0_0) shapeCasts_S1x1_S_ i = _
  rw [cast_S1x1_S_, slice_lane0]

/-- The second result is entry (0, 1) of that block divided by the constant 4096. -/
theorem host4_reg (W : Valuation τ sig (Elt F)) :
    StableHlo.after hostOps4 W (Proc.devRef .tc main_v54)
      = Host.divf (fun _ => (W (Proc.devRef .tc main_v49) : S1x128.Idx → Elt F .f32) (ix2 (0 : Fin 1) (1 : Fin 128))) (constant S_ .f32 0x45800000#32) := by
  after_results
  refine congrArg (fun z => Host.divf z _) ?_
  funext i
  show shapeCast S_ (extractStridedSlice S1x1 ![0, 1] (W (Proc.devRef .tc main_v49)) slices_S1x128_S1x1_0_1) shapeCasts_S1x1_S_ i = _
  rw [cast_S1x1_S_, slice_lane1]

/-! ## The arguments, and the tables, through the whole fold -/

variable (m : (ℓ : Loc nD τ sig) → Buf (Elt F) ℓ) (a3 : (pcfg3 (F := F)).Adm)

/-- A reference that no host stretch writes and that is no array of an accumulate call reaches the lookup call as
    launched: each item of the fold leaves it alone. -/
theorem W7_keep (c : Dev nD) (r : Ref sig .tc) (h0 : r ∉ wr0 := by decide) (h1 : r ∉ wr1 := by decide) (h2 : r ∉ wr2 := by decide)
    (h3 : r ∉ wr3 := by decide) (a0 : ∀ w, Pipeline.arrRef spec0 w ≠ r := by decide) (a1 : ∀ w, Pipeline.arrRef spec1 w ≠ r := by decide)
    (a2 : ∀ w, Pipeline.arrRef spec2 w ≠ r := by decide) :
    W7 m c (Proc.devRef .tc r) = m ((c : Thread nD τ).loc r) :=
  (host3_keep _ r h3).trans <| (W6_of_ne m c r a2).trans <| (host2_keep _ r h2).trans <| (W4_of_ne m c r a1).trans <|
    (host1_keep _ r h1).trans <| (W2_of_ne m c r a0).trans <| (host0_keep _ r h0).trans rfl

/-- If moreover it is not the lookup call's output and the last stretch does not write it, it ends as launched. -/
theorem W9_keep (c : Dev nD) (r : Ref sig .tc) (h0 : r ∉ wr0 := by decide) (h1 : r ∉ wr1 := by decide) (h2 : r ∉ wr2 := by decide)
    (h3 : r ∉ wr3 := by decide) (h4 : r ∉ wr4 := by decide) (a0 : ∀ w, Pipeline.arrRef spec0 w ≠ r := by decide)
    (a1 : ∀ w, Pipeline.arrRef spec1 w ≠ r := by decide) (a2 : ∀ w, Pipeline.arrRef spec2 w ≠ r := by decide) (a3' : r ≠ main_v49 := by decide) :
    W9 m a3 c (Proc.devRef .tc r) = m ((c : Thread nD τ).loc r) :=
  (host4_keep _ r h4).trans <| (Wout3_of_ne a3 (W7 m) c r a3').trans <| W7_keep m c r h0 h1 h2 h3 a0 a1 a2

/-- The three index tables reach the lookup call as launched. -/
theorem V7_pre' (c : Dev nD) (k : Fin pre3.K) : V7 m c (pre3.ref k) = m ((c : Thread nD τ).loc (pre3.ref k)) :=
  match k with
  | ⟨0, _⟩ => W7_keep m c main_arg5
  | ⟨1, _⟩ => W7_keep m c main_arg6
  | ⟨2, _⟩ => W7_keep m c main_arg7

/-- Every argument ends as launched. -/
theorem W9_main_arg0 (c : Dev nD) : W9 m a3 c (Proc.devRef .tc main_arg0) = m ((c : Thread nD τ).loc main_arg0) := W9_keep m a3 c main_arg0
theorem W9_main_arg1 (c : Dev nD) : W9 m a3 c (Proc.devRef .tc main_arg1) = m ((c : Thread nD τ).loc main_arg1) := W9_keep m a3 c main_arg1
theorem W9_main_arg2 (c : Dev nD) : W9 m a3 c (Proc.devRef .tc main_arg2) = m ((c : Thread nD τ).loc main_arg2) := W9_keep m a3 c main_arg2
theorem W9_main_arg3 (c : Dev nD) : W9 m a3 c (Proc.devRef .tc main_arg3) = m ((c : Thread nD τ).loc main_arg3) := W9_keep m a3 c main_arg3
theorem W9_main_arg4 (c : Dev nD) : W9 m a3 c (Proc.devRef .tc main_arg4) = m ((c : Thread nD τ).loc main_arg4) := W9_keep m a3 c main_arg4
theorem W9_main_arg5 (c : Dev nD) : W9 m a3 c (Proc.devRef .tc main_arg5) = m ((c : Thread nD τ).loc main_arg5) := W9_keep m a3 c main_arg5
theorem W9_main_arg6 (c : Dev nD) : W9 m a3 c (Proc.devRef .tc main_arg6) = m ((c : Thread nD τ).loc main_arg6) := W9_keep m a3 c main_arg6
theorem W9_main_arg7 (c : Dev nD) : W9 m a3 c (Proc.devRef .tc main_arg7) = m ((c : Thread nD τ).loc main_arg7) := W9_keep m a3 c main_arg7

/-! ## The two results -/

/-- The first result: entry (0, 0) of the lookup call's output array as its one write-back leaves it. -/
theorem W9_loss (c : Dev nD) :
    W9 m a3 c (Proc.devRef .tc main_v51) = fun _ => ((dat3 a3 (V7 m) c).arrAt 3 (cfg3 a3).N : S1x128.Idx → Elt F .f32) (ix2 (0 : Fin 1) (0 : Fin 128)) := by
  rw [← Wout3_out a3 (W7 m) c]
  exact host4_loss (W8 m a3 c)

/-- The second result: entry (0, 1) of it divided by the constant 4096. -/
theorem W9_reg (c : Dev nD) :
    W9 m a3 c (Proc.devRef .tc main_v54)
      = Host.divf (fun _ => ((dat3 a3 (V7 m) c).arrAt 3 (cfg3 a3).N : S1x128.Idx → Elt F .f32) (ix2 (0 : Fin 1) (1 : Fin 128))) (constant S_ .f32 0x45800000#32) := by
  rw [← Wout3_out a3 (W7 m) c]
  exact host4_reg (W8 m a3 c)

end Cert.Kernel.Hand

end
-- ==== Proof.Kernel.Ok.lean ====
/-
  From the certificate's precondition to the side condition of the last call's prefetched tables, and to the ranges of
  their words. The three tables users, pos, neg are [4096] arrays of 32-bit words in scalar memory; at grid point t the
  index maps of the first three windows read word t of their table and fetch the row of that number: row users[t] of the
  [100000, 1, 128] array, rows pos[t] and neg[t] of the [50000, 1, 128] array. The side condition asks that each such
  block lies inside its array and that its transfer ends on whole words (rows of 32-bit entries do).
  The precondition, beside the finiteness of the float arguments, says of every word of the three tables that it is at
  least 0 and below 100000 (users) or 50000 (pos, neg), compared as signed numbers: it is a conjunction of
  and-reductions to a single bit, each of an entrywise conjunction of two comparisons against a broadcast constant.
  Reading it at one entry: the result bit is 1, so each conjunct is 1, so every entry of each reduced array is 1, so both
  comparisons hold of that entry. A word that is at least 0 signed has its top bit clear, and then reads the same signed
  and unsigned: below N signed is below N unsigned.
  Every fact about the index maps is stated with the tables' contents a variable, and read at the launch memory's
  tables last.
-/
import proofs.«428003_j33079838114572_4_alg».proof.Proof.Gen.Kernel
import proofs.«428003_j33079838114572_4_alg».proof.Proof.Gen.Pre_finite_inputs
import Idealize.ShloMosaic.Lib.StableHlo.Predicate
import Idealize.ShloMosaic.Lib.ReduceAll

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The three prefetched tables as the launch memory holds them on device 0, the program's one device. -/
def tbl : pre3.Contents (Elt F) := fun j => m (((0 : Dev nD).tc : Thread nD τ).loc (pre3.ref j))

/-- The precondition at any float instance: the printed predicate of the eight argument arrays is all ones, on every device. -/
abbrev PreH [hPre_finite_inputs : Cert.Pre_finite_inputs.Facts] : Prop :=
  ∀ c : Dev nD,
    (Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))
      = (fun _ => 1#1)

theorem tbl_0 : tbl m 0 = m (((0 : Dev nD).tc : Thread nD τ).loc main_arg5) := rfl
theorem tbl_1 : tbl m 1 = m (((0 : Dev nD).tc : Thread nD τ).loc main_arg6) := rfl
theorem tbl_2 : tbl m 2 = m (((0 : Dev nD).tc : Thread nD τ).loc main_arg7) := rfl

/-! ## The precondition read at one entry of the tables -/

/-- A word that is at least 0 and below n, both read signed, is below n read unsigned (n below 2³¹). -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn, StableHlo.Predicate.toInt_eq_toNat_of_lt (by omega)] at h1
  exact_mod_cast h1

/-- A rank-0 array has one index. -/
instance : Subsingleton Cert.Pre_finite_inputs.S_.Idx := ⟨fun a b => funext fun d => d.elim0⟩

/-- An entrywise conjunction is 1 at an entry exactly when both operands are. -/
theorem andi_at {s : Shape} (x y : IVec s 1) (j : s.Idx) : andi x y j = 1#1 ↔ x j = 1#1 ∧ y j = 1#1 :=
  IntOp.andi_eq_one

/-- The printed range test `(x ≥ lo) & (x < hi)` against broadcast constants, 1 at entry j: both comparisons hold of x j. -/
theorem range_at {s : Shape} (x : IVec s 32) (lo hi : BitVec 32) (hb : Cert.Pre_finite_inputs.S_.BroadcastsInDim s ![]) (j : s.Idx)
    (e : andi (cmpi .sge x (broadcastInDim s ![] hb (constantI Cert.Pre_finite_inputs.S_ 32 lo)))
      (cmpi .slt x (broadcastInDim s ![] hb (constantI Cert.Pre_finite_inputs.S_ 32 hi))) j = 1#1) :
    IntOp.cmpi .sge (x j) lo = 1#1 ∧ IntOp.cmpi .slt (x j) hi = 1#1 :=
  (andi_at _ _ j).1 e

section
variable [hPre_finite_inputs : Cert.Pre_finite_inputs.Facts]

/-- THE PRECONDITION DECODED at entry i of the three tables: each word passes its two signed comparisons. -/
theorem pre_words (h : PreH m) (i : S4096.Idx) :
    (IntOp.cmpi .sge (m (((0 : Dev nD).tc : Thread nD τ).loc main_arg5) i) 0#32 = 1#1
      ∧ IntOp.cmpi .slt (m (((0 : Dev nD).tc : Thread nD τ).loc main_arg5) i) 100000#32 = 1#1)
    ∧ (IntOp.cmpi .sge (m (((0 : Dev nD).tc : Thread nD τ).loc main_arg6) i) 0#32 = 1#1
      ∧ IntOp.cmpi .slt (m (((0 : Dev nD).tc : Thread nD τ).loc main_arg6) i) 50000#32 = 1#1)
    ∧ (IntOp.cmpi .sge (m (((0 : Dev nD).tc : Thread nD τ).loc main_arg7) i) 0#32 = 1#1
      ∧ IntOp.cmpi .slt (m (((0 : Dev nD).tc : Thread nD τ).loc main_arg7) i) 50000#32 = 1#1) := by
  have e := congrFun (h 0) (fun a => a.elim0)
  dsimp only [Cert.Pre_finite_inputs.fn, Cert.Pre_finite_inputs.fn_part1, Cert.Pre_finite_inputs.fn_part2] at e
  -- the result bit: ((((floats ∧ users) ∧ pos) ∧ neg), each of the last three an and-reduction over the table
  rw [andi_at, andi_at, andi_at] at e
  obtain ⟨⟨⟨-, e5⟩, e6⟩, e7⟩ := e
  exact ⟨range_at _ _ _ _ i (Host.reduce_andi_all _ _ _ _ _ e5 i), range_at _ _ _ _ i (Host.reduce_andi_all _ _ _ _ _ e6 i),
    range_at _ _ _ _ i (Host.reduce_andi_all _ _ _ _ _ e7 i)⟩

/-- The table words as unsigned numbers: every user index names a row of the [100000, 1, 128] array, -/
theorem users_lt (h : PreH m) (i : S4096.Idx) : (m (((0 : Dev nD).tc : Thread nD τ).loc main_arg5) i).toNat < 100000 :=
  toNat_lt_of_signed _ 100000 (by decide) (pre_words m h i).1.1 (pre_words m h i).1.2
/-- every positive item index a row of the [50000, 1, 128] array, -/
theorem pos_lt (h : PreH m) (i : S4096.Idx) : (m (((0 : Dev nD).tc : Thread nD τ).loc main_arg6) i).toNat < 50000 :=
  toNat_lt_of_signed _ 50000 (by decide) (pre_words m h i).2.1.1 (pre_words m h i).2.1.2
/-- and every negative item index. -/
theorem neg_lt (h : PreH m) (i : S4096.Idx) : (m (((0 : Dev nD).tc : Thread nD τ).loc main_arg7) i).toNat < 50000 :=
  toNat_lt_of_signed _ 50000 (by decide) (pre_words m h i).2.2.1 (pre_words m h i).2.2.2

end

/-! ## The index maps, at any contents of the tables -/

/-- Index k of a [4096] table. -/
abbrev ixK (k : Fin 4096) : S4096.Idx := Shape.Idx.ofFin k
/-- The index of a [4096] table that a grid point names: its one coordinate. -/
abbrev ixT (t : grid3.Coords) : S4096.Idx := ixK ⟨(t 0).val, (t 0).isLt⟩

/-- The one element of a unit rectangle of the [4096] table at offset k is element k. -/
theorem emb_unit (off : Fin 1 → Nat) (inb : ∀ a, off a + S1.size a ≤ S4096.size a) (k : Fin 4096) (hoff : off 0 = k.val)
    (x : (Rect.unit (s := S4096) off S1.size inb).shape.Idx) :
    (Rect.unit (s := S4096) off S1.size inb).emb x = ixK k := by
  funext a
  apply Fin.ext
  have ha : a = 0 := Subsingleton.elim _ _
  subst ha
  have hx : (x 0).val < 1 := (x 0).isLt
  show off 0 + 1 * (x 0).val = k.val
  omega

/-- The offset the index maps compute at grid point t is t's coordinate. -/
theorem off_at (t : grid3.Coords) : (![(Scalar.indexCast (BitVec.ofNat 32 (t 0).val)).toNat] : Fin 1 → Nat) 0 = (t 0).val :=
  congrFun (k3_off1_eq t) 0

section
variable (pf : pre3.Contents (Elt F))

/-- The word read of a table through the unit rectangle at offset k is the table's element k. -/
theorem at_0_of (off : Fin 1 → Nat) (inb : ∀ a, off a + S1.size a ≤ S4096.size a) (h1 : S1.numel = 1) (k : Fin 4096) (hoff : off 0 = k.val) :
    pf.at 0 (Rect.unit (s := S4096) off S1.size inb) h1 = pf 0 (ixK k) := congrArg (pf 0) (emb_unit off inb k hoff _)
theorem at_1_of (off : Fin 1 → Nat) (inb : ∀ a, off a + S1.size a ≤ S4096.size a) (h1 : S1.numel = 1) (k : Fin 4096) (hoff : off 0 = k.val) :
    pf.at 1 (Rect.unit (s := S4096) off S1.size inb) h1 = pf 1 (ixK k) := congrArg (pf 1) (emb_unit off inb k hoff _)
theorem at_2_of (off : Fin 1 → Nat) (inb : ∀ a, off a + S1.size a ≤ S4096.size a) (h1 : S1.numel = 1) (k : Fin 4096) (hoff : off 0 = k.val) :
    pf.at 2 (Rect.unit (s := S4096) off S1.size inb) h1 = pf 2 (ixK k) := congrArg (pf 2) (emb_unit off inb k hoff _)

/-- The word an index map reads of its table at grid point t is the table's element t. -/
theorem at_0 (t : grid3.Coords) :
    pf.at 0 (Rect.unit (s := S4096) ![(Scalar.indexCast (BitVec.ofNat 32 (t 0).val)).toNat] S1.size (k3_off1_inb t)) numel1_S1 = pf 0 (ixT t) :=
  at_0_of pf _ _ _ ⟨(t 0).val, (t 0).isLt⟩ (off_at t)
theorem at_1 (t : grid3.Coords) :
    pf.at 1 (Rect.unit (s := S4096) ![(Scalar.indexCast (BitVec.ofNat 32 (t 0).val)).toNat] S1.size (k3_off1_inb t)) numel1_S1 = pf 1 (ixT t) :=
  at_1_of pf _ _ _ ⟨(t 0).val, (t 0).isLt⟩ (off_at t)
theorem at_2 (t : grid3.Coords) :
    pf.at 2 (Rect.unit (s := S4096) ![(Scalar.indexCast (BitVec.ofNat 32 (t 0).val)).toNat] S1.size (k3_off1_inb t)) numel1_S1 = pf 2 (ixT t) :=
  at_2_of pf _ _ _ ⟨(t 0).val, (t 0).isLt⟩ (off_at t)

/-- The three index maps that read a table: block (the table's word at t, 0, 0). -/
theorem ix_0 (t : grid3.Coords) : cc3_transform_0 k3_off1_inb numel1_S1 pf t = ![(pf 0 (ixT t)).toNat, 0, 0] := by
  rw [← at_0 pf t]; rfl
theorem ix_1 (t : grid3.Coords) : cc3_transform_1 k3_off1_inb numel1_S1 pf t = ![(pf 1 (ixT t)).toNat, 0, 0] := by
  rw [← at_1 pf t]; rfl
theorem ix_2 (t : grid3.Coords) : cc3_transform_2 k3_off1_inb numel1_S1 pf t = ![(pf 2 (ixT t)).toNat, 0, 0] := by
  rw [← at_2 pf t]; rfl

/-- Block (w, 0, 0) of size [1, 1, 128] lies inside an [n, 1, 128] array when w < n. -/
theorem blk_inb (w n : Nat) (hw : w < n) :
    ∀ a : Fin 3, ((![w, 0, 0] : Fin 3 → Nat) a + 1) * S1x1x128.size a ≤ (⟨3, ![n, 1, 128]⟩ : Shape).size a := by
  intro a
  fin_cases a
  · show (w + 1) * 1 ≤ n; omega
  · show (0 + 1) * 1 ≤ 1; omega
  · show (0 + 1) * 128 ≤ 128; omega

/-- The side condition of the prefetched tables, from the ranges of their words: every fetched row is a row of its
    array, and rows of 32-bit entries transfer word-exactly. -/
theorem ok_of_lt (h0 : ∀ x, (pf 0 x).toNat < 100000) (h1 : ∀ x, (pf 1 x).toNat < 50000) (h2 : ∀ x, (pf 2 x).toNat < 50000) :
    ok3 pf :=
  ⟨fun i => ⟨by rw [ix_0 pf i]; exact blk_inb _ 100000 (h0 _), Or.inl rfl⟩,
   fun i => ⟨by rw [ix_1 pf i]; exact blk_inb _ 50000 (h1 _), Or.inl rfl⟩,
   fun i => ⟨by rw [ix_2 pf i]; exact blk_inb _ 50000 (h2 _), Or.inl rfl⟩⟩

end

/-! ## At the launch memory's tables -/

/-- The word read of table j at grid point t is the launch memory's table j at index t. -/
theorem tbl_at_0 (t : grid3.Coords) :
    (tbl m).at 0 (Rect.unit (s := S4096) ![(Scalar.indexCast (BitVec.ofNat 32 (t 0).val)).toNat] S1.size (k3_off1_inb t)) numel1_S1
      = m (((0 : Dev nD).tc : Thread nD τ).loc main_arg5) (ixT t) := at_0 (tbl m) t
theorem tbl_at_1 (t : grid3.Coords) :
    (tbl m).at 1 (Rect.unit (s := S4096) ![(Scalar.indexCast (BitVec.ofNat 32 (t 0).val)).toNat] S1.size (k3_off1_inb t)) numel1_S1
      = m (((0 : Dev nD).tc : Thread nD τ).loc main_arg6) (ixT t) := at_1 (tbl m) t
theorem tbl_at_2 (t : grid3.Coords) :
    (tbl m).at 2 (Rect.unit (s := S4096) ![(Scalar.indexCast (BitVec.ofNat 32 (t 0).val)).toNat] S1.size (k3_off1_inb t)) numel1_S1
      = m (((0 : Dev nD).tc : Thread nD τ).loc main_arg7) (ixT t) := at_2 (tbl m) t

/-- The three index maps at the launch memory's tables: the row each window fetches at grid point t. -/
theorem tbl_ix_0 (t : grid3.Coords) :
    cc3_transform_0 k3_off1_inb numel1_S1 (tbl m) t = ![(m (((0 : Dev nD).tc : Thread nD τ).loc main_arg5) (ixT t)).toNat, 0, 0] := ix_0 (tbl m) t
theorem tbl_ix_1 (t : grid3.Coords) :
    cc3_transform_1 k3_off1_inb numel1_S1 (tbl m) t = ![(m (((0 : Dev nD).tc : Thread nD τ).loc main_arg6) (ixT t)).toNat, 0, 0] := ix_1 (tbl m) t
theorem tbl_ix_2 (t : grid3.Coords) :
    cc3_transform_2 k3_off1_inb numel1_S1 (tbl m) t = ![(m (((0 : Dev nD).tc : Thread nD τ).loc main_arg7) (ixT t)).toNat, 0, 0] := ix_2 (tbl m) t

/-- THE SIDE CONDITION of the last call's tables, of the tables any launch memory the precondition admits holds. -/
theorem ok_of_pre [hPre_finite_inputs : Cert.Pre_finite_inputs.Facts] (h : PreH m) : ok3 (F := F) (tbl m) :=
  ok_of_lt (tbl m) (users_lt m h) (pos_lt m h) (neg_lt m h)

end Cert.Kernel.Hand

end
-- ==== Proof.KernelIdeal.Acc0.lean ====
/-
  The first accumulate call of the program, custom_call 0, read at the contents `V` its region is entered
  with: its three windows are blocks of 6000 rows of [150000, 64] arrays, block t of each at grid point t. The body
  loads the two input blocks whole, adds them entry by entry, multiplies by the constant 1 and stores the result
  over the whole output block. So after the body at point t the output window's staging buffer holds
  `k0_pay1` of the two input blocks (`out0_2`), and the input windows' buffers hold their blocks as fetched.
  From this the proof data of the pipeline (`dat0`) and its body obligation at every grid point.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over the arrays `V` whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each buffer: all of it. -/
abbrev r0_0 : Rect S6000x64 := Rect.unit (s := S6000x64) ![0, 0] S6000x64.size inb_S6000x64_S6000x64_0_0

/-- What the body leaves in the output window's buffer: its one store, the sum of the two input blocks times 1. -/
def out0_2 (x0 x1 : Vec F S6000x64 .f32) : Vec F S6000x64 .f32 :=
  View.canon [⟨r0_0, k0_pay1 (View.ld x0 r0_0) (View.ld x1 r0_0)⟩]

/-- The store covers the buffer. -/
theorem cover0_2 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

set_option maxHeartbeats 1000000 in
/-- The body on whole buffers, the inputs' holding `x0`, `x1` and the output's anything, ends with the inputs' as
    they were and the output's at `out0_2 x0 x1`. -/
theorem sound_kernel0 (c : Dev nD) (E : Set ℕ) (i : grid0.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__accumulate_kernel i arg1 harg1 arg2 harg2 arg3 harg3) K := by
  simp only [cc0__accumulate_kernel_eq_skeleton]; unfold cc0__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the two; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Acc1.lean ====
/-
  Accumulate call number 1 (counting from 0) of the program, custom_call 1, read at the contents `V` its region is entered
  with: its three windows are blocks of 6000 rows of [150000, 64] arrays, block t of each at grid point t. The body
  loads the two input blocks whole, adds them entry by entry, multiplies by the constant of the call (1) and stores the result
  over the whole output block. So after the body at point t the output window's staging buffer holds
  `k1_pay1` of the two input blocks (`out1_2`), and the input windows' buffers hold their blocks as fetched.
  From this the proof data of the pipeline (`dat1`) and its body obligation at every grid point.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over the arrays `V` whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches in each buffer: all of it. -/
abbrev r1_0 : Rect S6000x64 := Rect.unit (s := S6000x64) ![0, 0] S6000x64.size inb_S6000x64_S6000x64_0_0

/-- What the body leaves in the output window's buffer: its one store, the sum of the two input blocks times that constant. -/
def out1_2 (x0 x1 : Vec F S6000x64 .f32) : Vec F S6000x64 .f32 :=
  View.canon [⟨r1_0, k1_pay1 (View.ld x0 r1_0) (View.ld x1 r1_0)⟩]

/-- The store covers the buffer. -/
theorem cover1_2 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

set_option maxHeartbeats 1000000 in
/-- The body on whole buffers, the inputs' holding `x0`, `x1` and the output's anything, ends with the inputs' as
    they were and the output's at `out1_2 x0 x1`. -/
theorem sound_kernel1 (c : Dev nD) (E : Set ℕ) (i : grid1.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__accumulate_kernel i arg1 harg1 arg2 harg2 arg3 harg3) K := by
  simp only [cc1__accumulate_kernel_eq_skeleton]; unfold cc1__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the two; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Acc2.lean ====
/-
  Accumulate call number 2 (counting from 0) of the program, custom_call 2, read at the contents `V` its region is entered
  with: its three windows are blocks of 6000 rows of [150000, 64] arrays, block t of each at grid point t. The body
  loads the two input blocks whole, adds them entry by entry, multiplies by the constant of the call (1/4) and stores the result
  over the whole output block. So after the body at point t the output window's staging buffer holds
  `k2_pay1` of the two input blocks (`out2_2`), and the input windows' buffers hold their blocks as fetched.
  From this the proof data of the pipeline (`dat2`) and its body obligation at every grid point.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 6000 t … 6000 t + 5999 of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over the arrays `V` whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each buffer: all of it. -/
abbrev r2_0 : Rect S6000x64 := Rect.unit (s := S6000x64) ![0, 0] S6000x64.size inb_S6000x64_S6000x64_0_0

/-- What the body leaves in the output window's buffer: its one store, the sum of the two input blocks times that constant. -/
def out2_2 (x0 x1 : Vec F S6000x64 .f32) : Vec F S6000x64 .f32 :=
  View.canon [⟨r2_0, k2_pay1 (View.ld x0 r2_0) (View.ld x1 r2_0)⟩]

/-- The store covers the buffer. -/
theorem cover2_2 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

set_option maxHeartbeats 1000000 in
/-- The body on whole buffers, the inputs' holding `x0`, `x1` and the output's anything, ends with the inputs' as
    they were and the output's at `out2_2 x0 x1`. -/
theorem sound_kernel2 (c : Dev nD) (E : Set ℕ) (i : grid2.Coords) (arg1 : Memref sig .tc .vmem S6000x64 .f32) (harg1 : arg1.IsWhole)
    (arg2 : Memref sig .tc .vmem S6000x64 .f32) (harg2 : arg2.IsWhole) (arg3 : Memref sig .tc .vmem S6000x64 .f32) (harg3 : arg3.IsWhole)
    (x0 x1 : Vec F S6000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__accumulate_kernel i arg1 harg1 arg2 harg2 arg3 harg3) K := by
  simp only [cc2__accumulate_kernel_eq_skeleton]; unfold cc2__accumulate_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the two; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Lookup.lean ====
/-
  The lookup call of the program, custom_call 3, at admissible contents `a` of its three index tables and at the
  contents `V` its region is entered with. Grid point t fetches row users[t] of the users table and rows pos[t],
  neg[t] of the items table, each a [1, 1, 128] block whose first 64 lanes are the propagated embedding and whose
  last 64 the raw one. The body forms the two scores (sums over the first 64 lanes of products), the softplus of
  their difference, half the three squared norms of the last 64 lanes, and adds the row
  [softplus, half the norms, 0, …, 0] to the one [1, 128] output block, which stays in its buffer from point to
  point and is zeroed first at point 0. So after point t the output buffer holds the sum of the rows of points 0 … t
  (`acc3`), one `step3` per point.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-- Window `w`'s block at grid point `t`, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- One grid point: the output block `prev` plus the point's row, from the three fetched blocks. -/
def step3 (x0 x1 x2 : Vec F S1x1x128 .f32) (prev : Vec F S1x128 .f32) : Vec F S1x128 .f32 :=
  k3_pay1 (k3_pay6 x2) (k3_pay7 x0 x1 x2) (k3_pay8 x0) (k3_pay9 x1) prev

/-- The output block after grid point `n`: the zero block, then one `step3` per point up to `n`. -/
def acc3 (c : Dev nD) : (n : ℕ) → n < (cfg3 a).N → Vec F S1x128 .f32
  | 0, h => step3 (iblk3 a V c 0 ⟨0, h⟩) (iblk3 a V c 1 ⟨0, h⟩) (iblk3 a V c 2 ⟨0, h⟩) (k3_pay2 (F := F))
  | n + 1, h => step3 (iblk3 a V c 0 ⟨n + 1, h⟩) (iblk3 a V c 1 ⟨n + 1, h⟩) (iblk3 a V c 2 ⟨n + 1, h⟩) (acc3 c n (Nat.lt_of_succ_lt h))

theorem acc3_zero (c : Dev nD) (h : 0 < (cfg3 a).N) :
    acc3 a V c 0 h = step3 (iblk3 a V c 0 ⟨0, h⟩) (iblk3 a V c 1 ⟨0, h⟩) (iblk3 a V c 2 ⟨0, h⟩) (k3_pay2 (F := F)) := rfl

theorem acc3_succ (c : Dev nD) (n : ℕ) (h : n + 1 < (cfg3 a).N) :
    acc3 a V c (n + 1) h = step3 (iblk3 a V c 0 ⟨n + 1, h⟩) (iblk3 a V c 1 ⟨n + 1, h⟩) (iblk3 a V c 2 ⟨n + 1, h⟩) (acc3 a V c n (Nat.lt_of_succ_lt h)) := rfl

/-- The proof data of the lookup pipeline on core `c`: the arrays as the region finds them; after the body at point
    `t` each input's buffer at its block and the output's at `acc3`; the invariant the scoped rest, the generator
    register and the three tables, untouched; nothing owed; the two windows on the items table hold half of it each. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => acc3 a V c t.val t.isLt
  Φ _ := iprop(Pipeline.ΦA spec3 c ∗ Pipeline.prefHeld (Ix := Unit) (Name := ℕ) (U := UR sig nD τ) (Lvl := ℕ) pre3 c (fun _ => fullShare) a.1)
  q w := match w with
    | ⟨0, _⟩ => fullShare
    | ⟨1, _⟩ => fullShare.left
    | ⟨2, _⟩ => fullShare.right
    | ⟨3, _⟩ => fullShare
  owed _ := 0

theorem A_eq3 (c : Dev nD) (w : Fin (cfg3 a).W) : (dat3 a V c).A w = V c (Pipeline.arrRef spec3 w) := by
  dsimp only [dat3]

theorem after3_0 (c : Dev nD) (t : Fin (cfg3 a).N) : (dat3 a V c).after 0 t = iblk3 a V c 0 t := by dsimp only [dat3]; try rfl
theorem after3_1 (c : Dev nD) (t : Fin (cfg3 a).N) : (dat3 a V c).after 1 t = iblk3 a V c 1 t := by dsimp only [dat3]; try rfl
theorem after3_2 (c : Dev nD) (t : Fin (cfg3 a).N) : (dat3 a V c).after 2 t = iblk3 a V c 2 t := by dsimp only [dat3]; try rfl
theorem after3_3 (c : Dev nD) (t : Fin (cfg3 a).N) : (dat3 a V c).after 3 t = acc3 a V c t.val t.isLt := by dsimp only [dat3]; try rfl

theorem Φ3_eq (c : Dev nD) (t : Fin ((cfg3 a).N + 1)) :
    (dat3 a V c).Φ t = iprop(Pipeline.ΦA spec3 c ∗ Pipeline.prefHeld (Ix := Unit) (Name := ℕ) (U := UR sig nD τ) (Lvl := ℕ) pre3 c (fun _ => fullShare) a.1) := rfl

theorem owed3 (c : Dev nD) (t : Fin ((cfg3 a).N + 1)) : (dat3 a V c).owed t = 0 := rfl

/-! ## The body on whole buffers -/

/-- The body's one branch condition, over the grid coordinate: the reset of the output block. -/
abbrev cond3 (i : grid3.Coords) : Prop := (Scalar.cmpi .ne (Scalar.extui (Scalar.cmpi .eq (BitVec.ofNat 32 (i 0).val) 0#32)) 0#32) = 1#1

/-- It holds at the first point only: a coordinate below 4096 is its own 32-bit word. -/
theorem hcond3 (i : grid3.Coords) : cond3 i ↔ (i 0).val = 0 := by
  unfold cond3
  rw [Scalar.guard_iff]
  have h : (i 0).val < 4096 := (i 0).isLt
  constructor
  · intro h1
    have h2 := congrArg BitVec.toNat ((IntOp.cmpi_eq).mp h1)
    simp only [BitVec.toNat_ofNat] at h2
    omega
  · intro h0; rw [h0]; decide

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at the first point, on whole buffers: the inputs' holding `x0`, `x1`, `x2` and the output's anything.
    It stores the zero block over the output buffer, reads it back and leaves one step over it. -/
theorem sound_kernel3_A (c : Dev nD) (E : Set ℕ) (i : grid3.Coords) (hc : cond3 i)
    (arg1 : Memref sig .tc .smem S4096 .i32) (harg1 : arg1.IsWhole) (arg2 : Memref sig .tc .smem S4096 .i32) (harg2 : arg2.IsWhole) (arg3 : Memref sig .tc .smem S4096 .i32) (harg3 : arg3.IsWhole)
    (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole)
    (x0 x1 x2 : Vec F S1x1x128 .f32) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d)
        ∗ (iprop(owns (c : Thread nD τ) arg4 fullShare x0 ∗ owns (c : Thread nD τ) arg5 fullShare x1 ∗ owns (c : Thread nD τ) arg6 fullShare x2 ∗ owns (c : Thread nD τ) arg7 fullShare (step3 x0 x1 x2 (k3_pay2 (F := F)))) -∗ K ⟨⟩))
      ⊢ wp frame (wpE (defs₀ (F := F)) Variants.none c none) E (cc3__lookup_loss_kernel i arg1 harg1 arg2 harg2 arg3 harg3 arg4 harg4 arg5 harg5 arg6 harg6 arg7 harg7) K := by
  simp only [cc3__lookup_loss_kernel_eq_skeleton]; unfold cc3__lookup_loss_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero (S := S1x128) hz2 inb_S1x128_S1x128_0_0 y⟩)]
  sl_unfold_words
  rw [View.canon_cons_unit_zero (S := S1x128) hz2, View.readCov_unit_zero (S := S1x128) _ hz2]
  unfold step3
  simp only [View.readAt_eq_ld, View.ld_unit_zero (S := S1x1x128) hz3]

set_option maxHeartbeats 1000000 in
/-- The body at a later point, on whole buffers: the inputs' holding `x0`, `x1`, `x2` and the output's `prev`.
    It leaves one step over `prev`. -/
theorem sound_kernel3_B (c : Dev nD) (E : Set ℕ) (i : grid3.Coords) (hc : ¬cond3 i)
    (arg1 : Memref sig .tc .smem S4096 .i32) (harg1 : arg1.IsWhole) (arg2 : Memref sig .tc .smem S4096 .i32) (harg2 : arg2.IsWhole) (arg3 : Memref sig .tc .smem S4096 .i32) (harg3 : arg3.IsWhole)
    (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole)
    (x0 x1 x2 : Vec F S1x1x128 .f32) (prev : Vec F S1x128 .f32) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare prev
        ∗ (iprop(owns (c : Thread nD τ) arg4 fullShare x0 ∗ owns (c : Thread nD τ) arg5 fullShare x1 ∗ owns (c : Thread nD τ) arg6 fullShare x2 ∗ owns (c : Thread nD τ) arg7 fullShare (step3 x0 x1 x2 prev)) -∗ K ⟨⟩))
      ⊢ wp frame (wpE (defs₀ (F := F)) Variants.none c none) E (cc3__lookup_loss_kernel i arg1 harg1 arg2 harg2 arg3 harg3 arg4 harg4 arg5 harg5 arg6 harg6 arg7 harg7) K := by
  simp only [cc3__lookup_loss_kernel_eq_skeleton]; unfold cc3__lookup_loss_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero (S := S1x128) hz2 inb_S1x128_S1x128_0_0 y⟩)]
  rw [View.canon_unit_zero (S := S1x128) hz2]
  unfold step3
  simp only [View.readAt_eq_ld, View.ld_unit_zero (S := S1x1x128) hz3, View.ld_unit_zero (S := S1x128) hz2]

/-! ## The schedule, at any contents of the tables -/

/-- The grid has one axis of 4096 points, so a point's coordinate is the point. -/
theorem coord3 (t : Fin grid3.N) : ((grid3.coords t) 0).val = t.val := by
  have h : t.val < 4096 := lt_of_lt_of_eq t.isLt N_3
  show t.val / grid3.stride 0 % grid3.bound 0 = t.val
  rw [show grid3.stride 0 = 1 from by decide, show grid3.bound 0 = 4096 from rfl, Nat.div_one, Nat.mod_eq_of_lt h]

/-- The output window's block index is the same at every point, so the window is written back only after the last. -/
theorem flush3_3 (t : Fin (cfg3 a).N) (ht : t.val ≠ 0) :
    ((cfg3 a).win 3).flush ⟨t.val - 1, Nat.lt_of_le_of_lt (Nat.sub_le _ _) t.isLt⟩ = false := by
  rw [Bool.eq_false_iff]
  intro h
  have hN : t.val < 4096 := lt_of_lt_of_eq t.isLt N_3
  rcases (((cfg3 a).win 3).flush_out rfl _).mp h with h1 | ⟨_, h2⟩
  · have h3 : t.val - 1 + 1 = 4096 := h1.trans N_3
    omega
  · exact h2 rfl

/-- An input window's staging buffer holds its block at every point, for any proof data over the arrays `V` whose
    body leaves the block in place. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ (cfg3 a) c) (hA : dat.A 1 = V c (Pipeline.arrRef spec3 1))
    (hafter : ∀ t, dat.after 1 t = iblk3 a V c 1 t) (t : Fin (cfg3 a).N) (d) : dat.before 1 t d = iblk3 a V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ (cfg3 a) c) (hA : dat.A 2 = V c (Pipeline.arrRef spec3 2))
    (hafter : ∀ t, dat.after 2 t = iblk3 a V c 2 t) (t : Fin (cfg3 a).N) (d) : dat.before 2 t d = iblk3 a V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin (cfg3 a).N) (d) : (dat3 a V c).before 0 t d = iblk3 a V c 0 t :=
  before3_0_of a V (dat3 a V c) (A_eq3 a V c 0) (after3_0 a V c) t d
theorem before3_1 (c : Dev nD) (t : Fin (cfg3 a).N) (d) : (dat3 a V c).before 1 t d = iblk3 a V c 1 t :=
  before3_1_of a V (dat3 a V c) (A_eq3 a V c 1) (after3_1 a V c) t d
theorem before3_2 (c : Dev nD) (t : Fin (cfg3 a).N) (d) : (dat3 a V c).before 2 t d = iblk3 a V c 2 t :=
  before3_2_of a V (dat3 a V c) (A_eq3 a V c 2) (after3_2 a V c) t d

/-- At the first point the output window's buffer is fresh: it holds anything. -/
theorem before3_3_A (c : Dev nD) (t : Fin (cfg3 a).N) (h0 : t.val = 0) (d) : (dat3 a V c).before 3 t d = d :=
  (dat3 a V c).before_out_reset 3 rfl t (.inl h0) d

/-- At a later point it holds what the body left at the point before: it was not written back between. -/
theorem before3_3_B (c : Dev nD) (t : Fin (cfg3 a).N) (h0 : t.val ≠ 0) (d) :
    (dat3 a V c).before 3 t d = acc3 a V c (t.val - 1) (Nat.lt_of_le_of_lt (Nat.sub_le _ _) t.isLt) := by
  rw [Dat.before_out_kept _ 3 rfl t h0 (flush3_3 a t h0) (fun _ => rfl) (fun _ _ => rfl)]
  exact after3_3 a V c _

/-- The accumulated block at the first point: one step over the zero block. -/
theorem acc3_A (c : Dev nD) (t : Fin (cfg3 a).N) (h0 : t.val = 0) :
    acc3 a V c t.val t.isLt = step3 (iblk3 a V c 0 t) (iblk3 a V c 1 t) (iblk3 a V c 2 t) (k3_pay2 (F := F)) := by
  obtain ⟨n, hn⟩ := t
  cases n with
  | zero => rfl
  | succ n => exact absurd h0 (Nat.succ_ne_zero n)

/-- The accumulated block at a later point: one step over the block of the point before. -/
theorem acc3_B (c : Dev nD) (t : Fin (cfg3 a).N) (h0 : t.val ≠ 0) :
    acc3 a V c t.val t.isLt = step3 (iblk3 a V c 0 t) (iblk3 a V c 1 t) (iblk3 a V c 2 t)
      (acc3 a V c (t.val - 1) (Nat.lt_of_le_of_lt (Nat.sub_le _ _) t.isLt)) := by
  obtain ⟨n, hn⟩ := t
  cases n with
  | zero => exact absurd rfl h0
  | succ n => rfl

/-! ## The body obligation, at a generic point -/

/-- Each window's current staging memref at point `t`, as the pipeline passes it to the body, and its wholeness. -/
abbrev ms3_0 (t : Fin (cfg3 a).N) : Memref sig .tc .vmem S1x1x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S1x1x128 .f32 := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) : Memref sig .tc .vmem S1x1x128 .f32 := spec3_2.stage ((cfg3 a).slots t 2)
abbrev hs3_2 (t : Fin (cfg3 a).N) : (ms3_2 a t).IsWhole := hstage3_2 (((cfg3 a).slots t 2).cast nbuf3_2)
abbrev ms3_3 (t : Fin (cfg3 a).N) : Memref sig .tc .vmem S1x128 .f32 := spec3_3.stage ((cfg3 a).slots t 3)
abbrev hs3_3 (t : Fin (cfg3 a).N) : (ms3_3 a t).IsWhole := hstage3_3 (((cfg3 a).slots t 3).cast nbuf3_3)

/-- The kernel body at point `t`, on what the pipeline calls it with: the three tables whole, each window's current
    staging memref. -/
abbrev bodyAt3 (t : Fin (cfg3 a).N) : Prog (TpuEff nD τ sig (Elt F) Λ₀ .tc) PUnit :=
  cc3__lookup_loss_kernel (grid3.coords t) (Memref.whole main_arg5) (Memref.isWhole_whole _) (Memref.whole main_arg6) (Memref.isWhole_whole _)
    (Memref.whole main_arg7) (Memref.isWhole_whole _) (ms3_0 a t) (hs3_0 a t) (ms3_1 a t) (hs3_1 a t) (ms3_2 a t) (hs3_2 a t) (ms3_3 a t) (hs3_3 a t)

/-- What the body is called with at point `t`, -/
def bodyPre3 (c : Dev nD) (t : Fin (cfg3 a).N) : sProp 𝕄 :=
  iprop((dat3 a V c).Φ t.castSucc ∗ (dat3 a V c).owesAt () t.castSucc
    ∗ (∃ d, owns (c : Thread nD τ) (ms3_0 a t) fullShare ((dat3 a V c).before 0 t d))
    ∗ (∃ d, owns (c : Thread nD τ) (ms3_1 a t) fullShare ((dat3 a V c).before 1 t d))
    ∗ (∃ d, owns (c : Thread nD τ) (ms3_2 a t) fullShare ((dat3 a V c).before 2 t d))
    ∗ (∃ d, owns (c : Thread nD τ) (ms3_3 a t) fullShare ((dat3 a V c).before 3 t d)))

/-- and what it returns. -/
def bodyPost3 (c : Dev nD) (t : Fin (cfg3 a).N) : sProp 𝕄 :=
  iprop((dat3 a V c).Φ t.succ ∗ (dat3 a V c).owesAt () t.succ
    ∗ owns (c : Thread nD τ) (ms3_0 a t) fullShare ((dat3 a V c).after 0 t)
    ∗ owns (c : Thread nD τ) (ms3_1 a t) fullShare ((dat3 a V c).after 1 t)
    ∗ owns (c : Thread nD τ) (ms3_2 a t) fullShare ((dat3 a V c).after 2 t)
    ∗ owns (c : Thread nD τ) (ms3_3 a t) fullShare ((dat3 a V c).after 3 t))

set_option maxHeartbeats 800000 in
/-- The body at any point: the inputs' buffers hold their blocks; at the first point the output's buffer holds
    anything and the body resets it, at a later point it holds what the point before left; the invariant passes
    through unread; the core owes nothing throughout. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [before3_0, before3_1, before3_2]
  rw [show (dat3 a V c).Φ t.succ = (dat3 a V c).Φ t.castSucc from rfl,
    show (dat3 a V c).owesAt () t.succ = (dat3 a V c).owesAt () t.castSucc from rfl,
    after3_0, after3_1, after3_2, after3_3]
  by_cases h0 : t.val = 0
  · rw [acc3_A a V c t h0]
    simp only [before3_3_A a V c t h0]
    iintro ⟨HΦ, Ho, ⟨%d0, H0⟩, ⟨%d1, H1⟩, ⟨%d2, H2⟩, ⟨%d3, H3⟩⟩
    iapply (sound_kernel3_A c Set.univ (grid3.coords t) ((hcond3 _).mpr ((coord3 t).trans h0)) _ _ _ _ _ _ _ _ _ _ _ _ _ _
      (iblk3 a V c 0 t) (iblk3 a V c 1 t) (iblk3 a V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc3_B a V c t h0]
    simp only [before3_3_B a V c t h0]
    iintro ⟨HΦ, Ho, ⟨%d0, H0⟩, ⟨%d1, H1⟩, ⟨%d2, H2⟩, ⟨%d3, H3⟩⟩
    iapply (sound_kernel3_B c Set.univ (grid3.coords t) (fun h => h0 ((coord3 t).symm.trans ((hcond3 _).mp h))) _ _ _ _ _ _ _ _ _ _ _ _ _ _
      (iblk3 a V c 0 t) (iblk3 a V c 1 t) (iblk3 a V c 2 t) (acc3 a V c (t.val - 1) (Nat.lt_of_le_of_lt (Nat.sub_le _ _) t.isLt)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the lookup pipeline, at every point. -/
theorem body_obligation3 (c : Dev nD) : BodyObligation (dat3 (F := F) a V c) (defs₀ (F := F)) Variants.none () Set.univ := fun t => by
  rw [bigSep_W3, bigSep_W3]
  exact sound_body3 a V c t

end Cert.KernelIdeal.Hand

end
-- ==== Proof.KernelIdeal.Thread.lean ====
/-
  What rides beside the buffers from one item of the program to the next on a core: the generator register at some
  state and the core owing nothing; no level is assigned, no variant is used. Shared by the modules that state the
  program's items as segments.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.LookupSeg.lean ====
/-
  The lookup call as an item of the program: how a core's thread state — every unscoped buffer whole at the contents
  `Wv c`, the generator register, nothing owed — enters the lookup pipeline and leaves it. At entry the three arrays
  of the four windows are split out of the unscoped buffers (the items table, read by two windows, as two half
  shares), the three index tables are handed over whole, the generator register goes into the invariant and every
  other unscoped buffer bypasses the region; at exit the halves are joined again, the output array is held at what
  the pipeline left in it, and everything else is as it was.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import proofs.«428003_j33079838114572_4_alg».proof.Proof.KernelIdeal.Lookup
import proofs.«428003_j33079838114572_4_alg».proof.Proof.KernelIdeal.Thread
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a3 : (pcfg3 (F := F)).Adm) (Wv : Dev nD → Valuation τ sig (Elt F))

/-- The contents `Wv` read at the TensorCore's references. -/
abbrev Vof : (c : Dev nD) → (b : Ref sig .tc) → Buf (Elt F) ((c : Thread nD τ).loc b) := fun c b => Wv c b

/-- The contents after the lookup region: the output array at what the pipeline's one write-back leaves, every
    other buffer as entered. -/
def Wout3 (c : Dev nD) : Valuation τ sig (Elt F) :=
  Function.update (Wv c) (Proc.devRef .tc main_v49) ((dat3 a3 (Vof Wv) c).arrAt 3 (cfg3 a3).N)

theorem Wout3_out (c : Dev nD) : Wout3 a3 Wv c (Proc.devRef .tc main_v49) = (dat3 a3 (Vof Wv) c).arrAt 3 (cfg3 a3).N := by
  unfold Wout3; exact Function.update_self _ _ _

theorem Wout3_of_ne (c : Dev nD) (b : Ref sig .tc) (hb : b ≠ main_v49) : Wout3 a3 Wv c (Proc.devRef .tc b) = Wv c (Proc.devRef .tc b) := by
  unfold Wout3; exact Function.update_of_ne (StableHlo.devRef_ne_of_ne hb) _ _

variable (V : (c : Dev nD) → (b : Ref sig .tc) → Buf (Elt F) ((c : Thread nD τ).loc b))

/-- The arrays behind the four windows are three buffers: the items table is read by two windows. -/
theorem image_arr3 : Finset.univ.image (Pipeline.arrRef spec3) = ({main_v47, main_v48, main_v49} : Finset (Ref sig .tc)) := by decide

theorem share3_0 (c : Dev nD) : (dat3 a3 V c).share (0 : Fin 4) = fullShare := rfl
theorem share3_1 (c : Dev nD) : (dat3 a3 V c).share (1 : Fin 4) = fullShare.left := rfl
theorem share3_2 (c : Dev nD) : (dat3 a3 V c).share (2 : Fin 4) = fullShare.right := rfl
theorem share3_3 (c : Dev nD) : (dat3 a3 V c).share (3 : Fin 4) = fullShare := rfl

/-- The four windows' arrays one by one: the users table and the output whole, the items table as two halves. -/
theorem arrays3_eq (c : Dev nD) (G : (w : Fin (cfg3 a3).W) → Buf (Elt F) (((cfg3 a3).win w).arr.view.loc (c.tc : Thread nD τ))) :
    (dat3 a3 V c).arrays G
      = (iprop((((c : Thread nD τ).loc main_v47) ↦{fullShare} G 0) ∗ (((c : Thread nD τ).loc main_v48) ↦{fullShare.left} G 1)
          ∗ (((c : Thread nD τ).loc main_v48) ↦{fullShare.right} G 2) ∗ (((c : Thread nD τ).loc main_v49) ↦{fullShare} G 3)) : sProp 𝕄) := by
  unfold Pipeline.Dat.arrays
  rw [bigSep_W3]
  refine congrArg₂ _ ?_ (congrArg₂ _ ?_ (congrArg₂ _ ?_ ?_))
  · rw [show ((cfg3 a3).win (0 : Fin 4)).arr.view.set = Finset.univ from (arr_whole3 0).set_eq_univ]; rfl
  · rw [show ((cfg3 a3).win (1 : Fin 4)).arr.view.set = Finset.univ from (arr_whole3 1).set_eq_univ]; rfl
  · rw [show ((cfg3 a3).win (2 : Fin 4)).arr.view.set = Finset.univ from (arr_whole3 2).set_eq_univ]; rfl
  · rw [show ((cfg3 a3).win (3 : Fin 4)).arr.view.set = Finset.univ from (arr_whole3 3).set_eq_univ]; rfl

/-- The three buffers behind the arrays, each whole. -/
theorem arrBufs3_eq (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      = iprop((((c : Thread nD τ).loc main_v47) ↦{fullShare} X main_v47) ∗ (((c : Thread nD τ).loc main_v48) ↦{fullShare} X main_v48)
          ∗ (((c : Thread nD τ).loc main_v49) ↦{fullShare} X main_v49)) := by
  unfold Pipeline.arrBufs
  rw [image_arr3, BI.bigSep_insert (by decide), BI.bigSep_insert (by decide), BI.bigSep_singleton]
  rfl

include a3 in
/-- The core's unscoped buffers: the three buffers behind the arrays, the three tables, and the rest. -/
theorem unscoped3_split (c : Dev nD) (X : (b : Ref sig .tc) → Buf (Elt F) ((c : Thread nD τ).loc b)) :
    (unscopedBufs (Ix := Unit) (Name := ℕ) (U := UR sig nD τ) (Lvl := ℕ) c X : sProp 𝕄)
      = iprop(((((c : Thread nD τ).loc main_v47) ↦{fullShare} X main_v47) ∗ (((c : Thread nD τ).loc main_v48) ↦{fullShare} X main_v48)
            ∗ (((c : Thread nD τ).loc main_v49) ↦{fullShare} X main_v49))
          ∗ Pipeline.prefHeld (Ix := Unit) (Name := ℕ) (U := UR sig nD τ) (Lvl := ℕ) pre3 c (fun _ => fullShare) (fun k => X (pre3.ref k))
          ∗ Pipeline.unscopedRestP (Ix := Unit) (Name := ℕ) (U := UR sig nD τ) (Lvl := ℕ) pre3 spec3 c X) := by
  rw [Pipeline.unscopedBufs_split₀ (fun _ : Unit => cfg3 a3) () winFacts₀3.arr_unscoped c X]
  show iprop(Pipeline.arrBufs spec3 c X ∗ Pipeline.unscopedRest spec3 c X) = _
  rw [arrBufs3_eq, Pipeline.unscopedRest_split preFacts3 c X]

/-- ENTRY. -/
theorem entry3 (c : Dev nD) (ha : ∀ k, a3.1 k = Vof Wv c (pre3.ref k)) :
    iprop((StableHlo.held (c : Thread nD τ) (Pipeline.ucRefs τ sig) (Wv c) ∗ R (F := F) c) ∗ Pipeline.ownSems0 (fun k : PEmpty => k.elim) c ∗ levAts L lv)
      ⊢ |={Set.univ}=> (iprop((dat3 a3 (Vof Wv) c).arrays ((dat3 a3 (Vof Wv) c).arrAt · 0)
          ∗ Pipeline.prefHeld (Ix := Unit) (Name := ℕ) (U := UR sig nD τ) (Lvl := ℕ) pre3 c (fun _ => fullShare) a3.1
          ∗ (dat3 a3 (Vof Wv) c).owesAt () 0 ∗ (∃ r, prngReg c r)
          ∗ Pipeline.unscopedRestP (Ix := Unit) (Name := ℕ) (U := UR sig nD τ) (Lvl := ℕ) pre3 spec3 c (Vof Wv c)) : sProp 𝕄) := by
  have hpf : (fun k => Vof Wv c (pre3.ref k)) = a3.1 := funext fun k => (ha k).symm
  have hsplit : StableHlo.held (c : Thread nD τ) (Pipeline.ucRefs τ sig) (Wv c)
      ⊢ (iprop((dat3 a3 (Vof Wv) c).arrays ((dat3 a3 (Vof Wv) c).arrAt · 0)
          ∗ Pipeline.prefHeld (Ix := Unit) (Name := ℕ) (U := UR sig nD τ) (Lvl := ℕ) pre3 c (fun _ => fullShare) a3.1
          ∗ Pipeline.unscopedRestP (Ix := Unit) (Name := ℕ) (U := UR sig nD τ) (Lvl := ℕ) pre3 spec3 c (Vof Wv c)) : sProp 𝕄) := by
    rw [← Pipeline.unscopedBufs_held (Ix := Unit) (Name := ℕ) (U := UR sig nD τ) (Lvl := ℕ) c (Wv c)]
    show (unscopedBufs c (Vof Wv c) : sProp 𝕄) ⊢ _
    rw [unscoped3_split a3 c (Vof Wv c), hpf, arrays3_eq]
    iintro ⟨⟨H47, H48, H49⟩, Hpf, Hrest⟩
    ihave H48' := (pointsTo_share (PosShare.mem_left_op_right fullShare)).1 $$ H48
    icases H48' with ⟨H48l, H48r⟩
    isplitl [H47 H48l H48r H49]
    · isplitl [H47]; · iexact H47
      isplitl [H48l]; · iexact H48l
      isplitl [H48r]; · iexact H48r
      iexact H49
    isplitl [Hpf]; · iexact Hpf
    iexact Hrest
  iintro ⟨⟨Hub, Hp, HO⟩, -, -⟩
  ihave H := hsplit $$ Hub
  icases H with ⟨Ha, Hpf, Hrest⟩
  imodintro
  isplitl [Ha]; · iexact Ha
  isplitl [Hpf]; · iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- The invariant at the first point: the scoped buffers no window stages, the generator register, the tables. -/
theorem in3 (c : Dev nD) :
    (iprop((∃ r, prngReg c r) ∗ Pipeline.prefHeld (Ix := Unit) (Name := ℕ) (U := UR sig nD τ) (Lvl := ℕ) pre3 c (fun _ => fullShare) a3.1 ∗ Pipeline.scopedRest spec3 c) : sProp 𝕄) ⊢ (dat3 a3 (Vof Wv) c).Φ 0 := by
  rw [Φ3_eq]; unfold Pipeline.ΦA
  iintro ⟨Hp, Ht, Hr⟩
  isplitl [Hr Hp]
  · isplitl [Hr]; · iexact Hr
    iexact Hp
  iexact Ht

/-- The invariant at the last point gives all of it back. -/
theorem out3 (c : Dev nD) :
    (dat3 a3 (Vof Wv) c).Φ (Fin.last _) ⊢ (iprop(((∃ r, prngReg c r) ∗ Pipeline.prefHeld (Ix := Unit) (Name := ℕ) (U := UR sig nD τ) (Lvl := ℕ) pre3 c (fun _ => fullShare) a3.1) ∗ Pipeline.ownSems0 (fun k : PEmpty => k.elim) c ∗ Pipeline.scopedRest spec3 c) : sProp 𝕄) := by
  rw [Φ3_eq, Pipeline.ownSems0_none]; unfold Pipeline.ΦA
  iintro ⟨⟨Hr, Hp⟩, Ht⟩
  isplitl [Hp Ht]
  · isplitl [Hp]; · iexact Hp
    iexact Ht
  isplitr; · iempintro
  iexact Hr

/-- Equal contents, equal holdings. -/
theorem pt_eq3 {ℓ : Loc nD τ sig} {q : PosShare TreeShare} {f g : Buf (Elt F) ℓ} (h : f = g) : (ℓ ↦{q} f : sProp 𝕄) = ℓ ↦{q} g := by rw [h]
/-- EXIT. -/
theorem exit3 (c : Dev nD) (ha : ∀ k, a3.1 k = Vof Wv c (pre3.ref k)) :
    (iprop((dat3 a3 (Vof Wv) c).arrays ((dat3 a3 (Vof Wv) c).arrAt · (cfg3 a3).N) ∗ (dat3 a3 (Vof Wv) c).owesAt () (Fin.last _)
        ∗ ((∃ r, prngReg c r) ∗ Pipeline.prefHeld (Ix := Unit) (Name := ℕ) (U := UR sig nD τ) (Lvl := ℕ) pre3 c (fun _ => fullShare) a3.1)
        ∗ Pipeline.unscopedRestP (Ix := Unit) (Name := ℕ) (U := UR sig nD τ) (Lvl := ℕ) pre3 spec3 c (Vof Wv c)) : sProp 𝕄)
      ⊢ |={Set.univ}=> iprop(StableHlo.held (c : Thread nD τ) (Pipeline.ucRefs τ sig) (Wout3 a3 Wv c) ∗ R (F := F) c) := by
  have hA : (dat3 a3 (Vof Wv) c).arrays ((dat3 a3 (Vof Wv) c).arrAt · (cfg3 a3).N)
      = (iprop((((c : Thread nD τ).loc main_v47) ↦{fullShare} (dat3 a3 (Vof Wv) c).arrAt 0 (cfg3 a3).N)
          ∗ (((c : Thread nD τ).loc main_v48) ↦{fullShare.left} (dat3 a3 (Vof Wv) c).arrAt 1 (cfg3 a3).N)
          ∗ (((c : Thread nD τ).loc main_v48) ↦{fullShare.right} (dat3 a3 (Vof Wv) c).arrAt 2 (cfg3 a3).N)
          ∗ (((c : Thread nD τ).loc main_v49) ↦{fullShare} (dat3 a3 (Vof Wv) c).arrAt 3 (cfg3 a3).N)) : sProp 𝕄) :=
    arrays3_eq a3 (Vof Wv) c _
  have e0 : (dat3 a3 (Vof Wv) c).arrAt 0 (cfg3 a3).N = Wout3 a3 Wv c (Proc.devRef .tc main_v47) :=
    ((dat3 a3 (Vof Wv) c).arrAt_in 0 rfl _).trans (Wout3_of_ne a3 Wv c main_v47 (by decide)).symm
  have e1 : (dat3 a3 (Vof Wv) c).arrAt 1 (cfg3 a3).N = Wout3 a3 Wv c (Proc.devRef .tc main_v48) :=
    ((dat3 a3 (Vof Wv) c).arrAt_in 1 rfl _).trans (Wout3_of_ne a3 Wv c main_v48 (by decide)).symm
  have e2 : (dat3 a3 (Vof Wv) c).arrAt 2 (cfg3 a3).N = Wout3 a3 Wv c (Proc.devRef .tc main_v48) :=
    ((dat3 a3 (Vof Wv) c).arrAt_in 2 rfl _).trans (Wout3_of_ne a3 Wv c main_v48 (by decide)).symm
  have e3 : (dat3 a3 (Vof Wv) c).arrAt 3 (cfg3 a3).N = Wout3 a3 Wv c (Proc.devRef .tc main_v49) := (Wout3_out a3 Wv c).symm
  have hP : (fun k => (fun b : Ref sig .tc => Wout3 a3 Wv c b) (pre3.ref k)) = a3.1 :=
    funext fun k => (Wout3_of_ne a3 Wv c (pre3.ref k) (by revert k; decide)).trans (ha k).symm
  have hR : (Pipeline.unscopedRestP (Ix := Unit) (Name := ℕ) (U := UR sig nD τ) (Lvl := ℕ) pre3 spec3 c (fun b => Wout3 a3 Wv c b) : sProp 𝕄)
      = Pipeline.unscopedRestP pre3 spec3 c (Vof Wv c) := by
    unfold Pipeline.unscopedRestP
    exact BI.bigSep_congr fun b hb => pt_eq3 (Wout3_of_ne a3 Wv c b fun e =>
      (Finset.mem_sdiff.mp (Finset.mem_sdiff.mp hb).1).2 (e ▸ Finset.mem_image.mpr ⟨3, Finset.mem_univ _, rfl⟩))
  have hjoin : (iprop((dat3 a3 (Vof Wv) c).arrays ((dat3 a3 (Vof Wv) c).arrAt · (cfg3 a3).N)
        ∗ Pipeline.prefHeld (Ix := Unit) (Name := ℕ) (U := UR sig nD τ) (Lvl := ℕ) pre3 c (fun _ => fullShare) a3.1
        ∗ Pipeline.unscopedRestP (Ix := Unit) (Name := ℕ) (U := UR sig nD τ) (Lvl := ℕ) pre3 spec3 c (Vof Wv c)) : sProp 𝕄)
      ⊢ StableHlo.held (c : Thread nD τ) (Pipeline.ucRefs τ sig) (Wout3 a3 Wv c) := by
    rw [← Pipeline.unscopedBufs_held (Ix := Unit) (Name := ℕ) (U := UR sig nD τ) (Lvl := ℕ) c (Wout3 a3 Wv c),
      unscoped3_split a3 c (fun b => Wout3 a3 Wv c b), hP, hR, hA, pt_eq3 (ℓ := (c : Thread nD τ).loc main_v47) e0, pt_eq3 (ℓ := (c : Thread nD τ).loc main_v48) e1,
      pt_eq3 (ℓ := (c : Thread nD τ).loc main_v48) e2, pt_eq3 (ℓ := (c : Thread nD τ).loc main_v49) e3]
    iintro ⟨⟨H47, H48l, H48r, H49⟩, Hpf, Hrest⟩
    isplitl [H47 H48l H48r H49]
    · isplitl [H47]; · iexact H47
      isplitl [H48l H48r]
      · iapply (pointsTo_share (PosShare.mem_left_op_right fullShare)).2
        isplitl [H48l]; · iexact H48l
        iexact H48r
      iexact H49
    isplitl [Hpf]; · iexact Hpf
    iexact Hrest
  iintro ⟨Ha, HO, ⟨HY, Hpf⟩, Hrest⟩
  imodintro
  isplitl [Ha Hpf Hrest]
  · iapply hjoin
    isplitl [Ha]; · iexact Ha
    isplitl [Hpf]; · iexact Hpf
    iexact Hrest
  isplitl [HY]; · iexact HY
  unfold Pipeline.Dat.owesAt Pipeline.owesWithin
  icases HO with ⟨%W, -, HO⟩; iexists W; iexact HO

end Cert.KernelIdeal.Hand

end
-- ==== Proof.KernelIdeal.Run.lean ====
/-
  The whole program as a run of its nine items — five stretches of host operations and the four kernel calls between
  them — from the launch memory `m`, at admissible contents `a3` of the lookup call's index tables that are what the
  tables hold when that call is entered. The contents of a core's unscoped buffers at each boundary are a fold from `m`: a host stretch
  applies its operations (`StableHlo.after`), an accumulate call leaves its output array at what its 25 write-backs
  make of it, the lookup call leaves its [1, 128] output at what its one write-back leaves. Every weakly fair
  execution terminates, and the final memory holds every unscoped buffer at the last contents `W9` (`run`).
  This module's layout of the accumulate calls as segments follows the shape of a generated several-region frame.
-/
import proofs.«428003_j33079838114572_4_alg».proof.Proof.KernelIdealLaunch
import proofs.«428003_j33079838114572_4_alg».proof.Proof.Gen.KernelIdeal.Skeleton
import proofs.«428003_j33079838114572_4_alg».proof.Proof.Gen.KernelIdeal.Points
import proofs.«428003_j33079838114572_4_alg».proof.Proof.KernelIdeal.Acc0
import proofs.«428003_j33079838114572_4_alg».proof.Proof.KernelIdeal.Acc1
import proofs.«428003_j33079838114572_4_alg».proof.Proof.KernelIdeal.Acc2
import proofs.«428003_j33079838114572_4_alg».proof.Proof.KernelIdeal.LookupSeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a3 : (pcfg3 (F := F)).Adm)

/-! ## The buffer contents at each boundary -/

/-- Core `c`'s buffers at launch. -/
abbrev W0 : Dev nD → Valuation τ sig (Elt F) := fun c b => m (c, b)
/-- After the first host stretch (accumulate call 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At accumulate call 0's exit: its arrays at what the pipeline leaves (the inputs as entered, the output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (accumulate call 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At accumulate call 1's exit: its arrays at what the pipeline leaves (the inputs as entered, the output's
    write-backs folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (accumulate call 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At accumulate call 2's exit: its arrays at what the pipeline leaves (the inputs as entered, the output's
    write-backs folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the fourth host stretch (the lookup call's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the lookup call's exit. -/
abbrev W8 : Dev nD → Valuation τ sig (Elt F) := fun c => Wout3 a3 (W7 m) c
/-- After the last host stretch: the contents the program ends with. -/
abbrev W9 : Dev nD → Valuation τ sig (Elt F) := fun c => StableHlo.after hostOps4 (W8 m a3 c)

/-! ## The proof data family -/

/-- The tables' admissible contents per pipeline: the accumulate calls have none. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨_ + 4, h⟩ => absurd h (Nat.not_lt.2 (Nat.le_add_left _ _))

/-- Every pipeline's proof data, each at its region's entry contents. -/
def pdats : (p : Fin 4) → (c : Dev nD) → Dat τ (Elt F) Unit ℕ (UR sig nD τ) ℕ (Pipeline.pin (pcfgs (F := F)) (adm a3) p) c
  | ⟨0, _⟩ => fun c => dat0 (V1 m) c
  | ⟨1, _⟩ => fun c => dat1 (V3 m) c
  | ⟨2, _⟩ => fun c => dat2 (V5 m) c
  | ⟨3, _⟩ => fun c => dat3 a3 (V7 m) c
  | ⟨_ + 4, h⟩ => absurd h (Nat.not_lt.2 (Nat.le_add_left _ _))

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W9 m a3 c) ∗ ∃ r, prngReg c r)

/-! ## The kernel calls as segments -/

set_option backward.isDefEq.respectTransparency.types false in
/-- Accumulate call 0 over the thread state: entered from every unscoped buffer at `W1`, left at `W2`. Its
    three arrays are split out of the unscoped buffers and put back at the exit contents; the generator register goes
    into the invariant and comes out; nothing is owed; the kernel has no semaphore of its own. -/
def reg0 : Pipeline.RegionSeg (pcfgs (F := F)) (adm a3) (pdats m a3) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm a3) (pdats m a3) (launch0 (F := F)).win (launch0 (F := F)).arr_whole c
      ((pdats m a3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a3) (Ix := Unit) (Name := ℕ) (U := UR sig nD τ) (Lvl := ℕ)
      (launch0 (F := F)).win (launch0 (F := F)).arr_whole c (pdats m a3) ((pdats m a3 0 c).share_full fun _ => rfl)
      (V1 m c) (V2 m c) ((pdats m a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Accumulate call 1 over the thread state: entered from every unscoped buffer at `W3`, left at `W4`. Its
    three arrays are split out of the unscoped buffers and put back at the exit contents; the generator register goes
    into the invariant and comes out; nothing is owed; the kernel has no semaphore of its own. -/
def reg1 : Pipeline.RegionSeg (pcfgs (F := F)) (adm a3) (pdats m a3) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) (adm a3) (pdats m a3) (launch1 (F := F)).win (launch1 (F := F)).arr_whole c
      ((pdats m a3 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a3) (Ix := Unit) (Name := ℕ) (U := UR sig nD τ) (Lvl := ℕ)
      (launch1 (F := F)).win (launch1 (F := F)).arr_whole c (pdats m a3) ((pdats m a3 1 c).share_full fun _ => rfl)
      (V3 m c) (V4 m c) ((pdats m a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Accumulate call 2 over the thread state: entered from every unscoped buffer at `W5`, left at `W6`. Its
    three arrays are split out of the unscoped buffers and put back at the exit contents; the generator register goes
    into the invariant and comes out; nothing is owed; the kernel has no semaphore of its own. -/
def reg2 : Pipeline.RegionSeg (pcfgs (F := F)) (adm a3) (pdats m a3) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) (adm a3) (pdats m a3) (launch2 (F := F)).win (launch2 (F := F)).arr_whole c
      ((pdats m a3 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a3) (Ix := Unit) (Name := ℕ) (U := UR sig nD τ) (Lvl := ℕ)
      (launch2 (F := F)).win (launch2 (F := F)).arr_whole c (pdats m a3) ((pdats m a3 2 c).share_full fun _ => rfl)
      (V5 m c) (V6 m c) ((pdats m a3 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The lookup call over the thread state: entered from every unscoped buffer at `W7`, left at `W8`. -/
def reg3 (ha3 : ∀ (c : Dev nD) k, a3.1 k = V7 m c (pre3.ref k)) : Pipeline.RegionSeg (pcfgs (F := F)) (adm a3) (pdats m a3) () defs₀ 𝒱₀ L lv 3 where
  win := winFacts₀3
  block_pos := block_pos3
  stage_whole := stage_whole3
  K := PEmpty
  osem k := k.elim
  ho := Pipeline.OwnSemFacts.none _
  hbody c := (body_obligation3 a3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m a3 c) ∗ R c)
  X c := iprop(∃ r, prngReg c r)
  Y c := iprop((∃ r, prngReg c r) ∗ Pipeline.prefHeld (Ix := Unit) (Name := ℕ) (U := UR sig nD τ) (Lvl := ℕ) pre3 c (fun _ => fullShare) a3.1)
  Z c := Pipeline.unscopedRestP (Ix := Unit) (Name := ℕ) (U := UR sig nD τ) (Lvl := ℕ) pre3 spec3 c (V7 m c)
  hentry c := entry3 a3 (W7 m) c (fun k => ha3 c k)
  hin c := in3 a3 (W7 m) c
  hout c := out3 a3 (W7 m) c
  hexit c := exit3 a3 (W7 m) c (fun k => ha3 c k)

/-! ## The program as segments, and the run -/

abbrev segs (ha3 : ∀ (c : Dev nD) k, a3.1 k = V7 m c (pre3.ref k)) : List (Pipeline.Seg (pcfgs (F := F)) (adm a3) (pdats m a3) () defs₀ 𝒱₀ L lv) :=
  [ .host (hseg hostOps0 hostOps0_sub hostOps0_fresh (W0 m)),
    .region (reg0 m a3),
    .host (hseg hostOps1 hostOps1_sub hostOps1_fresh (W2 m)),
    .region (reg1 m a3),
    .host (hseg hostOps2 hostOps2_sub hostOps2_fresh (W4 m)),
    .region (reg2 m a3),
    .host (hseg hostOps3 hostOps3_sub hostOps3_fresh (W6 m)),
    .region (reg3 m a3 ha3),
    .host (hseg hostOps4 hostOps4_sub hostOps4_fresh (W8 m a3)) ]

/-- The program is the run of the segments. -/
theorem main_run (ha3 : ∀ (c : Dev nD) k, a3.1 k = V7 m c (pre3.ref k)) (c : Dev nD) : main (F := F) c = Pipeline.Seg.run (segs m a3 ha3) := (main_chain c).trans (by chain_rfl)

set_option backward.isDefEq.respectTransparency.types false in
/-- THE RUN: from any memory `m` with zero counters every weakly fair execution of the program terminates, nothing
    faulting, and the final memory holds every unscoped buffer of every core at the last contents `W9`. -/
theorem run (ha3 : ∀ (c : Dev nD) k, a3.1 k = V7 m c (pre3.ref k)) : θ_run defs (onTc (τ := τ) (main (F := F))) ⟨m, fun _ => 0, ρ⟩ (fun r => ∀ c : Dev nD,
      ∀ b ∈ Pipeline.ucRefs τ sig, r.2.mem (((c : Thread nD τ)).1, b) = W9 m a3 c b) :=
  Pipeline.θ_run_regions_kit (pcfgs (F := F)) (adm a3) (pdats m a3) () (cellOf_inj (adm a3)) emb₁ defs₀ 𝒱₀ L lv m ρ main (segs m a3 ha3)
    (fun c Q => by rw [main_run m a3 ha3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a3)) (cellOf_inj (adm a3))) (Pipeline.launchToks (Pipeline.pin (pcfgs (F := F)) (adm a3)) (cellOf_inj (adm a3))))
    (hu₀ := by
      iintro Hu; imodintro
      isplitl [Hu]
      · iapply (show (ownU (initOf (Pipeline.cells (Pipeline.pin (pcfgs (F := F)) (adm a3)) (cellOf_inj (adm a3))) (Pipeline.launchToks (Pipeline.pin (pcfgs (F := F)) (adm a3)) (cellOf_inj (adm a3)))) : sProp 𝕄)
            ⊢ BI.own (emb₁ (initOf (Pipeline.cells (Pipeline.pin (pcfgs (F := F)) (adm a3)) (cellOf_inj (adm a3))) (Pipeline.launchToks (Pipeline.pin (pcfgs (F := F)) (adm a3)) (cellOf_inj (adm a3))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a3)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m a3 c) ∗ R c) : sProp 𝕄)
          ⊢ iprop(Tₙ m a3 c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m a3 c b)
    (hfin := fun c s' => by
      iintro ⟨⟨Hh, -⟩, HSI⟩
      unfold StableHlo.held
      imodintro
      iapply (pointsTo_read_all (Pipeline.ucRefs τ sig) (fun b => (((c : Thread nD τ)).1, b)) (W9 m a3 c) s')
      isplitl [Hh] <;> iassumption)
    (hQ := fun s h c => h c)

end Cert.KernelIdeal.Hand

end
-- ==== Proof.KernelIdeal.GlueEnd.lean ====
/-
  The two ends of the host side of the program, over the fold of buffer contents from the launch memory.
  FRONT: the eight arguments are written by no host operation and are no array of a kernel call, so each keeps its
  launch contents through all nine items; in particular the three index tables reach the lookup call as launched.
  BACK: the last host stretch cuts the lookup call's [1, 128] output block at lanes 0 and 1, reshapes each [1, 1]
  corner to a scalar, and divides the second by the constant 4096; so the first result is entry (0, 0) of the block
  and the second is entry (0, 1) over 4096.
-/
import proofs.«428003_j33079838114572_4_alg».proof.Proof.KernelIdealLaunch
import proofs.«428003_j33079838114572_4_alg».proof.Proof.KernelIdeal.Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What each host stretch writes -/

/-- The references the first host stretch writes: the result of each of its operations. -/
abbrev wr0 : List (Ref sig .tc) := [main_v0, main_c, main_v1, main_v2, main_c_0, main_v3, main_v4, main_v5, main_v6, main_v7, main_v8, main_v9, main_v10, main_cst, main_v11, main_v12, main_v13]
/-- Those of the second, -/
abbrev wr1 : List (Ref sig .tc) := [main_c_1, main_v15, main_v16, main_c_2, main_v17, main_v18, main_v19, main_v20, main_v21, main_v22, main_v23, main_v24, main_cst_3, main_v25, main_v26, main_v27]
/-- the third, -/
abbrev wr2 : List (Ref sig .tc) := [main_c_4, main_v29, main_v30, main_c_5, main_v31, main_v32, main_v33, main_v34, main_v35, main_v36, main_v37, main_v38, main_cst_6, main_v39, main_v40, main_v41]
/-- the fourth (the two tables the lookup call reads rows of), -/
abbrev wr3 : List (Ref sig .tc) := [main_v43, main_v44, main_v45, main_v46, main_v47, main_v48]
/-- and the last (the two results). -/
abbrev wr4 : List (Ref sig .tc) := [main_v50, main_v51, main_v52, main_v53, main_cst_7, main_v54]

theorem host0_writes : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host1_writes : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host2_writes : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host3_writes : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem host4_writes : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference a stretch does not write keeps its contents through it, from any contents `W`. -/
theorem host0_keep (W : Valuation τ sig (Elt F)) (r : Ref sig .tc) (h : r ∉ wr0) :
    StableHlo.after hostOps0 W (Proc.devRef .tc r) = W (Proc.devRef .tc r) := StableHlo.after_of_writes_sub hostOps0 W host0_writes h
theorem host1_keep (W : Valuation τ sig (Elt F)) (r : Ref sig .tc) (h : r ∉ wr1) :
    StableHlo.after hostOps1 W (Proc.devRef .tc r) = W (Proc.devRef .tc r) := StableHlo.after_of_writes_sub hostOps1 W host1_writes h
theorem host2_keep (W : Valuation τ sig (Elt F)) (r : Ref sig .tc) (h : r ∉ wr2) :
    StableHlo.after hostOps2 W (Proc.devRef .tc r) = W (Proc.devRef .tc r) := StableHlo.after_of_writes_sub hostOps2 W host2_writes h
theorem host3_keep (W : Valuation τ sig (Elt F)) (r : Ref sig .tc) (h : r ∉ wr3) :
    StableHlo.after hostOps3 W (Proc.devRef .tc r) = W (Proc.devRef .tc r) := StableHlo.after_of_writes_sub hostOps3 W host3_writes h
theorem host4_keep (W : Valuation τ sig (Elt F)) (r : Ref sig .tc) (h : r ∉ wr4) :
    StableHlo.after hostOps4 W (Proc.devRef .tc r) = W (Proc.devRef .tc r) := StableHlo.after_of_writes_sub hostOps4 W host4_writes h

/-! ## The last stretch's two results, from any contents -/

theorem numel_S1x1 : S1x1.numel = 1 := by decide
theorem numel_S_ : S_.numel = 1 := by decide

/-- A [1, 1] array reshaped to a scalar reads its one entry. -/
theorem cast_S1x1_S_ {α : Type} (x : S1x1.Idx → α) (h : S1x1.ShapeCasts S_) (i : S_.Idx) :
    shapeCast S_ x h i = x (ix2 (0 : Fin 1) (0 : Fin 1)) :=
  shapeCast_apply x h i _ (by
    have h1 : (S1x1.rowMajor (ix2 (0 : Fin 1) (0 : Fin 1))).val < 1 := lt_of_lt_of_eq (S1x1.rowMajor _).isLt numel_S1x1
    have h2 : (S_.rowMajor i).val < 1 := lt_of_lt_of_eq (S_.rowMajor i).isLt numel_S_
    omega)

/-- The [1, 1] corner of a [1, 128] row at lane 0 reads entry (0, 0), -/
theorem slice_lane0 {α : Type} (x : S1x128.Idx → α) (h : S1x128.Slices ![0, 0] S1x1) :
    extractStridedSlice S1x1 ![0, 0] x h (ix2 (0 : Fin 1) (0 : Fin 1)) = x (ix2 (0 : Fin 1) (0 : Fin 128)) :=
  extractStridedSlice_apply _ x h _ _ (fun a => match a with | ⟨0, _⟩ => rfl | ⟨1, _⟩ => rfl)
/-- and at lane 1 entry (0, 1). -/
theorem slice_lane1 {α : Type} (x : S1x128.Idx → α) (h : S1x128.Slices ![0, 1] S1x1) :
    extractStridedSlice S1x1 ![0, 1] x h (ix2 (0 : Fin 1) (0 : Fin 1)) = x (ix2 (0 : Fin 1) (1 : Fin 128)) :=
  extractStridedSlice_apply _ x h _ _ (fun a => match a with | ⟨0, _⟩ => rfl | ⟨1, _⟩ => rfl)

/-- The first result is entry (0, 0) of the lookup call's output block. -/
theorem host4_loss (W : Valuation τ sig (Elt F)) :
    StableHlo.after hostOps4 W (Proc.devRef .tc main_v51) = fun _ => (W (Proc.devRef .tc main_v49) : S1x128.Idx → Elt F .f32) (ix2 (0 : Fin 1) (0 : Fin 128)) := by
  after_results
  funext i
  show shapeCast S_ (extractStridedSlice S1x1 ![0, 0] (W (Proc.devRef .tc main_v49)) slices_S1x128_S1x1_0_0) shapeCasts_S1x1_S_ i = _
  rw [cast_S1x1_S_, slice_lane0]

/-- The second result is entry (0, 1) of that block divided by the constant 4096. -/
theorem host4_reg (W : Valuation τ sig (Elt F)) :
    StableHlo.after hostOps4 W (Proc.devRef .tc main_v54)
      = Host.divf (fun _ => (W (Proc.devRef .tc main_v49) : S1x128.Idx → Elt F .f32) (ix2 (0 : Fin 1) (1 : Fin 128))) (constant S_ .f32 0x45800000#32) := by
  after_results
  refine congrArg (fun z => Host.divf z _) ?_
  funext i
  show shapeCast S_ (extractStridedSlice S1x1 ![0, 1] (W (Proc.devRef .tc main_v49)) slices_S1x128_S1x1_0_1) shapeCasts_S1x1_S_ i = _
  rw [cast_S1x1_S_, slice_lane1]

/-! ## The arguments, and the tables, through the whole fold -/

variable (m : (ℓ : Loc nD τ sig) → Buf (Elt F) ℓ) (a3 : (pcfg3 (F := F)).Adm)

/-- A reference that no host stretch writes and that is no array of an accumulate call reaches the lookup call as
    launched: each item of the fold leaves it alone. -/
theorem W7_keep (c : Dev nD) (r : Ref sig .tc) (h0 : r ∉ wr0 := by decide) (h1 : r ∉ wr1 := by decide) (h2 : r ∉ wr2 := by decide)
    (h3 : r ∉ wr3 := by decide) (a0 : ∀ w, Pipeline.arrRef spec0 w ≠ r := by decide) (a1 : ∀ w, Pipeline.arrRef spec1 w ≠ r := by decide)
    (a2 : ∀ w, Pipeline.arrRef spec2 w ≠ r := by decide) :
    W7 m c (Proc.devRef .tc r) = m ((c : Thread nD τ).loc r) :=
  (host3_keep _ r h3).trans <| (W6_of_ne m c r a2).trans <| (host2_keep _ r h2).trans <| (W4_of_ne m c r a1).trans <|
    (host1_keep _ r h1).trans <| (W2_of_ne m c r a0).trans <| (host0_keep _ r h0).trans rfl

/-- If moreover it is not the lookup call's output and the last stretch does not write it, it ends as launched. -/
theorem W9_keep (c : Dev nD) (r : Ref sig .tc) (h0 : r ∉ wr0 := by decide) (h1 : r ∉ wr1 := by decide) (h2 : r ∉ wr2 := by decide)
    (h3 : r ∉ wr3 := by decide) (h4 : r ∉ wr4 := by decide) (a0 : ∀ w, Pipeline.arrRef spec0 w ≠ r := by decide)
    (a1 : ∀ w, Pipeline.arrRef spec1 w ≠ r := by decide) (a2 : ∀ w, Pipeline.arrRef spec2 w ≠ r := by decide) (a3' : r ≠ main_v49 := by decide) :
    W9 m a3 c (Proc.devRef .tc r) = m ((c : Thread nD τ).loc r) :=
  (host4_keep _ r h4).trans <| (Wout3_of_ne a3 (W7 m) c r a3').trans <| W7_keep m c r h0 h1 h2 h3 a0 a1 a2

/-- The three index tables reach the lookup call as launched. -/
theorem V7_pre' (c : Dev nD) (k : Fin pre3.K) : V7 m c (pre3.ref k) = m ((c : Thread nD τ).loc (pre3.ref k)) :=
  match k with
  | ⟨0, _⟩ => W7_keep m c main_arg5
  | ⟨1, _⟩ => W7_keep m c main_arg6
  | ⟨2, _⟩ => W7_keep m c main_arg7

/-- Every argument ends as launched. -/
theorem W9_main_arg0 (c : Dev nD) : W9 m a3 c (Proc.devRef .tc main_arg0) = m ((c : Thread nD τ).loc main_arg0) := W9_keep m a3 c main_arg0
theorem W9_main_arg1 (c : Dev nD) : W9 m a3 c (Proc.devRef .tc main_arg1) = m ((c : Thread nD τ).loc main_arg1) := W9_keep m a3 c main_arg1
theorem W9_main_arg2 (c : Dev nD) : W9 m a3 c (Proc.devRef .tc main_arg2) = m ((c : Thread nD τ).loc main_arg2) := W9_keep m a3 c main_arg2
theorem W9_main_arg3 (c : Dev nD) : W9 m a3 c (Proc.devRef .tc main_arg3) = m ((c : Thread nD τ).loc main_arg3) := W9_keep m a3 c main_arg3
theorem W9_main_arg4 (c : Dev nD) : W9 m a3 c (Proc.devRef .tc main_arg4) = m ((c : Thread nD τ).loc main_arg4) := W9_keep m a3 c main_arg4
theorem W9_main_arg5 (c : Dev nD) : W9 m a3 c (Proc.devRef .tc main_arg5) = m ((c : Thread nD τ).loc main_arg5) := W9_keep m a3 c main_arg5
theorem W9_main_arg6 (c : Dev nD) : W9 m a3 c (Proc.devRef .tc main_arg6) = m ((c : Thread nD τ).loc main_arg6) := W9_keep m a3 c main_arg6
theorem W9_main_arg7 (c : Dev nD) : W9 m a3 c (Proc.devRef .tc main_arg7) = m ((c : Thread nD τ).loc main_arg7) := W9_keep m a3 c main_arg7

/-! ## The two results -/

/-- The first result: entry (0, 0) of the lookup call's output array as its one write-back leaves it. -/
theorem W9_loss (c : Dev nD) :
    W9 m a3 c (Proc.devRef .tc main_v51) = fun _ => ((dat3 a3 (V7 m) c).arrAt 3 (cfg3 a3).N : S1x128.Idx → Elt F .f32) (ix2 (0 : Fin 1) (0 : Fin 128)) := by
  rw [← Wout3_out a3 (W7 m) c]
  exact host4_loss (W8 m a3 c)

/-- The second result: entry (0, 1) of it divided by the constant 4096. -/
theorem W9_reg (c : Dev nD) :
    W9 m a3 c (Proc.devRef .tc main_v54)
      = Host.divf (fun _ => ((dat3 a3 (V7 m) c).arrAt 3 (cfg3 a3).N : S1x128.Idx → Elt F .f32) (ix2 (0 : Fin 1) (1 : Fin 128))) (constant S_ .f32 0x45800000#32) := by
  rw [← Wout3_out a3 (W7 m) c]
  exact host4_reg (W8 m a3 c)

end Cert.KernelIdeal.Hand

end
-- ==== Proof.KernelIdeal.Ok.lean ====
/-
  From the certificate's precondition to the side condition of the last call's prefetched tables, and to the ranges of
  their words. The three tables users, pos, neg are [4096] arrays of 32-bit words in scalar memory; at grid point t the
  index maps of the first three windows read word t of their table and fetch the row of that number: row users[t] of the
  [100000, 1, 128] array, rows pos[t] and neg[t] of the [50000, 1, 128] array. The side condition asks that each such
  block lies inside its array and that its transfer ends on whole words (rows of 32-bit entries do).
  The precondition, beside the finiteness of the float arguments, says of every word of the three tables that it is at
  least 0 and below 100000 (users) or 50000 (pos, neg), compared as signed numbers: it is a conjunction of
  and-reductions to a single bit, each of an entrywise conjunction of two comparisons against a broadcast constant.
  Reading it at one entry: the result bit is 1, so each conjunct is 1, so every entry of each reduced array is 1, so both
  comparisons hold of that entry. A word that is at least 0 signed has its top bit clear, and then reads the same signed
  and unsigned: below N signed is below N unsigned.
  Every fact about the index maps is stated with the tables' contents a variable, and read at the launch memory's
  tables last.
-/
import proofs.«428003_j33079838114572_4_alg».proof.Proof.Gen.KernelIdeal
import proofs.«428003_j33079838114572_4_alg».proof.Proof.Gen.Pre_finite_inputs
import Idealize.ShloMosaic.Lib.StableHlo.Predicate
import Idealize.ShloMosaic.Lib.ReduceAll

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The three prefetched tables as the launch memory holds them on device 0, the program's one device. -/
def tbl : pre3.Contents (Elt F) := fun j => m (((0 : Dev nD).tc : Thread nD τ).loc (pre3.ref j))

/-- The precondition at any float instance: the printed predicate of the eight argument arrays is all ones, on every device. -/
abbrev PreH [hPre_finite_inputs : Cert.Pre_finite_inputs.Facts] : Prop :=
  ∀ c : Dev nD,
    (Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))
      = (fun _ => 1#1)

theorem tbl_0 : tbl m 0 = m (((0 : Dev nD).tc : Thread nD τ).loc main_arg5) := rfl
theorem tbl_1 : tbl m 1 = m (((0 : Dev nD).tc : Thread nD τ).loc main_arg6) := rfl
theorem tbl_2 : tbl m 2 = m (((0 : Dev nD).tc : Thread nD τ).loc main_arg7) := rfl

/-! ## The precondition read at one entry of the tables -/

/-- A word that is at least 0 and below n, both read signed, is below n read unsigned (n below 2³¹). -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn, StableHlo.Predicate.toInt_eq_toNat_of_lt (by omega)] at h1
  exact_mod_cast h1

/-- A rank-0 array has one index. -/
instance : Subsingleton Cert.Pre_finite_inputs.S_.Idx := ⟨fun a b => funext fun d => d.elim0⟩

/-- An entrywise conjunction is 1 at an entry exactly when both operands are. -/
theorem andi_at {s : Shape} (x y : IVec s 1) (j : s.Idx) : andi x y j = 1#1 ↔ x j = 1#1 ∧ y j = 1#1 :=
  IntOp.andi_eq_one

/-- The printed range test `(x ≥ lo) & (x < hi)` against broadcast constants, 1 at entry j: both comparisons hold of x j. -/
theorem range_at {s : Shape} (x : IVec s 32) (lo hi : BitVec 32) (hb : Cert.Pre_finite_inputs.S_.BroadcastsInDim s ![]) (j : s.Idx)
    (e : andi (cmpi .sge x (broadcastInDim s ![] hb (constantI Cert.Pre_finite_inputs.S_ 32 lo)))
      (cmpi .slt x (broadcastInDim s ![] hb (constantI Cert.Pre_finite_inputs.S_ 32 hi))) j = 1#1) :
    IntOp.cmpi .sge (x j) lo = 1#1 ∧ IntOp.cmpi .slt (x j) hi = 1#1 :=
  (andi_at _ _ j).1 e

section
variable [hPre_finite_inputs : Cert.Pre_finite_inputs.Facts]

/-- THE PRECONDITION DECODED at entry i of the three tables: each word passes its two signed comparisons. -/
theorem pre_words (h : PreH m) (i : S4096.Idx) :
    (IntOp.cmpi .sge (m (((0 : Dev nD).tc : Thread nD τ).loc main_arg5) i) 0#32 = 1#1
      ∧ IntOp.cmpi .slt (m (((0 : Dev nD).tc : Thread nD τ).loc main_arg5) i) 100000#32 = 1#1)
    ∧ (IntOp.cmpi .sge (m (((0 : Dev nD).tc : Thread nD τ).loc main_arg6) i) 0#32 = 1#1
      ∧ IntOp.cmpi .slt (m (((0 : Dev nD).tc : Thread nD τ).loc main_arg6) i) 50000#32 = 1#1)
    ∧ (IntOp.cmpi .sge (m (((0 : Dev nD).tc : Thread nD τ).loc main_arg7) i) 0#32 = 1#1
      ∧ IntOp.cmpi .slt (m (((0 : Dev nD).tc : Thread nD τ).loc main_arg7) i) 50000#32 = 1#1) := by
  have e := congrFun (h 0) (fun a => a.elim0)
  dsimp only [Cert.Pre_finite_inputs.fn, Cert.Pre_finite_inputs.fn_part1, Cert.Pre_finite_inputs.fn_part2] at e
  -- the result bit: ((((floats ∧ users) ∧ pos) ∧ neg), each of the last three an and-reduction over the table
  rw [andi_at, andi_at, andi_at] at e
  obtain ⟨⟨⟨-, e5⟩, e6⟩, e7⟩ := e
  exact ⟨range_at _ _ _ _ i (Host.reduce_andi_all _ _ _ _ _ e5 i), range_at _ _ _ _ i (Host.reduce_andi_all _ _ _ _ _ e6 i),
    range_at _ _ _ _ i (Host.reduce_andi_all _ _ _ _ _ e7 i)⟩

/-- The table words as unsigned numbers: every user index names a row of the [100000, 1, 128] array, -/
theorem users_lt (h : PreH m) (i : S4096.Idx) : (m (((0 : Dev nD).tc : Thread nD τ).loc main_arg5) i).toNat < 100000 :=
  toNat_lt_of_signed _ 100000 (by decide) (pre_words m h i).1.1 (pre_words m h i).1.2
/-- every positive item index a row of the [50000, 1, 128] array, -/
theorem pos_lt (h : PreH m) (i : S4096.Idx) : (m (((0 : Dev nD).tc : Thread nD τ).loc main_arg6) i).toNat < 50000 :=
  toNat_lt_of_signed _ 50000 (by decide) (pre_words m h i).2.1.1 (pre_words m h i).2.1.2
/-- and every negative item index. -/
theorem neg_lt (h : PreH m) (i : S4096.Idx) : (m (((0 : Dev nD).tc : Thread nD τ).loc main_arg7) i).toNat < 50000 :=
  toNat_lt_of_signed _ 50000 (by decide) (pre_words m h i).2.2.1 (pre_words m h i).2.2.2

end

/-! ## The index maps, at any contents of the tables -/

/-- Index k of a [4096] table. -/
abbrev ixK (k : Fin 4096) : S4096.Idx := Shape.Idx.ofFin k
/-- The index of a [4096] table that a grid point names: its one coordinate. -/
abbrev ixT (t : grid3.Coords) : S4096.Idx := ixK ⟨(t 0).val, (t 0).isLt⟩

/-- The one element of a unit rectangle of the [4096] table at offset k is element k. -/
theorem emb_unit (off : Fin 1 → Nat) (inb : ∀ a, off a + S1.size a ≤ S4096.size a) (k : Fin 4096) (hoff : off 0 = k.val)
    (x : (Rect.unit (s := S4096) off S1.size inb).shape.Idx) :
    (Rect.unit (s := S4096) off S1.size inb).emb x = ixK k := by
  funext a
  apply Fin.ext
  have ha : a = 0 := Subsingleton.elim _ _
  subst ha
  have hx : (x 0).val < 1 := (x 0).isLt
  show off 0 + 1 * (x 0).val = k.val
  omega

/-- The offset the index maps compute at grid point t is t's coordinate. -/
theorem off_at (t : grid3.Coords) : (![(Scalar.indexCast (BitVec.ofNat 32 (t 0).val)).toNat] : Fin 1 → Nat) 0 = (t 0).val :=
  congrFun (k3_off1_eq t) 0

section
variable (pf : pre3.Contents (Elt F))

/-- The word read of a table through the unit rectangle at offset k is the table's element k. -/
theorem at_0_of (off : Fin 1 → Nat) (inb : ∀ a, off a + S1.size a ≤ S4096.size a) (h1 : S1.numel = 1) (k : Fin 4096) (hoff : off 0 = k.val) :
    pf.at 0 (Rect.unit (s := S4096) off S1.size inb) h1 = pf 0 (ixK k) := congrArg (pf 0) (emb_unit off inb k hoff _)
theorem at_1_of (off : Fin 1 → Nat) (inb : ∀ a, off a + S1.size a ≤ S4096.size a) (h1 : S1.numel = 1) (k : Fin 4096) (hoff : off 0 = k.val) :
    pf.at 1 (Rect.unit (s := S4096) off S1.size inb) h1 = pf 1 (ixK k) := congrArg (pf 1) (emb_unit off inb k hoff _)
theorem at_2_of (off : Fin 1 → Nat) (inb : ∀ a, off a + S1.size a ≤ S4096.size a) (h1 : S1.numel = 1) (k : Fin 4096) (hoff : off 0 = k.val) :
    pf.at 2 (Rect.unit (s := S4096) off S1.size inb) h1 = pf 2 (ixK k) := congrArg (pf 2) (emb_unit off inb k hoff _)

/-- The word an index map reads of its table at grid point t is the table's element t. -/
theorem at_0 (t : grid3.Coords) :
    pf.at 0 (Rect.unit (s := S4096) ![(Scalar.indexCast (BitVec.ofNat 32 (t 0).val)).toNat] S1.size (k3_off1_inb t)) numel1_S1 = pf 0 (ixT t) :=
  at_0_of pf _ _ _ ⟨(t 0).val, (t 0).isLt⟩ (off_at t)
theorem at_1 (t : grid3.Coords) :
    pf.at 1 (Rect.unit (s := S4096) ![(Scalar.indexCast (BitVec.ofNat 32 (t 0).val)).toNat] S1.size (k3_off1_inb t)) numel1_S1 = pf 1 (ixT t) :=
  at_1_of pf _ _ _ ⟨(t 0).val, (t 0).isLt⟩ (off_at t)
theorem at_2 (t : grid3.Coords) :
    pf.at 2 (Rect.unit (s := S4096) ![(Scalar.indexCast (BitVec.ofNat 32 (t 0).val)).toNat] S1.size (k3_off1_inb t)) numel1_S1 = pf 2 (ixT t) :=
  at_2_of pf _ _ _ ⟨(t 0).val, (t 0).isLt⟩ (off_at t)

/-- The three index maps that read a table: block (the table's word at t, 0, 0). -/
theorem ix_0 (t : grid3.Coords) : cc3_transform_0 k3_off1_inb numel1_S1 pf t = ![(pf 0 (ixT t)).toNat, 0, 0] := by
  rw [← at_0 pf t]; rfl
theorem ix_1 (t : grid3.Coords) : cc3_transform_1 k3_off1_inb numel1_S1 pf t = ![(pf 1 (ixT t)).toNat, 0, 0] := by
  rw [← at_1 pf t]; rfl
theorem ix_2 (t : grid3.Coords) : cc3_transform_2 k3_off1_inb numel1_S1 pf t = ![(pf 2 (ixT t)).toNat, 0, 0] := by
  rw [← at_2 pf t]; rfl

/-- Block (w, 0, 0) of size [1, 1, 128] lies inside an [n, 1, 128] array when w < n. -/
theorem blk_inb (w n : Nat) (hw : w < n) :
    ∀ a : Fin 3, ((![w, 0, 0] : Fin 3 → Nat) a + 1) * S1x1x128.size a ≤ (⟨3, ![n, 1, 128]⟩ : Shape).size a := by
  intro a
  fin_cases a
  · show (w + 1) * 1 ≤ n; omega
  · show (0 + 1) * 1 ≤ 1; omega
  · show (0 + 1) * 128 ≤ 128; omega

/-- The side condition of the prefetched tables, from the ranges of their words: every fetched row is a row of its
    array, and rows of 32-bit entries transfer word-exactly. -/
theorem ok_of_lt (h0 : ∀ x, (pf 0 x).toNat < 100000) (h1 : ∀ x, (pf 1 x).toNat < 50000) (h2 : ∀ x, (pf 2 x).toNat < 50000) :
    ok3 pf :=
  ⟨fun i => ⟨by rw [ix_0 pf i]; exact blk_inb _ 100000 (h0 _), Or.inl rfl⟩,
   fun i => ⟨by rw [ix_1 pf i]; exact blk_inb _ 50000 (h1 _), Or.inl rfl⟩,
   fun i => ⟨by rw [ix_2 pf i]; exact blk_inb _ 50000 (h2 _), Or.inl rfl⟩⟩

end

/-! ## At the launch memory's tables -/

/-- The word read of table j at grid point t is the launch memory's table j at index t. -/
theorem tbl_at_0 (t : grid3.Coords) :
    (tbl m).at 0 (Rect.unit (s := S4096) ![(Scalar.indexCast (BitVec.ofNat 32 (t 0).val)).toNat] S1.size (k3_off1_inb t)) numel1_S1
      = m (((0 : Dev nD).tc : Thread nD τ).loc main_arg5) (ixT t) := at_0 (tbl m) t
theorem tbl_at_1 (t : grid3.Coords) :
    (tbl m).at 1 (Rect.unit (s := S4096) ![(Scalar.indexCast (BitVec.ofNat 32 (t 0).val)).toNat] S1.size (k3_off1_inb t)) numel1_S1
      = m (((0 : Dev nD).tc : Thread nD τ).loc main_arg6) (ixT t) := at_1 (tbl m) t
theorem tbl_at_2 (t : grid3.Coords) :
    (tbl m).at 2 (Rect.unit (s := S4096) ![(Scalar.indexCast (BitVec.ofNat 32 (t 0).val)).toNat] S1.size (k3_off1_inb t)) numel1_S1
      = m (((0 : Dev nD).tc : Thread nD τ).loc main_arg7) (ixT t) := at_2 (tbl m) t

/-- The three index maps at the launch memory's tables: the row each window fetches at grid point t. -/
theorem tbl_ix_0 (t : grid3.Coords) :
    cc3_transform_0 k3_off1_inb numel1_S1 (tbl m) t = ![(m (((0 : Dev nD).tc : Thread nD τ).loc main_arg5) (ixT t)).toNat, 0, 0] := ix_0 (tbl m) t
theorem tbl_ix_1 (t : grid3.Coords) :
    cc3_transform_1 k3_off1_inb numel1_S1 (tbl m) t = ![(m (((0 : Dev nD).tc : Thread nD τ).loc main_arg6) (ixT t)).toNat, 0, 0] := ix_1 (tbl m) t
theorem tbl_ix_2 (t : grid3.Coords) :
    cc3_transform_2 k3_off1_inb numel1_S1 (tbl m) t = ![(m (((0 : Dev nD).tc : Thread nD τ).loc main_arg7) (ixT t)).toNat, 0, 0] := ix_2 (tbl m) t

/-- THE SIDE CONDITION of the last call's tables, of the tables any launch memory the precondition admits holds. -/
theorem ok_of_pre [hPre_finite_inputs : Cert.Pre_finite_inputs.Facts] (h : PreH m) : ok3 (F := F) (tbl m) :=
  ok_of_lt (tbl m) (users_lt m h) (pos_lt m h) (neg_lt m h)

end Cert.KernelIdeal.Hand

end
-- ==== Proof.Spec.lean ====
/-
  The mathematics both programs compute, on the extended reals, stated over no program. A row of an embedding table
  is a function of its 64 lanes. `dot` is the inner product of two rows and `sq` a row's squared norm, each as a sum
  started from 0, the way a lane reduction and a host reduction read at this instance. `softplusE d` is
  max(d, 0) + log(1 + exp(-|d - 0|)), the stable form of log(1 + exp d) both programs spell. One query's
  contribution to the loss is the softplus of its negative score minus its positive score (`lossRow`), and to the
  regulariser half the three squared norms of its raw rows (`regRow`).
-/
import Idealize.ShloMosaic.PureOps.Ideal
import Idealize.ShloMosaic.Lib.ValueIdx

noncomputable section

namespace Cert.Spec

open Idealize.ShloMosaic

/-- The inner product of two rows of 64 lanes, summed from 0. -/
def dot (x y : Fin 64 → EReal) : EReal := 0 + ∑ k : Fin 64, x k * y k

/-- The squared norm of a row, summed from 0. -/
def sq (x : Fin 64 → EReal) : EReal := 0 + ∑ k : Fin 64, x k * x k

/-- max(d, 0) + log(1 + exp(-|d - 0|)). -/
def softplusE (d : EReal) : EReal :=
  max d 0 + Ideal.log1p (Ideal.exp (-(max (d - 0) (-(d - 0)))))

/-- One query's loss: the softplus of (user · negative item) − (user · positive item), over propagated rows. -/
def lossRow (lu lp ln : Fin 64 → EReal) : EReal := softplusE (dot lu ln - dot lu lp)

/-- One query's regulariser: half of |u|² + |p|² + |n|², over raw rows, associated as both programs do. -/
def regRow (u0 p0 n0 : Fin 64 → EReal) : EReal := ((1 / 2 : ℝ) : EReal) * ((sq u0 + sq p0) + sq n0)

end Cert.Spec

end
-- ==== Proof.Consts.lean ====
/-
  The float literals the two programs spell, as the extended reals their bit patterns denote at the ideal instance:
  zero; one and one quarter, the scales of the accumulate calls; four, the reference's divisor for the mean over the
  four stacked layers; one half, the regulariser's factor; and 4096, the batch size both programs divide by.
-/
import Idealize.ShloMosaic.PureOps.Ideal

noncomputable section

namespace Cert.Lits

open Idealize.ShloMosaic

theorem zero : Ideal.ofBits .f32 0x00000000#32 = 0 := by
  simp [Ideal.ofBits, Ideal.ieee]

theorem one : Ideal.ofBits .f32 0x3F800000#32 = 1 := by
  simp [Ideal.ofBits, Ideal.ieee, -EReal.coe_mul]; norm_num

theorem quarter : Ideal.ofBits .f32 0x3E800000#32 = ((1 / 4 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem batch : Ideal.ofBits .f32 0x45800000#32 = ((4096 : ℝ) : EReal) := by
  simp [Ideal.ofBits, Ideal.ieee, -EReal.coe_mul]; norm_num

end Cert.Lits

end
-- ==== Proof.KernelIdeal.LookupValue.lean ====
/-
  What the lookup call of the program, custom_call 3, leaves in its output array, read on the extended reals. Grid
  point t fetches one [1, 1, 128] block from each of three windows: row users[t] of the users table and rows pos[t],
  neg[t] of the items table; lane l of a block is lane l of that row of its table. The first 64 lanes of a block are
  the propagated row, the last 64 the raw one. One step adds to lane 0 of the [1, 128] output block the softplus of
  (user · negative) − (user · positive), the two scores being sums over the first 64 lanes, and to lane 1 half of the
  three squared norms of the last 64 lanes; the block starts from zero. So after point n lane 0 holds the sum of the
  losses of the queries 0 … n and lane 1 the sum of their regularisers. The output window's block index is the same
  at every point, so it is written back once, after the last point, and its one block is its whole array: the array
  ends holding the block accumulated over all 4096 points.
-/
import proofs.«428003_j33079838114572_4_alg».proof.Proof.KernelIdeal.Lookup
import proofs.«428003_j33079838114572_4_alg».proof.Proof.Spec
import proofs.«428003_j33079838114572_4_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 mulf_apply addf_apply subf_apply maximumf_apply broadcast_apply cmpf_apply select_apply select_zero)

/-! ## A fetched block is a row of its table -/

section Generic
variable {F : FTy → Type} [FloatOps F]
variable (a : (pcfg3 (F := F)).Adm)
variable (V : (c : Dev nD) → (b : Ref sig .tc) → Buf (Elt F) ((c : Thread nD τ).loc b))

/-- A fetched block lies inside its table: the users window's row index is below 100000. -/
theorem row_lt0 (t : Fin (cfg3 a).N) : ((cfg3 a).win 0).index t (0 : Fin 3) < 100000 := by
  have h : (((cfg3 a).win 0).index t (0 : Fin 3) + 1) * 1 ≤ 100000 := ((cfg3 a).win 0).hclip ((cfg3 a).grid.coords t) (0 : Fin 3)
  omega
/-- The positive items window's row index is below 50000. -/
theorem row_lt1 (t : Fin (cfg3 a).N) : ((cfg3 a).win 1).index t (0 : Fin 3) < 50000 := by
  have h : (((cfg3 a).win 1).index t (0 : Fin 3) + 1) * 1 ≤ 50000 := ((cfg3 a).win 1).hclip ((cfg3 a).grid.coords t) (0 : Fin 3)
  omega
/-- The negative items window's row index is below 50000. -/
theorem row_lt2 (t : Fin (cfg3 a).N) : ((cfg3 a).win 2).index t (0 : Fin 3) < 50000 := by
  have h : (((cfg3 a).win 2).index t (0 : Fin 3) + 1) * 1 ≤ 50000 := ((cfg3 a).win 2).hclip ((cfg3 a).grid.coords t) (0 : Fin 3)
  omega

/-- Lane l of the users block at point t is lane l of the row of the users table the window's index map names
    there: a block's coordinate in its array is index × size + 1 × the coordinate inside the block, the block is one
    row of one sublane, and the map is zero on the last two axes. -/
theorem iblk3_apply_0 (c : Dev nD) (t : Fin (cfg3 a).N) (l : Fin 128) :
    iblk3 a V c 0 t (ValueIdx.ix3 (0 : Fin 1) (0 : Fin 1) l)
      = V c main_v47 (ValueIdx.ix3 (⟨((cfg3 a).win 0).index t (0 : Fin 3), row_lt0 a t⟩ : Fin 100000) (0 : Fin 1) l) := by
  show V c main_v47 ((((cfg3 a).win 0).blk t).view.emb (ValueIdx.ix3 (0 : Fin 1) (0 : Fin 1) l)) = _
  congr 1
  funext d; apply Fin.ext
  match d with
  | ⟨0, _⟩ => show ((cfg3 a).win 0).index t (0 : Fin 3) * 1 + 1 * 0 = ((cfg3 a).win 0).index t (0 : Fin 3); omega
  | ⟨1, _⟩ => show ((cfg3 a).win 0).index t (1 : Fin 3) * 1 + 1 * 0 = 0; rw [show ((cfg3 a).win 0).index t (1 : Fin 3) = 0 from rfl]
  | ⟨2, _⟩ => show ((cfg3 a).win 0).index t (2 : Fin 3) * 128 + 1 * l.val = l.val; rw [show ((cfg3 a).win 0).index t (2 : Fin 3) = 0 from rfl]; omega

/-- The same for the positive items block, a row of the items table. -/
theorem iblk3_apply_1 (c : Dev nD) (t : Fin (cfg3 a).N) (l : Fin 128) :
    iblk3 a V c 1 t (ValueIdx.ix3 (0 : Fin 1) (0 : Fin 1) l)
      = V c main_v48 (ValueIdx.ix3 (⟨((cfg3 a).win 1).index t (0 : Fin 3), row_lt1 a t⟩ : Fin 50000) (0 : Fin 1) l) := by
  show V c main_v48 ((((cfg3 a).win 1).blk t).view.emb (ValueIdx.ix3 (0 : Fin 1) (0 : Fin 1) l)) = _
  congr 1
  funext d; apply Fin.ext
  match d with
  | ⟨0, _⟩ => show ((cfg3 a).win 1).index t (0 : Fin 3) * 1 + 1 * 0 = ((cfg3 a).win 1).index t (0 : Fin 3); omega
  | ⟨1, _⟩ => show ((cfg3 a).win 1).index t (1 : Fin 3) * 1 + 1 * 0 = 0; rw [show ((cfg3 a).win 1).index t (1 : Fin 3) = 0 from rfl]
  | ⟨2, _⟩ => show ((cfg3 a).win 1).index t (2 : Fin 3) * 128 + 1 * l.val = l.val; rw [show ((cfg3 a).win 1).index t (2 : Fin 3) = 0 from rfl]; omega

/-- The same for the negative items block, a row of the same items table. -/
theorem iblk3_apply_2 (c : Dev nD) (t : Fin (cfg3 a).N) (l : Fin 128) :
    iblk3 a V c 2 t (ValueIdx.ix3 (0 : Fin 1) (0 : Fin 1) l)
      = V c main_v48 (ValueIdx.ix3 (⟨((cfg3 a).win 2).index t (0 : Fin 3), row_lt2 a t⟩ : Fin 50000) (0 : Fin 1) l) := by
  show V c main_v48 ((((cfg3 a).win 2).blk t).view.emb (ValueIdx.ix3 (0 : Fin 1) (0 : Fin 1) l)) = _
  congr 1
  funext d; apply Fin.ext
  match d with
  | ⟨0, _⟩ => show ((cfg3 a).win 2).index t (0 : Fin 3) * 1 + 1 * 0 = ((cfg3 a).win 2).index t (0 : Fin 3); omega
  | ⟨1, _⟩ => show ((cfg3 a).win 2).index t (1 : Fin 3) * 1 + 1 * 0 = 0; rw [show ((cfg3 a).win 2).index t (1 : Fin 3) = 0 from rfl]
  | ⟨2, _⟩ => show ((cfg3 a).win 2).index t (2 : Fin 3) * 128 + 1 * l.val = l.val; rw [show ((cfg3 a).win 2).index t (2 : Fin 3) = 0 from rfl]; omega

end Generic

/-! ## One step, at the two lanes it writes -/

section AtIdeal

/-- The first 64 lanes of a fetched block: the propagated row. -/
def lanesLo (x : Vec Ideal S1x1x128 .f32) : Fin 64 → EReal := fun k => x (ValueIdx.ix3 (0 : Fin 1) (0 : Fin 1) (⟨k.val, by omega⟩ : Fin 128))
/-- The last 64 lanes of a fetched block: the raw row. -/
def lanesHi (x : Vec Ideal S1x1x128 .f32) : Fin 64 → EReal := fun k => x (ValueIdx.ix3 (0 : Fin 1) (0 : Fin 1) (⟨64 + k.val, by omega⟩ : Fin 128))

/-- The three casts of a fetched block to a [1, 128] row keep every lane. -/
theorem pay3_apply (x : Vec Ideal S1x1x128 .f32) (l : Fin 128) : k3_pay3 x (ix2 (0 : Fin 1) l) = x (ValueIdx.ix3 (0 : Fin 1) (0 : Fin 1) l) := by
  unfold k3_pay3
  exact ValueIdx.shapeCast_1ab_ab_apply x _ (0 : Fin 1) l
theorem pay4_apply (x : Vec Ideal S1x1x128 .f32) (l : Fin 128) : k3_pay4 x (ix2 (0 : Fin 1) l) = x (ValueIdx.ix3 (0 : Fin 1) (0 : Fin 1) l) := by
  unfold k3_pay4
  exact ValueIdx.shapeCast_1ab_ab_apply x _ (0 : Fin 1) l
theorem pay5_apply (x : Vec Ideal S1x1x128 .f32) (l : Fin 128) : k3_pay5 x (ix2 (0 : Fin 1) l) = x (ValueIdx.ix3 (0 : Fin 1) (0 : Fin 1) l) := by
  unfold k3_pay5
  exact ValueIdx.shapeCast_1ab_ab_apply x _ (0 : Fin 1) l

/-- A lane sum over a [1, 64] row, read at its one result index. -/
theorem laneSum_apply (src : FVec Ideal S1x64 .f32) (hφ : FTy.f32 = FTy.f32 ∨ FTy.f32 = FTy.bf16) (hacc : (0x00000000#32 : BitVec 32) = 0x00000000#32) :
    multiReduction (F := Ideal) .add [1] S1 src 0x00000000#32 reduces_S1x64_S1 hφ hacc (ix1 (0 : Fin 1)) = ∑ k : Fin 64, src (ix2 (0 : Fin 1) k) := by
  refine (Ideal.multiReduction_add_single src 0x00000000#32 reduces_S1x64_S1 hφ hacc (ix1 (0 : Fin 1))).trans ?_
  refine Finset.sum_congr rfl fun k _ => congrArg src ?_
  funext d; apply Fin.ext
  match d with
  | ⟨0, _⟩ => rfl
  | ⟨1, _⟩ => rfl

/-- The same sum as a [1, 1] block. -/
theorem laneSum11_apply (src : FVec Ideal S1x64 .f32) (hφ : FTy.f32 = FTy.f32 ∨ FTy.f32 = FTy.bf16) (hacc : (0x00000000#32 : BitVec 32) = 0x00000000#32) :
    shapeCast S1x1 (multiReduction (F := Ideal) .add [1] S1 src 0x00000000#32 reduces_S1x64_S1 hφ hacc) shapeCasts_S1_S1x1 (ix2 (0 : Fin 1) (0 : Fin 1))
      = ∑ k : Fin 64, src (ix2 (0 : Fin 1) k) :=
  (ValueIdx.shapeCast_a_1a_apply _ _ (0 : Fin 1) (0 : Fin 1)).trans (laneSum_apply src hφ hacc)

/-- The low half of a [1, 128] row. -/
theorem sliceLo_apply (y : FVec Ideal S1x128 .f32) (k : Fin 64) :
    extractStridedSlice S1x64 ![0, 0] y slices_S1x128_o0_0_S1x64 (ix2 (0 : Fin 1) k) = y (ix2 (0 : Fin 1) (⟨k.val, by omega⟩ : Fin 128)) :=
  extractStridedSlice_apply _ y _ _ _ fun d => by
    match d with
    | ⟨0, _⟩ => rfl
    | ⟨1, _⟩ => show k.val = 0 + k.val; omega
/-- The high half of a [1, 128] row. -/
theorem sliceHi_apply (y : FVec Ideal S1x128 .f32) (k : Fin 64) :
    extractStridedSlice S1x64 ![0, 64] y slices_S1x128_o0_64_S1x64 (ix2 (0 : Fin 1) k) = y (ix2 (0 : Fin 1) (⟨64 + k.val, by omega⟩ : Fin 128)) :=
  extractStridedSlice_apply _ y _ _ _ fun d => by
    match d with
    | ⟨0, _⟩ => rfl
    | ⟨1, _⟩ => rfl

/-- The exponential, log(1 + ·) and the absolute value act lane by lane; the absolute value is max(y, −y). -/
theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl

/-- On the extended reals a value never differs from itself, so the printed select takes its second branch: the
    stable softplus, the constant word being zero. -/
theorem softplus_scalar (d z : Ideal .f32) (hz : z = (0 : EReal)) :
    Scalar.select (FloatOps.cmpf .one (d - z) (d - z)) (d + z) (max d z + Ideal.log1p (Ideal.exp (z - max (d - z) (-(d - z)))))
      = Cert.Spec.softplusE d := by
  subst hz
  have hc : FloatOps.cmpf (F := Ideal) (φ := .f32) .one (d - (0 : EReal)) (d - (0 : EReal)) = 0#1 := by
    show Ideal.cmp .one (d - (0 : EReal)) (d - (0 : EReal)) = 0#1
    unfold Ideal.cmp
    simp
  rw [hc, select_zero]
  unfold Cert.Spec.softplusE
  rw [zero_sub]

/-- The printed softplus of the score difference is the query's loss. -/
theorem pay7_apply (x0 x1 x2 : Vec Ideal S1x1x128 .f32) :
    k3_pay7 x0 x1 x2 (ix2 (0 : Fin 1) (0 : Fin 1)) = Cert.Spec.lossRow (lanesLo x0) (lanesLo x1) (lanesLo x2) := by
  unfold k3_pay7
  simp only [select_apply, cmpf_apply, addf_apply, subf_apply, maximumf_apply, broadcast_apply, exp_apply, log1p_apply, absf_apply]
  rw [laneSum11_apply, laneSum11_apply]
  simp only [mulf_apply, sliceLo_apply, pay3_apply, pay4_apply, pay5_apply]
  refine (softplus_scalar _ _ Ideal.ofBits_zero_f32).trans ?_
  unfold Cert.Spec.lossRow Cert.Spec.dot lanesLo
  rw [zero_add, zero_add]

/-- The squared norm of the raw user row, as a [1, 1] block … -/
theorem pay8_apply (x : Vec Ideal S1x1x128 .f32) : k3_pay8 x (ix2 (0 : Fin 1) (0 : Fin 1)) = Cert.Spec.sq (lanesHi x) := by
  unfold k3_pay8
  dsimp only
  rw [laneSum11_apply]
  simp only [mulf_apply, sliceHi_apply, pay3_apply]
  unfold Cert.Spec.sq lanesHi
  rw [zero_add]

/-- … of the raw positive row, as a one-element vector … -/
theorem pay9_apply (x : Vec Ideal S1x1x128 .f32) : k3_pay9 x (ix1 (0 : Fin 1)) = Cert.Spec.sq (lanesHi x) := by
  unfold k3_pay9
  dsimp only
  rw [laneSum_apply]
  simp only [mulf_apply, sliceHi_apply, pay4_apply]
  unfold Cert.Spec.sq lanesHi
  rw [zero_add]

/-- … and the raw negative row itself, lane by lane. -/
theorem pay6_apply (x : Vec Ideal S1x1x128 .f32) (k : Fin 64) : k3_pay6 x (ix2 (0 : Fin 1) k) = lanesHi x k := by
  unfold k3_pay6
  rw [sliceHi_apply, pay5_apply]
  rfl

/-- A row [p | q | r] of widths 1, 1, 126 read at column 0 … -/
theorem concat3_apply0 (p q : FVec Ideal S1x1 .f32) (r : FVec Ideal S1x126 .f32) :
    concatenate S1x128 1 [⟨S1x1, p⟩, ⟨S1x1, q⟩, ⟨S1x126, r⟩] concatenates_S1x1_S1x1_S1x126_S1x128_d1 (ix2 (0 : Fin 1) (0 : Fin 128))
      = p (ix2 (0 : Fin 1) (0 : Fin 1)) :=
  concatenate_apply_piece (1 : Fin 2) _ _ (ix2 (0 : Fin 1) (0 : Fin 128)) 0 (by show 0 < 3; omega) S1x1 p rfl rfl 0 rfl (ix2 (0 : Fin 1) (0 : Fin 1))
    (fun b hb => by
      match b with
      | ⟨0, _⟩ => rfl
      | ⟨1, _⟩ => exact absurd rfl hb)
    rfl
/-- … and at column 1. -/
theorem concat3_apply1 (p q : FVec Ideal S1x1 .f32) (r : FVec Ideal S1x126 .f32) :
    concatenate S1x128 1 [⟨S1x1, p⟩, ⟨S1x1, q⟩, ⟨S1x126, r⟩] concatenates_S1x1_S1x1_S1x126_S1x128_d1 (ix2 (0 : Fin 1) (1 : Fin 128))
      = q (ix2 (0 : Fin 1) (0 : Fin 1)) :=
  concatenate_apply_piece (1 : Fin 2) _ _ (ix2 (0 : Fin 1) (1 : Fin 128)) 1 (by show 1 < 3; omega) S1x1 q rfl rfl 1 rfl (ix2 (0 : Fin 1) (0 : Fin 1))
    (fun b hb => by
      match b with
      | ⟨0, _⟩ => rfl
      | ⟨1, _⟩ => exact absurd rfl hb)
    rfl

/-- One grid point adds the query's loss to lane 0 of the output block. -/
theorem step3_loss (x0 x1 x2 : Vec Ideal S1x1x128 .f32) (prev : Vec Ideal S1x128 .f32) :
    step3 x0 x1 x2 prev (ix2 (0 : Fin 1) (0 : Fin 128))
      = prev (ix2 (0 : Fin 1) (0 : Fin 128)) + Cert.Spec.lossRow (lanesLo x0) (lanesLo x1) (lanesLo x2) := by
  unfold step3 k3_pay1
  dsimp only
  rw [addf_apply, shapeCast_self, concat3_apply0, pay7_apply]

/-- One grid point adds the query's regulariser to lane 1 of the output block. -/
theorem step3_reg (x0 x1 x2 : Vec Ideal S1x1x128 .f32) (prev : Vec Ideal S1x128 .f32) :
    step3 x0 x1 x2 prev (ix2 (0 : Fin 1) (1 : Fin 128))
      = prev (ix2 (0 : Fin 1) (1 : Fin 128)) + Cert.Spec.regRow (lanesHi x0) (lanesHi x1) (lanesHi x2) := by
  unfold step3 k3_pay1
  dsimp only
  rw [addf_apply, shapeCast_self, concat3_apply1, mulf_apply, broadcast_apply, addf_apply, addf_apply, pay8_apply,
    ValueIdx.shapeCast_a_1a_apply, pay9_apply, laneSum11_apply]
  simp only [mulf_apply, pay6_apply]
  unfold Cert.Spec.regRow
  rw [show (FloatOps.ofBits .f32 0x3F000000#32 : Ideal .f32) = ((1 / 2 : ℝ) : EReal) from Cert.Lits.half]
  unfold Cert.Spec.sq
  simp only [zero_add]

end AtIdeal

/-! ## The output array after the call -/

section GenericRun
variable {F : FTy → Type} [FloatOps F]
variable (a : (pcfg3 (F := F)).Adm)
variable (V : (c : Dev nD) → (b : Ref sig .tc) → Buf (Elt F) ((c : Thread nD τ).loc b))

/-- The output window is written back at the last point and at no other: its block index is the same at every point. -/
theorem flush3_iff (t : Fin (cfg3 a).N) : ((cfg3 a).win 3).flush t = true ↔ t.val = 4095 := by
  rw [((cfg3 a).win 3).flush_out rfl t]
  constructor
  · rintro (h | ⟨_, h2⟩)
    · have h3 : t.val + 1 = 4096 := h.trans N_3
      omega
    · exact absurd rfl h2
  · intro h
    exact Or.inl ((show t.val + 1 = 4096 by omega).trans N_3.symm)

/-- The last point is a point. -/
theorem last_lt3 : 4095 < (cfg3 a).N := lt_of_lt_of_eq (by omega : 4095 < 4096) N_3.symm

/-- What the last point writes back is the whole accumulated block: the output window's one block is its whole array. -/
theorem flushed3_eq (c : Dev nD) (t : Fin (cfg3 a).N) (ht : ((cfg3 a).win 3).flush t = true) :
    (dat3 a V c).flushed 3 t = (((cfg3 a).win 3).blk t).view.read (Elt F) (acc3 a V c 4095 (last_lt3 a)) := by
  have h4 : t.val = 4095 := (flush3_iff a t).mp ht
  obtain ⟨n, hn⟩ := t
  simp only at h4
  subst h4
  show ((cfg3 a).win 3).cut ((cfg3 a).grid.coords ⟨4095, hn⟩) ((dat3 a V c).after 3 ⟨4095, hn⟩) = _
  rw [after3_3]
  funext j
  show acc3 a V c 4095 hn (((cfg3 a).win 3).xinj ((cfg3 a).grid.coords ⟨4095, hn⟩) j)
    = acc3 a V c 4095 (last_lt3 a) ((((cfg3 a).win 3).blk ⟨4095, hn⟩).view.emb j)
  congr 1
  funext d; apply Fin.ext
  match d with
  | ⟨0, _⟩ =>
    show (j (0 : Fin 2)).val = ((cfg3 a).win 3).index ⟨4095, hn⟩ (0 : Fin 2) * 1 + 1 * (j (0 : Fin 2)).val
    rw [show ((cfg3 a).win 3).index ⟨4095, hn⟩ (0 : Fin 2) = 0 from rfl]; omega
  | ⟨1, _⟩ =>
    show (j (1 : Fin 2)).val = ((cfg3 a).win 3).index ⟨4095, hn⟩ (1 : Fin 2) * 128 + 1 * (j (1 : Fin 2)).val
    rw [show ((cfg3 a).win 3).index ⟨4095, hn⟩ (1 : Fin 2) = 0 from rfl]; omega

/-- Every index of the output array lies in the block the last point writes back. -/
theorem covered3 (i : S1x128.Idx) :
    ∃ t : Fin (cfg3 a).N, ((cfg3 a).win 3).flush t = true ∧ i ∈ (((cfg3 a).win 3).blk t).view.set := by
  refine ⟨⟨4095, last_lt3 a⟩, (flush3_iff a _).mpr rfl, ?_⟩
  have hi : i = (((cfg3 a).win 3).blk ⟨4095, last_lt3 a⟩).view.emb
      ((fun d => i d) : (((cfg3 a).win 3).xblock ((cfg3 a).grid.coords ⟨4095, last_lt3 a⟩)).Idx) := by
    funext d; apply Fin.ext
    match d with
    | ⟨0, _⟩ =>
      show (i 0).val = ((cfg3 a).win 3).index ⟨4095, last_lt3 a⟩ (0 : Fin 2) * 1 + 1 * (i 0).val
      rw [show ((cfg3 a).win 3).index ⟨4095, last_lt3 a⟩ (0 : Fin 2) = 0 from rfl]; omega
    | ⟨1, _⟩ =>
      show (i 1).val = ((cfg3 a).win 3).index ⟨4095, last_lt3 a⟩ (1 : Fin 2) * 128 + 1 * (i 1).val
      rw [show ((cfg3 a).win 3).index ⟨4095, last_lt3 a⟩ (1 : Fin 2) = 0 from rfl]; omega
  have hm := (((cfg3 a).win 3).blk ⟨4095, last_lt3 a⟩).view.emb_mem_set
    ((fun d => i d) : (((cfg3 a).win 3).xblock ((cfg3 a).grid.coords ⟨4095, last_lt3 a⟩)).Idx)
  rw [← hi] at hm
  exact hm

/-- The output array after the call: the block accumulated over all 4096 points. -/
theorem arrAt3_out (c : Dev nD) : (dat3 a V c).arrAt 3 (cfg3 a).N = acc3 a V c 4095 (last_lt3 a) :=
  (dat3 a V c).arrAt_eq_of_cover 3 (acc3 a V c 4095 (last_lt3 a)) (fun t ht => flushed3_eq a V c t ht) (covered3 a)

end GenericRun

/-! ## The accumulated block, lane 0 and lane 1 -/

section AtIdealRun
variable (a : (pcfg3 (F := Ideal)).Adm)
variable (V : (c : Dev nD) → (b : Ref sig .tc) → Buf (Elt Ideal) ((c : Thread nD τ).loc b))

/-- The block the first point starts from is zero everywhere. -/
theorem pay2_apply (j : S1x128.Idx) : (k3_pay2 (F := Ideal)) j = (0 : EReal) := by
  unfold k3_pay2
  exact Ideal.ofBits_zero_f32

/-- Lane 0 of the accumulated block after point n: the sum of the losses of the queries 0 … n. -/
theorem acc3_loss (c : Dev nD) : ∀ (n : ℕ) (h : n < (cfg3 a).N),
    acc3 a V c n h (ix2 (0 : Fin 1) (0 : Fin 128))
      = ∑ i : Fin (n + 1), Cert.Spec.lossRow (lanesLo (iblk3 a V c 0 ⟨i.val, by omega⟩)) (lanesLo (iblk3 a V c 1 ⟨i.val, by omega⟩))
          (lanesLo (iblk3 a V c 2 ⟨i.val, by omega⟩))
  | 0, h => by
    refine (step3_loss (iblk3 a V c 0 ⟨0, h⟩) (iblk3 a V c 1 ⟨0, h⟩) (iblk3 a V c 2 ⟨0, h⟩) (k3_pay2 (F := Ideal))).trans ?_
    rw [pay2_apply, zero_add, Fin.sum_univ_one]
    rfl
  | n + 1, h => by
    refine (step3_loss (iblk3 a V c 0 ⟨n + 1, h⟩) (iblk3 a V c 1 ⟨n + 1, h⟩) (iblk3 a V c 2 ⟨n + 1, h⟩) (acc3 a V c n (Nat.lt_of_succ_lt h))).trans ?_
    rw [acc3_loss c n (Nat.lt_of_succ_lt h), Fin.sum_univ_castSucc (n := n + 1)]
    rfl

/-- Lane 1 of the accumulated block after point n: the sum of the regularisers of the queries 0 … n. -/
theorem acc3_reg (c : Dev nD) : ∀ (n : ℕ) (h : n < (cfg3 a).N),
    acc3 a V c n h (ix2 (0 : Fin 1) (1 : Fin 128))
      = ∑ i : Fin (n + 1), Cert.Spec.regRow (lanesHi (iblk3 a V c 0 ⟨i.val, by omega⟩)) (lanesHi (iblk3 a V c 1 ⟨i.val, by omega⟩))
          (lanesHi (iblk3 a V c 2 ⟨i.val, by omega⟩))
  | 0, h => by
    refine (step3_reg (iblk3 a V c 0 ⟨0, h⟩) (iblk3 a V c 1 ⟨0, h⟩) (iblk3 a V c 2 ⟨0, h⟩) (k3_pay2 (F := Ideal))).trans ?_
    rw [pay2_apply, zero_add, Fin.sum_univ_one]
    rfl
  | n + 1, h => by
    refine (step3_reg (iblk3 a V c 0 ⟨n + 1, h⟩) (iblk3 a V c 1 ⟨n + 1, h⟩) (iblk3 a V c 2 ⟨n + 1, h⟩) (acc3 a V c n (Nat.lt_of_succ_lt h))).trans ?_
    rw [acc3_reg c n (Nat.lt_of_succ_lt h), Fin.sum_univ_castSucc (n := n + 1)]
    rfl

end AtIdealRun

end Cert.KernelIdeal.Hand
end
-- ==== Proof.KernelIdeal.AccValue0.lean ====
/-
  What the first accumulate call of the program, custom_call 0, leaves in its three arrays, each as ONE function on
  the whole [150000, 64] index set. The grid has 25 points; at point t every window is on rows 6000 t … 6000 t + 5999
  of its array, all 64 columns. The body at point t stores, over the whole output block, the entry-by-entry sum of the
  two input blocks times a constant; an input block is the rows 6000 t … of its array as the region finds it. Hence
  what point t writes back is rows 6000 t … of one whole-array function of the two input arrays (accG0), the 25
  blocks tile the 150000 rows (row r lies in block r / 6000), and the output array ends holding that function. The two
  input arrays are never written back and end as they were entered.
-/
import proofs.«428003_j33079838114572_4_alg».proof.Proof.KernelIdeal.Acc0
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The origin of a block, as the function that is zero on both axes. -/
theorem hzAcc0 : (![0, 0] : Fin 2 → Nat) = fun _ => 0 := funext fun a => by fin_cases a <;> rfl

/-- What the output array ends holding: entry by entry, the sum of the two input arrays times the call's constant. -/
def accG0 (x y : FVec F S150000x64 .f32) : FVec F S150000x64 .f32 :=
  mulf (addf x y) (broadcast S150000x64 (Scalar.ofBits .f32 0x3F800000#32))

/-- The body's payload at an entry j of the block is accG0 at an entry i of the array, as soon as the two loaded
    blocks at j are the two arrays at i: the casts to the same shape are the identity, and sum, product and the
    broadcast constant are entry by entry. -/
theorem pay0_eq (x0 x1 : Vec F S6000x64 .f32) (j : S6000x64.Idx) (a b : FVec F S150000x64 .f32) (i : S150000x64.Idx)
    (h0 : x0 j = a i) (h1 : x1 j = b i) : k0_pay1 x0 x1 j = accG0 a b i := by
  unfold k0_pay1 accG0
  rw [shapeCast_self, shapeCast_self]
  show FloatOps.mulf (FloatOps.addf (x0 j) (x1 j)) _ = FloatOps.mulf (FloatOps.addf (a i) (b i)) _
  rw [h0, h1]
  rfl

/-- The printed index maps, decided over the 25 grid points: each window's block index at point t is (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back to the output array is block t of accG0 of the two input arrays as the region finds
    them. -/
theorem flushed0_eq (c : Dev nD) (t : Fin cfg0.N) :
    (dat0 V c).flushed 2 t = ((cfg0.win 2).blk t).view.read (Elt F) (accG0 (V c main_v0) (V c main_v13)) := by
  show (cfg0.win 2).cut (grid0.coords t) ((dat0 V c).after 2 t) = _
  rw [after0_2]
  unfold out0_2
  rw [View.canon_unit_zero hzAcc0]
  simp only [View.ld_unit_zero (S := S6000x64) hzAcc0]
  obtain ⟨e0, e1, e2, e3, e4, e5⟩ := idx_facts0 t
  funext j
  show k0_pay1 (iblk0 V c 0 t) (iblk0 V c 1 t) j = accG0 (V c main_v0) (V c main_v13) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 6000 + 1 * (j 0).val = win0_2.index t (0 : Fin 2) * 6000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 6000 + 1 * (j 0).val = win0_2.index t (0 : Fin 2) * 6000 + 1 * (j 0).val; omega
    | ⟨1, _⟩ => show win0_1.index t (1 : Fin 2) * 64 + 1 * (j 1).val = win0_2.index t (1 : Fin 2) * 64 + 1 * (j 1).val; omega
  refine pay0_eq _ _ j _ _ _ ?_ ?_
  · show V c main_v0 (((cfg0.win 0).blk t).view.emb j) = V c main_v0 (((cfg0.win 2).blk t).view.emb j)
    rw [h0]
  · show V c main_v13 (((cfg0.win 1).blk t).view.emb j) = V c main_v13 (((cfg0.win 2).blk t).view.emb j)
    rw [h1]

/-- An index of the array is in point t's block iff each coordinate is in the block's range on its axis. -/
theorem mem_blk0 (t : Fin cfg0.N) (i : S150000x64.Idx) :
    i ∈ ((cfg0.win 2).blk t).view.set ↔ ∀ a : Fin 2, win0_2.index t a * S6000x64.size a ≤ (i a).val ∧ (i a).val < win0_2.index t a * S6000x64.size a + S6000x64.size a := by
  show i ∈ ((View.whole main_v14).slice (win0_2.rect t)).set ↔ _
  rw [View.set_slice_whole, Rect.mem_set_unit]
  exact Iff.rfl

/-- Every block row of the array is some point's: the index map is onto the 25 row blocks. -/
theorem idx_onto0 : ∀ q : Fin 25, ∃ t : Fin cfg0.N, win0_2.index t = ![q.val, 0] :=
  (by decide +kernel : ∀ q : Fin 25, ∃ t : Fin grid0.N, win0_2.index t = ![q.val, 0])

/-- The 25 blocks tile the array: row r lies in the block of point r / 6000, every column in its one column block. -/
theorem covered0 (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := idx_onto0 ⟨(i 0).val / 6000, by omega⟩
  have q0 : win0_2.index t (0 : Fin 2) = (i 0).val / 6000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 64 ≤ (i 1).val ∧ (i 1).val < win0_2.index t (1 : Fin 2) * 64 + 64; omega

/-- The output array after the call: accG0 of the two input arrays as the region finds them. -/
theorem arrAt0_out (c : Dev nD) : (dat0 V c).arrAt 2 cfg0.N = accG0 (V c main_v0) (V c main_v13) :=
  (dat0 V c).arrAt_eq_of_cover 2 (accG0 (V c main_v0) (V c main_v13)) (fun t _ => flushed0_eq V c t) covered0

/-- The input arrays after the call are as entered: their windows are never written back. -/
theorem arrAt0_in0 (c : Dev nD) : (dat0 V c).arrAt 0 cfg0.N = V c main_v0 :=
  ((dat0 V c).arrAt_in 0 rfl _).trans (A_eq0 V c 0)

theorem arrAt0_in1 (c : Dev nD) : (dat0 V c).arrAt 1 cfg0.N = V c main_v13 :=
  ((dat0 V c).arrAt_in 1 rfl _).trans (A_eq0 V c 1)

end Cert.KernelIdeal.Hand

end
-- ==== Proof.KernelIdeal.AccValue1.lean ====
/-
  What accumulate call number 1 (counting from 0) of the program, custom_call 1, leaves in its three arrays, each as ONE function on
  the whole [150000, 64] index set. The grid has 25 points; at point t every window is on rows 6000 t … 6000 t + 5999
  of its array, all 64 columns. The body at point t stores, over the whole output block, the entry-by-entry sum of the
  two input blocks times a constant; an input block is the rows 6000 t … of its array as the region finds it. Hence
  what point t writes back is rows 6000 t … of one whole-array function of the two input arrays (accG1), the 25
  blocks tile the 150000 rows (row r lies in block r / 6000), and the output array ends holding that function. The two
  input arrays are never written back and end as they were entered.
-/
import proofs.«428003_j33079838114572_4_alg».proof.Proof.KernelIdeal.Acc1
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The origin of a block, as the function that is zero on both axes. -/
theorem hzAcc1 : (![0, 0] : Fin 2 → Nat) = fun _ => 0 := funext fun a => by fin_cases a <;> rfl

/-- What the output array ends holding: entry by entry, the sum of the two input arrays times the call's constant. -/
def accG1 (x y : FVec F S150000x64 .f32) : FVec F S150000x64 .f32 :=
  mulf (addf x y) (broadcast S150000x64 (Scalar.ofBits .f32 0x3F800000#32))

/-- The body's payload at an entry j of the block is accG1 at an entry i of the array, as soon as the two loaded
    blocks at j are the two arrays at i: the casts to the same shape are the identity, and sum, product and the
    broadcast constant are entry by entry. -/
theorem pay1_eq (x0 x1 : Vec F S6000x64 .f32) (j : S6000x64.Idx) (a b : FVec F S150000x64 .f32) (i : S150000x64.Idx)
    (h0 : x0 j = a i) (h1 : x1 j = b i) : k1_pay1 x0 x1 j = accG1 a b i := by
  unfold k1_pay1 accG1
  rw [shapeCast_self, shapeCast_self]
  show FloatOps.mulf (FloatOps.addf (x0 j) (x1 j)) _ = FloatOps.mulf (FloatOps.addf (a i) (b i)) _
  rw [h0, h1]
  rfl

/-- The printed index maps, decided over the 25 grid points: each window's block index at point t is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back to the output array is block t of accG1 of the two input arrays as the region finds
    them. -/
theorem flushed1_eq (c : Dev nD) (t : Fin cfg1.N) :
    (dat1 V c).flushed 2 t = ((cfg1.win 2).blk t).view.read (Elt F) (accG1 (V c main_v14) (V c main_v27)) := by
  show (cfg1.win 2).cut (grid1.coords t) ((dat1 V c).after 2 t) = _
  rw [after1_2]
  unfold out1_2
  rw [View.canon_unit_zero hzAcc1]
  simp only [View.ld_unit_zero (S := S6000x64) hzAcc1]
  obtain ⟨e0, e1, e2, e3, e4, e5⟩ := idx_facts1 t
  funext j
  show k1_pay1 (iblk1 V c 0 t) (iblk1 V c 1 t) j = accG1 (V c main_v14) (V c main_v27) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 64 + 1 * (j 1).val = win1_2.index t (1 : Fin 2) * 64 + 1 * (j 1).val; omega
  refine pay1_eq _ _ j _ _ _ ?_ ?_
  · show V c main_v14 (((cfg1.win 0).blk t).view.emb j) = V c main_v14 (((cfg1.win 2).blk t).view.emb j)
    rw [h0]
  · show V c main_v27 (((cfg1.win 1).blk t).view.emb j) = V c main_v27 (((cfg1.win 2).blk t).view.emb j)
    rw [h1]

/-- An index of the array is in point t's block iff each coordinate is in the block's range on its axis. -/
theorem mem_blk1 (t : Fin cfg1.N) (i : S150000x64.Idx) :
    i ∈ ((cfg1.win 2).blk t).view.set ↔ ∀ a : Fin 2, win1_2.index t a * S6000x64.size a ≤ (i a).val ∧ (i a).val < win1_2.index t a * S6000x64.size a + S6000x64.size a := by
  show i ∈ ((View.whole main_v28).slice (win1_2.rect t)).set ↔ _
  rw [View.set_slice_whole, Rect.mem_set_unit]
  exact Iff.rfl

/-- Every block row of the array is some point's: the index map is onto the 25 row blocks. -/
theorem idx_onto1 : ∀ q : Fin 25, ∃ t : Fin cfg1.N, win1_2.index t = ![q.val, 0] :=
  (by decide +kernel : ∀ q : Fin 25, ∃ t : Fin grid1.N, win1_2.index t = ![q.val, 0])

/-- The 25 blocks tile the array: row r lies in the block of point r / 6000, every column in its one column block. -/
theorem covered1 (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  obtain ⟨t, ht⟩ := idx_onto1 ⟨(i 0).val / 6000, by omega⟩
  have q0 : win1_2.index t (0 : Fin 2) = (i 0).val / 6000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 6000 ≤ (i 0).val ∧ (i 0).val < win1_2.index t (0 : Fin 2) * 6000 + 6000; omega
  | ⟨1, _⟩ => show win1_2.index t (1 : Fin 2) * 64 ≤ (i 1).val ∧ (i 1).val < win1_2.index t (1 : Fin 2) * 64 + 64; omega

/-- The output array after the call: accG1 of the two input arrays as the region finds them. -/
theorem arrAt1_out (c : Dev nD) : (dat1 V c).arrAt 2 cfg1.N = accG1 (V c main_v14) (V c main_v27) :=
  (dat1 V c).arrAt_eq_of_cover 2 (accG1 (V c main_v14) (V c main_v27)) (fun t _ => flushed1_eq V c t) covered1

/-- The input arrays after the call are as entered: their windows are never written back. -/
theorem arrAt1_in0 (c : Dev nD) : (dat1 V c).arrAt 0 cfg1.N = V c main_v14 :=
  ((dat1 V c).arrAt_in 0 rfl _).trans (A_eq1 V c 0)

theorem arrAt1_in1 (c : Dev nD) : (dat1 V c).arrAt 1 cfg1.N = V c main_v27 :=
  ((dat1 V c).arrAt_in 1 rfl _).trans (A_eq1 V c 1)

end Cert.KernelIdeal.Hand

end
-- ==== Proof.KernelIdeal.AccValue2.lean ====
/-
  What accumulate call number 2 (counting from 0) of the program, custom_call 2, leaves in its three arrays, each as ONE function on
  the whole [150000, 64] index set. The grid has 25 points; at point t every window is on rows 6000 t … 6000 t + 5999
  of its array, all 64 columns. The body at point t stores, over the whole output block, the entry-by-entry sum of the
  two input blocks times a constant; an input block is the rows 6000 t … of its array as the region finds it. Hence
  what point t writes back is rows 6000 t … of one whole-array function of the two input arrays (accG2), the 25
  blocks tile the 150000 rows (row r lies in block r / 6000), and the output array ends holding that function. The two
  input arrays are never written back and end as they were entered.
-/
import proofs.«428003_j33079838114572_4_alg».proof.Proof.KernelIdeal.Acc2
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The origin of a block, as the function that is zero on both axes. -/
theorem hzAcc2 : (![0, 0] : Fin 2 → Nat) = fun _ => 0 := funext fun a => by fin_cases a <;> rfl

/-- What the output array ends holding: entry by entry, the sum of the two input arrays times the call's constant. -/
def accG2 (x y : FVec F S150000x64 .f32) : FVec F S150000x64 .f32 :=
  mulf (addf x y) (broadcast S150000x64 (Scalar.ofBits .f32 0x3E800000#32))

/-- The body's payload at an entry j of the block is accG2 at an entry i of the array, as soon as the two loaded
    blocks at j are the two arrays at i: the casts to the same shape are the identity, and sum, product and the
    broadcast constant are entry by entry. -/
theorem pay2_eq (x0 x1 : Vec F S6000x64 .f32) (j : S6000x64.Idx) (a b : FVec F S150000x64 .f32) (i : S150000x64.Idx)
    (h0 : x0 j = a i) (h1 : x1 j = b i) : k2_pay1 x0 x1 j = accG2 a b i := by
  unfold k2_pay1 accG2
  rw [shapeCast_self, shapeCast_self]
  show FloatOps.mulf (FloatOps.addf (x0 j) (x1 j)) _ = FloatOps.mulf (FloatOps.addf (a i) (b i)) _
  rw [h0, h1]
  rfl

/-- The printed index maps, decided over the 25 grid points: each window's block index at point t is (t, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back to the output array is block t of accG2 of the two input arrays as the region finds
    them. -/
theorem flushed2_eq (c : Dev nD) (t : Fin cfg2.N) :
    (dat2 V c).flushed 2 t = ((cfg2.win 2).blk t).view.read (Elt F) (accG2 (V c main_v28) (V c main_v41)) := by
  show (cfg2.win 2).cut (grid2.coords t) ((dat2 V c).after 2 t) = _
  rw [after2_2]
  unfold out2_2
  rw [View.canon_unit_zero hzAcc2]
  simp only [View.ld_unit_zero (S := S6000x64) hzAcc2]
  obtain ⟨e0, e1, e2, e3, e4, e5⟩ := idx_facts2 t
  funext j
  show k2_pay1 (iblk2 V c 0 t) (iblk2 V c 1 t) j = accG2 (V c main_v28) (V c main_v41) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 64 + 1 * (j 1).val = win2_2.index t (1 : Fin 2) * 64 + 1 * (j 1).val; omega
  refine pay2_eq _ _ j _ _ _ ?_ ?_
  · show V c main_v28 (((cfg2.win 0).blk t).view.emb j) = V c main_v28 (((cfg2.win 2).blk t).view.emb j)
    rw [h0]
  · show V c main_v41 (((cfg2.win 1).blk t).view.emb j) = V c main_v41 (((cfg2.win 2).blk t).view.emb j)
    rw [h1]

/-- An index of the array is in point t's block iff each coordinate is in the block's range on its axis. -/
theorem mem_blk2 (t : Fin cfg2.N) (i : S150000x64.Idx) :
    i ∈ ((cfg2.win 2).blk t).view.set ↔ ∀ a : Fin 2, win2_2.index t a * S6000x64.size a ≤ (i a).val ∧ (i a).val < win2_2.index t a * S6000x64.size a + S6000x64.size a := by
  show i ∈ ((View.whole main_v42).slice (win2_2.rect t)).set ↔ _
  rw [View.set_slice_whole, Rect.mem_set_unit]
  exact Iff.rfl

/-- Every block row of the array is some point's: the index map is onto the 25 row blocks. -/
theorem idx_onto2 : ∀ q : Fin 25, ∃ t : Fin cfg2.N, win2_2.index t = ![q.val, 0] :=
  (by decide +kernel : ∀ q : Fin 25, ∃ t : Fin grid2.N, win2_2.index t = ![q.val, 0])

/-- The 25 blocks tile the array: row r lies in the block of point r / 6000, every column in its one column block. -/
theorem covered2 (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  obtain ⟨t, ht⟩ := idx_onto2 ⟨(i 0).val / 6000, by omega⟩
  have q0 : win2_2.index t (0 : Fin 2) = (i 0).val / 6000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 64 ≤ (i 1).val ∧ (i 1).val < win2_2.index t (1 : Fin 2) * 64 + 64; omega

/-- The output array after the call: accG2 of the two input arrays as the region finds them. -/
theorem arrAt2_out (c : Dev nD) : (dat2 V c).arrAt 2 cfg2.N = accG2 (V c main_v28) (V c main_v41) :=
  (dat2 V c).arrAt_eq_of_cover 2 (accG2 (V c main_v28) (V c main_v41)) (fun t _ => flushed2_eq V c t) covered2

/-- The input arrays after the call are as entered: their windows are never written back. -/
theorem arrAt2_in0 (c : Dev nD) : (dat2 V c).arrAt 0 cfg2.N = V c main_v28 :=
  ((dat2 V c).arrAt_in 0 rfl _).trans (A_eq2 V c 0)

theorem arrAt2_in1 (c : Dev nD) : (dat2 V c).arrAt 1 cfg2.N = V c main_v41 :=
  ((dat2 V c).arrAt_in 1 rfl _).trans (A_eq2 V c 1)

end Cert.KernelIdeal.Hand

end
-- ==== Proof.KernelIdeal.Glue.lean ====
/-
  The host side of the program, read as mathematics: what the buffers of a core hold at each boundary of the run, as
  explicit terms of the launch memory's argument arrays. The embedding table is the user rows followed by the item
  rows; one propagation step (prop) gathers, for every edge, the source row, scales it by the edge's value and
  adds the scaled rows up per destination; the three accumulate calls fold the tables after one, two and three steps
  into the embedding table, ((emb + x1) · 1 + x2) · 1 + x3 times 1/4 (lightK). The two lookup tables are then, row by
  row, the layer-averaged row in lanes 0 … 63 and the argument's own row in lanes 64 … 127: the user table from rows
  0 … 99999, the item table from rows 100000 … 149999. The propagation step is carried as one function throughout:
  nothing here looks inside the gather or the scatter.
-/
import proofs.«428003_j33079838114572_4_alg».proof.Proof.KernelIdeal.Run
import proofs.«428003_j33079838114572_4_alg».proof.Proof.KernelIdeal.AccValue0
import proofs.«428003_j33079838114572_4_alg».proof.Proof.KernelIdeal.AccValue1
import proofs.«428003_j33079838114572_4_alg».proof.Proof.KernelIdeal.AccValue2
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The terms -/

/-- One propagation step over the edge list: every edge reads the row of x at its source (a negative source index
    wrapped by adding the 150000 rows), scales it by the edge's value, and the scaled rows are added up, per
    destination, into the zero table. Kept as ONE function of the edge arrays and the table: nothing below opens
    the gather or the scatter. -/
def prop (src dst : IVec S4000000 32) (ev : FVec F S4000000 .f32) (x : FVec F S150000x64 .f32) : FVec F S150000x64 .f32 :=
  Host.scatterAdd scatter_S150000x64_S4000000x1_S4000000x64_1_0_0_1
    (broadcastInDim S150000x64 ![] bcast_S_S150000x64 (constant (F := F) S_ .f32 0x00000000#32))
    (broadcastInDim S4000000x1 ![0] bcast_S4000000_S4000000x1_0 dst)
    (mulf
      (Host.gather gather_S150000x64_S4000000x1_S4000000x64_1_0_n_n_0_1_164 x
        (broadcastInDim S4000000x1 ![0] bcast_S4000000_S4000000x1_0
          (select (cmpi .slt src (broadcastInDim S4000000 ![] bcast_S_S4000000 (constantI S_ 32 0#32)))
            (addi src (broadcastInDim S4000000 ![] bcast_S_S4000000 (constantI S_ 32 150000#32))) src)))
      (broadcastInDim S4000000x64 ![0, 1] bcast_S4000000x1_S4000000x64_0_1
        (broadcastInDim S4000000x1 ![0] bcast_S4000000_S4000000x1_0 ev)))

/-- The argument arrays of core c at launch: the user table, the item table, the edge values, sources and
    destinations. -/
abbrev arg0K (c : Dev nD) : FVec F S100000x64 .f32 := m ((c : Thread nD τ).loc main_arg0)
abbrev arg1K (c : Dev nD) : FVec F S50000x64 .f32 := m ((c : Thread nD τ).loc main_arg1)
abbrev arg2K (c : Dev nD) : FVec F S4000000 .f32 := m ((c : Thread nD τ).loc main_arg2)
abbrev arg3K (c : Dev nD) : IVec S4000000 32 := m ((c : Thread nD τ).loc main_arg3)
abbrev arg4K (c : Dev nD) : IVec S4000000 32 := m ((c : Thread nD τ).loc main_arg4)

/-- The embedding table: the user rows, then the item rows. -/
def embK (c : Dev nD) : FVec F S150000x64 .f32 :=
  concatenate S150000x64 0 [⟨S100000x64, arg0K m c⟩, ⟨S50000x64, arg1K m c⟩] concatenates_S100000x64_S50000x64_S150000x64_d0

/-- The table after one, two and three propagation steps. -/
def x1K (c : Dev nD) : FVec F S150000x64 .f32 := prop (arg3K m c) (arg4K m c) (arg2K m c) (embK m c)
def x2K (c : Dev nD) : FVec F S150000x64 .f32 := prop (arg3K m c) (arg4K m c) (arg2K m c) (x1K m c)
def x3K (c : Dev nD) : FVec F S150000x64 .f32 := prop (arg3K m c) (arg4K m c) (arg2K m c) (x2K m c)

/-- What the three accumulate calls make of them: ((emb + x1) · 1 + x2) · 1 + x3, times 1/4. -/
def lightK (c : Dev nD) : FVec F S150000x64 .f32 := accG2 (accG1 (accG0 (embK m c) (x1K m c)) (x2K m c)) (x3K m c)

/-! ## The argument arrays through the first three calls

No host stretch and no accumulate call writes an argument array. -/

private theorem W2_arg0 (c : Dev nD) : W2 m c (Proc.devRef .tc main_arg0) = arg0K m c := by
  rw [W2_of_ne m c main_arg0 (by decide)]
  show StableHlo.after hostOps0 (W0 m c) (Proc.devRef .tc main_arg0) = _
  after_results_simp
private theorem W2_arg1 (c : Dev nD) : W2 m c (Proc.devRef .tc main_arg1) = arg1K m c := by
  rw [W2_of_ne m c main_arg1 (by decide)]
  show StableHlo.after hostOps0 (W0 m c) (Proc.devRef .tc main_arg1) = _
  after_results_simp
private theorem W2_arg2 (c : Dev nD) : W2 m c (Proc.devRef .tc main_arg2) = arg2K m c := by
  rw [W2_of_ne m c main_arg2 (by decide)]
  show StableHlo.after hostOps0 (W0 m c) (Proc.devRef .tc main_arg2) = _
  after_results_simp
private theorem W2_arg3 (c : Dev nD) : W2 m c (Proc.devRef .tc main_arg3) = arg3K m c := by
  rw [W2_of_ne m c main_arg3 (by decide)]
  show StableHlo.after hostOps0 (W0 m c) (Proc.devRef .tc main_arg3) = _
  after_results_simp
private theorem W2_arg4 (c : Dev nD) : W2 m c (Proc.devRef .tc main_arg4) = arg4K m c := by
  rw [W2_of_ne m c main_arg4 (by decide)]
  show StableHlo.after hostOps0 (W0 m c) (Proc.devRef .tc main_arg4) = _
  after_results_simp

private theorem W4_arg0 (c : Dev nD) : W4 m c (Proc.devRef .tc main_arg0) = arg0K m c := by
  rw [W4_of_ne m c main_arg0 (by decide)]
  show StableHlo.after hostOps1 (W2 m c) (Proc.devRef .tc main_arg0) = _
  after_results_simp
  exact W2_arg0 m c
private theorem W4_arg1 (c : Dev nD) : W4 m c (Proc.devRef .tc main_arg1) = arg1K m c := by
  rw [W4_of_ne m c main_arg1 (by decide)]
  show StableHlo.after hostOps1 (W2 m c) (Proc.devRef .tc main_arg1) = _
  after_results_simp
  exact W2_arg1 m c
private theorem W4_arg2 (c : Dev nD) : W4 m c (Proc.devRef .tc main_arg2) = arg2K m c := by
  rw [W4_of_ne m c main_arg2 (by decide)]
  show StableHlo.after hostOps1 (W2 m c) (Proc.devRef .tc main_arg2) = _
  after_results_simp
  exact W2_arg2 m c
private theorem W4_arg3 (c : Dev nD) : W4 m c (Proc.devRef .tc main_arg3) = arg3K m c := by
  rw [W4_of_ne m c main_arg3 (by decide)]
  show StableHlo.after hostOps1 (W2 m c) (Proc.devRef .tc main_arg3) = _
  after_results_simp
  exact W2_arg3 m c
private theorem W4_arg4 (c : Dev nD) : W4 m c (Proc.devRef .tc main_arg4) = arg4K m c := by
  rw [W4_of_ne m c main_arg4 (by decide)]
  show StableHlo.after hostOps1 (W2 m c) (Proc.devRef .tc main_arg4) = _
  after_results_simp
  exact W2_arg4 m c

private theorem W6_arg0 (c : Dev nD) : W6 m c (Proc.devRef .tc main_arg0) = arg0K m c := by
  rw [W6_of_ne m c main_arg0 (by decide)]
  show StableHlo.after hostOps2 (W4 m c) (Proc.devRef .tc main_arg0) = _
  after_results_simp
  exact W4_arg0 m c
private theorem W6_arg1 (c : Dev nD) : W6 m c (Proc.devRef .tc main_arg1) = arg1K m c := by
  rw [W6_of_ne m c main_arg1 (by decide)]
  show StableHlo.after hostOps2 (W4 m c) (Proc.devRef .tc main_arg1) = _
  after_results_simp
  exact W4_arg1 m c

/-! ## The first stretch and the first call -/

/-- At the first call's entry its first input array is the embedding table, -/
theorem V1_emb (c : Dev nD) : V1 m c main_v0 = embK m c := by
  show StableHlo.after hostOps0 (W0 m c) (Proc.devRef .tc main_v0) = _
  after_results_simp
  rfl

set_option maxHeartbeats 1000000 in
/-- and its second the table after one propagation step. -/
theorem V1_x1 (c : Dev nD) : V1 m c main_v13 = x1K m c := by
  show StableHlo.after hostOps0 (W0 m c) (Proc.devRef .tc main_v13) = _
  after_results_simp
  unfold x1K prop embK
  rfl

/-- The first call leaves its second input as entered -/
theorem W2_x1 (c : Dev nD) : W2 m c (Proc.devRef .tc main_v13) = x1K m c :=
  (W2_arr m c 1).trans ((arrAt0_in1 (V1 m) c).trans (V1_x1 m c))

/-- and its output at the sum of the two inputs times its constant. -/
theorem W2_acc (c : Dev nD) : W2 m c (Proc.devRef .tc main_v14) = accG0 (embK m c) (x1K m c) :=
  (W2_arr m c 2).trans ((arrAt0_out (V1 m) c).trans (by rw [V1_emb, V1_x1]))

/-! ## The second stretch and the second call -/

theorem V3_acc (c : Dev nD) : V3 m c main_v14 = accG0 (embK m c) (x1K m c) := by
  show StableHlo.after hostOps1 (W2 m c) (Proc.devRef .tc main_v14) = _
  after_results_simp
  exact W2_acc m c

set_option maxHeartbeats 1000000 in
theorem V3_x2 (c : Dev nD) : V3 m c main_v27 = x2K m c := by
  show StableHlo.after hostOps1 (W2 m c) (Proc.devRef .tc main_v27) = _
  after_results_simp
  rw [W2_x1, W2_arg2, W2_arg3, W2_arg4]
  unfold x2K prop
  rfl

theorem W4_x2 (c : Dev nD) : W4 m c (Proc.devRef .tc main_v27) = x2K m c :=
  (W4_arr m c 1).trans ((arrAt1_in1 (V3 m) c).trans (V3_x2 m c))

theorem W4_acc (c : Dev nD) : W4 m c (Proc.devRef .tc main_v28) = accG1 (accG0 (embK m c) (x1K m c)) (x2K m c) :=
  (W4_arr m c 2).trans ((arrAt1_out (V3 m) c).trans (by rw [V3_acc, V3_x2]))

/-! ## The third stretch and the third call -/

theorem V5_acc (c : Dev nD) : V5 m c main_v28 = accG1 (accG0 (embK m c) (x1K m c)) (x2K m c) := by
  show StableHlo.after hostOps2 (W4 m c) (Proc.devRef .tc main_v28) = _
  after_results_simp
  exact W4_acc m c

set_option maxHeartbeats 1000000 in
theorem V5_x3 (c : Dev nD) : V5 m c main_v41 = x3K m c := by
  show StableHlo.after hostOps2 (W4 m c) (Proc.devRef .tc main_v41) = _
  after_results_simp
  rw [W4_x2, W4_arg2, W4_arg3, W4_arg4]
  unfold x3K prop
  rfl

/-- The third call's output: the layer-averaged table. -/
theorem V6_light (c : Dev nD) : W6 m c (Proc.devRef .tc main_v42) = lightK m c :=
  (W6_arr m c 2).trans ((arrAt2_out (V5 m) c).trans (by rw [V5_acc, V5_x3]; rfl))

/-! ## The fourth stretch: the two lookup tables -/

theorem V7_users (c : Dev nD) : V7 m c main_v47 = shapeCast S100000x1x128 (concatenate S100000x128 1 [⟨S100000x64, extractStridedSlice S100000x64 ![0, 0] (lightK m c) slices_S150000x64_S100000x64_0_0⟩, ⟨S100000x64, arg0K m c⟩] concatenates_S100000x64_S100000x64_S100000x128_d1) shapeCasts_S100000x128_S100000x1x128 := by
  show StableHlo.after hostOps3 (W6 m c) (Proc.devRef .tc main_v47) = _
  after_results
  rw [V6_light, W6_arg0]
  rfl

theorem V7_items (c : Dev nD) : V7 m c main_v48 = shapeCast S50000x1x128 (concatenate S50000x128 1 [⟨S50000x64, extractStridedSlice S50000x64 ![100000, 0] (lightK m c) slices_S150000x64_S50000x64_100000_0⟩, ⟨S50000x64, arg1K m c⟩] concatenates_S50000x64_S50000x64_S50000x128_d1) shapeCasts_S50000x128_S50000x1x128 := by
  show StableHlo.after hostOps3 (W6 m c) (Proc.devRef .tc main_v48) = _
  after_results
  rw [V6_light, W6_arg1]
  rfl

/-! ## The lookup tables read at an index

Row r of the user table is, in lanes 0 … 63, row r of the layer-averaged table and, in lanes 64 … 127, row r of the
user argument; row r of the item table is row 100000 + r of the layer-averaged table, then row r of the item
argument. The index on the right is the caller's, given with its two coordinates. -/

open Idealize.ShloMosaic.ValueIdx in
theorem V7_users_lo (c : Dev nD) (j : S100000x1x128.Idx) (i : S150000x64.Idx)
    (hr : (i 0).val = (j 0).val) (hk : (i 1).val = (j 2).val) : V7 m c main_v47 j = lightK m c i := by
  rw [V7_users]
  have hj0 : (j 0).val < 100000 := (j 0).isLt
  have hj1 : (j 1).val < 1 := (j 1).isLt
  have hj2 : (j 2).val < 128 := (j 2).isLt
  have hi1 : (i 1).val < 64 := (i 1).isLt
  refine (shapeCast_apply _ _ j (ix2 (⟨(j 0).val, hj0⟩ : Fin 100000) (⟨(j 2).val, hj2⟩ : Fin 128)) ?_).trans ?_
  · rw [Shape.rowMajor_val_two, Shape.rowMajor_val_three]
    show (j 0).val * 128 + (j 2).val = ((j 0).val * 1 + (j 1).val) * 128 + (j 2).val
    omega
  refine (concatenate_pair_apply_left (t := S100000x128) (s₁ := S100000x64) (s₂ := S100000x64) (1 : Fin 2) _ _ _ _ rfl (ix2 (⟨(j 0).val, hj0⟩ : Fin 100000) (⟨(j 2).val, by omega⟩ : Fin 64)) ?_).trans ?_
  · intro b; match b with
    | ⟨0, _⟩ => rfl
    | ⟨1, _⟩ => rfl
  refine extractStridedSlice_apply _ _ _ _ i ?_
  intro a; match a with
  | ⟨0, _⟩ => show (i 0).val = 0 + (j 0).val; omega
  | ⟨1, _⟩ => show (i 1).val = 0 + (j 2).val; omega

open Idealize.ShloMosaic.ValueIdx in
theorem V7_users_hi (c : Dev nD) (j : S100000x1x128.Idx) (i : S100000x64.Idx)
    (hr : (i 0).val = (j 0).val) (hk : (i 1).val + 64 = (j 2).val) : V7 m c main_v47 j = arg0K m c i := by
  rw [V7_users]
  have hj0 : (j 0).val < 100000 := (j 0).isLt
  have hj1 : (j 1).val < 1 := (j 1).isLt
  have hj2 : (j 2).val < 128 := (j 2).isLt
  refine (shapeCast_apply _ _ j (ix2 (⟨(j 0).val, hj0⟩ : Fin 100000) (⟨(j 2).val, hj2⟩ : Fin 128)) ?_).trans ?_
  · rw [Shape.rowMajor_val_two, Shape.rowMajor_val_three]
    show (j 0).val * 128 + (j 2).val = ((j 0).val * 1 + (j 1).val) * 128 + (j 2).val
    omega
  refine concatenate_pair_apply_right (t := S100000x128) (s₁ := S100000x64) (s₂ := S100000x64) (1 : Fin 2) _ _ _ _ rfl rfl i ?_ ?_
  · intro b hb; match b with
    | ⟨0, _⟩ => exact hr
    | ⟨1, _⟩ => exact absurd rfl hb
  · show (i 1).val + 64 = (j 2).val
    exact hk

open Idealize.ShloMosaic.ValueIdx in
theorem V7_items_lo (c : Dev nD) (j : S50000x1x128.Idx) (i : S150000x64.Idx)
    (hr : (i 0).val = 100000 + (j 0).val) (hk : (i 1).val = (j 2).val) : V7 m c main_v48 j = lightK m c i := by
  rw [V7_items]
  have hj0 : (j 0).val < 50000 := (j 0).isLt
  have hj1 : (j 1).val < 1 := (j 1).isLt
  have hj2 : (j 2).val < 128 := (j 2).isLt
  have hi1 : (i 1).val < 64 := (i 1).isLt
  refine (shapeCast_apply _ _ j (ix2 (⟨(j 0).val, hj0⟩ : Fin 50000) (⟨(j 2).val, hj2⟩ : Fin 128)) ?_).trans ?_
  · rw [Shape.rowMajor_val_two, Shape.rowMajor_val_three]
    show (j 0).val * 128 + (j 2).val = ((j 0).val * 1 + (j 1).val) * 128 + (j 2).val
    omega
  refine (concatenate_pair_apply_left (t := S50000x128) (s₁ := S50000x64) (s₂ := S50000x64) (1 : Fin 2) _ _ _ _ rfl (ix2 (⟨(j 0).val, hj0⟩ : Fin 50000) (⟨(j 2).val, by omega⟩ : Fin 64)) ?_).trans ?_
  · intro b; match b with
    | ⟨0, _⟩ => rfl
    | ⟨1, _⟩ => rfl
  refine extractStridedSlice_apply _ _ _ _ i ?_
  intro a; match a with
  | ⟨0, _⟩ => show (i 0).val = 100000 + (j 0).val; omega
  | ⟨1, _⟩ => show (i 1).val = 0 + (j 2).val; omega

open Idealize.ShloMosaic.ValueIdx in
theorem V7_items_hi (c : Dev nD) (j : S50000x1x128.Idx) (i : S50000x64.Idx)
    (hr : (i 0).val = (j 0).val) (hk : (i 1).val + 64 = (j 2).val) : V7 m c main_v48 j = arg1K m c i := by
  rw [V7_items]
  have hj0 : (j 0).val < 50000 := (j 0).isLt
  have hj1 : (j 1).val < 1 := (j 1).isLt
  have hj2 : (j 2).val < 128 := (j 2).isLt
  refine (shapeCast_apply _ _ j (ix2 (⟨(j 0).val, hj0⟩ : Fin 50000) (⟨(j 2).val, hj2⟩ : Fin 128)) ?_).trans ?_
  · rw [Shape.rowMajor_val_two, Shape.rowMajor_val_three]
    show (j 0).val * 128 + (j 2).val = ((j 0).val * 1 + (j 1).val) * 128 + (j 2).val
    omega
  refine concatenate_pair_apply_right (t := S50000x128) (s₁ := S50000x64) (s₂ := S50000x64) (1 : Fin 2) _ _ _ _ rfl rfl i ?_ ?_
  · intro b hb; match b with
    | ⟨0, _⟩ => exact hr
    | ⟨1, _⟩ => exact absurd rfl hb
  · show (i 1).val + 64 = (j 2).val
    exact hk

/-! The same four reads at indices built from their coordinates. -/

open Idealize.ShloMosaic.ValueIdx in
theorem V7_users_lo_ix (c : Dev nD) (r : Fin 100000) (k : Fin 64) :
    V7 m c main_v47 (ValueIdx.ix3 r (0 : Fin 1) (⟨k.val, by omega⟩ : Fin 128)) = lightK m c (ix2 (⟨r.val, by omega⟩ : Fin 150000) k) :=
  V7_users_lo m c _ _ rfl rfl
open Idealize.ShloMosaic.ValueIdx in
theorem V7_users_hi_ix (c : Dev nD) (r : Fin 100000) (k : Fin 64) :
    V7 m c main_v47 (ValueIdx.ix3 r (0 : Fin 1) (⟨64 + k.val, by omega⟩ : Fin 128)) = arg0K m c (ix2 r k) :=
  V7_users_hi m c _ _ rfl (Nat.add_comm _ _)
open Idealize.ShloMosaic.ValueIdx in
theorem V7_items_lo_ix (c : Dev nD) (r : Fin 50000) (k : Fin 64) :
    V7 m c main_v48 (ValueIdx.ix3 r (0 : Fin 1) (⟨k.val, by omega⟩ : Fin 128)) = lightK m c (ix2 (⟨100000 + r.val, by omega⟩ : Fin 150000) k) :=
  V7_items_lo m c _ _ rfl rfl
open Idealize.ShloMosaic.ValueIdx in
theorem V7_items_hi_ix (c : Dev nD) (r : Fin 50000) (k : Fin 64) :
    V7 m c main_v48 (ValueIdx.ix3 r (0 : Fin 1) (⟨64 + k.val, by omega⟩ : Fin 128)) = arg1K m c (ix2 r k) :=
  V7_items_hi m c _ _ rfl (Nat.add_comm _ _)

end Cert.KernelIdeal.Hand

end
-- ==== Proof.KernelIdeal.KernelRows.lean ====
/-
  The kernel program's two results in closed form, over rows of its propagated table and of the two raw tables.
  Query i reads word i of the three index tables: users[i], pos[i], neg[i]. The lookup call's point i fetches row
  users[i] of the user lookup table and rows pos[i], neg[i] of the item lookup table; lanes 0 … 63 of such a row are
  a row of the propagated table (the user's own number; an item's number moved past the 100000 user rows), lanes
  64 … 127 the same row of the raw user or item table. The call's output block ends with, in lane 0, the sum over the
  4096 queries of the softplus of (user · negative) − (user · positive) over propagated rows and, in lane 1, the sum of
  half the three squared norms of the raw rows; the last host stretch returns lane 0 as it is and lane 1 divided by
  the constant 4096.
-/
import proofs.«428003_j33079838114572_4_alg».proof.Proof.KernelIdeal.Lookup
import proofs.«428003_j33079838114572_4_alg».proof.Proof.KernelIdeal.LookupValue
import proofs.«428003_j33079838114572_4_alg».proof.Proof.KernelIdeal.Glue
import proofs.«428003_j33079838114572_4_alg».proof.Proof.KernelIdeal.GlueEnd
import proofs.«428003_j33079838114572_4_alg».proof.Proof.KernelIdeal.Ok
import proofs.«428003_j33079838114572_4_alg».proof.Proof.Spec
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2)

/-! ## The queries' rows -/

section Rows
variable (m : (ℓ : Loc nD τ sig) → Buf (Elt Ideal) ℓ)

/-- The rows the three tables name for query i: the user row, the positive and the negative item row. -/
def uK (i : Fin 4096) : ℕ := (m (((0 : Dev nD).tc : Thread nD τ).loc main_arg5) (ixK i)).toNat
def pK (i : Fin 4096) : ℕ := (m (((0 : Dev nD).tc : Thread nD τ).loc main_arg6) (ixK i)).toNat
def nK (i : Fin 4096) : ℕ := (m (((0 : Dev nD).tc : Thread nD τ).loc main_arg7) (ixK i)).toNat

/-- Row r of the propagated table, -/
def lightKRow (c : Dev nD) (r : ℕ) (hr : r < 150000) : Fin 64 → EReal :=
  fun k => lightK (F := Ideal) m c (ix2 (⟨r, hr⟩ : Fin 150000) k)
/-- of the raw user table, -/
def rawUK (c : Dev nD) (r : ℕ) (hr : r < 100000) : Fin 64 → EReal := fun k => arg0K m c (ix2 (⟨r, hr⟩ : Fin 100000) k)
/-- and of the raw item table. -/
def rawIK (c : Dev nD) (r : ℕ) (hr : r < 50000) : Fin 64 → EReal := fun k => arg1K m c (ix2 (⟨r, hr⟩ : Fin 50000) k)

/-- A row depends on its number only, not on the proof of its bound. -/
theorem lightKRow_congr (c : Dev nD) {r r' : ℕ} (h : r = r') (hr : r < 150000) (hr' : r' < 150000) :
    lightKRow m c r hr = lightKRow m c r' hr' := by subst h; rfl
theorem rawUK_congr (c : Dev nD) {r r' : ℕ} (h : r = r') (hr : r < 100000) (hr' : r' < 100000) :
    rawUK m c r hr = rawUK m c r' hr' := by subst h; rfl
theorem rawIK_congr (c : Dev nD) {r r' : ℕ} (h : r = r') (hr : r < 50000) (hr' : r' < 50000) :
    rawIK m c r hr = rawIK m c r' hr' := by subst h; rfl

end Rows

/-! ## The row a window fetches at a point, at any contents of the tables -/

section RowNumber
variable {F : FTy → Type} [FloatOps F]
variable (a3 : (pcfg3 (F := F)).Adm)

/-- The table index a grid point names is the point's number. -/
theorem ixT_coords (i : Fin 4096) (h : i.val < (cfg3 a3).N) : ixT ((cfg3 a3).grid.coords ⟨i.val, h⟩) = ixK i :=
  congrArg ixK (Fin.ext (coord3 ⟨i.val, h⟩))

/-- The users window's row at point i is word i of the first table, -/
theorem row0_eq (i : Fin 4096) (h : i.val < (cfg3 a3).N) :
    ((cfg3 a3).win 0).index ⟨i.val, h⟩ (0 : Fin 3) = (a3.1 0 (ixK i)).toNat := by
  show cc3_transform_0 k3_off1_inb numel1_S1 a3.1 ((cfg3 a3).grid.coords ⟨i.val, h⟩) (0 : Fin 3) = _
  rw [ix_0, ixT_coords a3 i h]
  rfl
/-- the positive items window's word i of the second, -/
theorem row1_eq (i : Fin 4096) (h : i.val < (cfg3 a3).N) :
    ((cfg3 a3).win 1).index ⟨i.val, h⟩ (0 : Fin 3) = (a3.1 1 (ixK i)).toNat := by
  show cc3_transform_1 k3_off1_inb numel1_S1 a3.1 ((cfg3 a3).grid.coords ⟨i.val, h⟩) (0 : Fin 3) = _
  rw [ix_1, ixT_coords a3 i h]
  rfl
/-- the negative items window's word i of the third. -/
theorem row2_eq (i : Fin 4096) (h : i.val < (cfg3 a3).N) :
    ((cfg3 a3).win 2).index ⟨i.val, h⟩ (0 : Fin 3) = (a3.1 2 (ixK i)).toNat := by
  show cc3_transform_2 k3_off1_inb numel1_S1 a3.1 ((cfg3 a3).grid.coords ⟨i.val, h⟩) (0 : Fin 3) = _
  rw [ix_2, ixT_coords a3 i h]
  rfl

end RowNumber

/-! ## The blocks a point fetches, as rows of the tables -/

section Results
variable (m : (ℓ : Loc nD τ sig) → Buf (Elt Ideal) ℓ) (a3 : (pcfg3 (F := Ideal)).Adm)

/-- The first 64 lanes of the users block at point i: row users[i] of the propagated table. -/
theorem lo0_eq (ha : a3.1 = tbl m) (hu : ∀ i, uK m i < 100000) (c : Dev nD) (i : Fin 4096) (h : i.val < (cfg3 a3).N) :
    lanesLo (iblk3 a3 (V7 m) c 0 ⟨i.val, h⟩) = lightKRow m c (uK m i) (by have := hu i; omega) := by
  funext k
  show iblk3 a3 (V7 m) c 0 ⟨i.val, h⟩ (ValueIdx.ix3 (0 : Fin 1) (0 : Fin 1) (⟨k.val, by omega⟩ : Fin 128)) = _
  refine (iblk3_apply_0 a3 (V7 m) c ⟨i.val, h⟩ _).trans ?_
  refine (V7_users_lo_ix m c _ k).trans ?_
  have hrow : ((cfg3 a3).win 0).index ⟨i.val, h⟩ (0 : Fin 3) = uK m i := by
    rw [row0_eq a3 i h, ha]; rfl
  exact congrFun (lightKRow_congr m c hrow _ _) k

/-- The first 64 lanes of the positive items block: row 100000 + pos[i] of the propagated table. -/
theorem lo1_eq (ha : a3.1 = tbl m) (hp : ∀ i, pK m i < 50000) (c : Dev nD) (i : Fin 4096) (h : i.val < (cfg3 a3).N) :
    lanesLo (iblk3 a3 (V7 m) c 1 ⟨i.val, h⟩) = lightKRow m c (100000 + pK m i) (by have := hp i; omega) := by
  funext k
  show iblk3 a3 (V7 m) c 1 ⟨i.val, h⟩ (ValueIdx.ix3 (0 : Fin 1) (0 : Fin 1) (⟨k.val, by omega⟩ : Fin 128)) = _
  refine (iblk3_apply_1 a3 (V7 m) c ⟨i.val, h⟩ _).trans ?_
  refine (V7_items_lo_ix m c _ k).trans ?_
  have hrow : 100000 + ((cfg3 a3).win 1).index ⟨i.val, h⟩ (0 : Fin 3) = 100000 + pK m i := by
    rw [row1_eq a3 i h, ha]; rfl
  exact congrFun (lightKRow_congr m c hrow _ _) k

/-- The first 64 lanes of the negative items block: row 100000 + neg[i] of the propagated table. -/
theorem lo2_eq (ha : a3.1 = tbl m) (hn : ∀ i, nK m i < 50000) (c : Dev nD) (i : Fin 4096) (h : i.val < (cfg3 a3).N) :
    lanesLo (iblk3 a3 (V7 m) c 2 ⟨i.val, h⟩) = lightKRow m c (100000 + nK m i) (by have := hn i; omega) := by
  funext k
  show iblk3 a3 (V7 m) c 2 ⟨i.val, h⟩ (ValueIdx.ix3 (0 : Fin 1) (0 : Fin 1) (⟨k.val, by omega⟩ : Fin 128)) = _
  refine (iblk3_apply_2 a3 (V7 m) c ⟨i.val, h⟩ _).trans ?_
  refine (V7_items_lo_ix m c _ k).trans ?_
  have hrow : 100000 + ((cfg3 a3).win 2).index ⟨i.val, h⟩ (0 : Fin 3) = 100000 + nK m i := by
    rw [row2_eq a3 i h, ha]; rfl
  exact congrFun (lightKRow_congr m c hrow _ _) k

/-- The last 64 lanes of the users block at point i: row users[i] of the raw user table. -/
theorem hi0_eq (ha : a3.1 = tbl m) (hu : ∀ i, uK m i < 100000) (c : Dev nD) (i : Fin 4096) (h : i.val < (cfg3 a3).N) :
    lanesHi (iblk3 a3 (V7 m) c 0 ⟨i.val, h⟩) = rawUK m c (uK m i) (hu i) := by
  funext k
  show iblk3 a3 (V7 m) c 0 ⟨i.val, h⟩ (ValueIdx.ix3 (0 : Fin 1) (0 : Fin 1) (⟨64 + k.val, by omega⟩ : Fin 128)) = _
  refine (iblk3_apply_0 a3 (V7 m) c ⟨i.val, h⟩ _).trans ?_
  refine (V7_users_hi_ix m c _ k).trans ?_
  have hrow : ((cfg3 a3).win 0).index ⟨i.val, h⟩ (0 : Fin 3) = uK m i := by
    rw [row0_eq a3 i h, ha]; rfl
  exact congrFun (rawUK_congr m c hrow _ _) k

/-- The last 64 lanes of the positive items block: row pos[i] of the raw item table. -/
theorem hi1_eq (ha : a3.1 = tbl m) (hp : ∀ i, pK m i < 50000) (c : Dev nD) (i : Fin 4096) (h : i.val < (cfg3 a3).N) :
    lanesHi (iblk3 a3 (V7 m) c 1 ⟨i.val, h⟩) = rawIK m c (pK m i) (hp i) := by
  funext k
  show iblk3 a3 (V7 m) c 1 ⟨i.val, h⟩ (ValueIdx.ix3 (0 : Fin 1) (0 : Fin 1) (⟨64 + k.val, by omega⟩ : Fin 128)) = _
  refine (iblk3_apply_1 a3 (V7 m) c ⟨i.val, h⟩ _).trans ?_
  refine (V7_items_hi_ix m c _ k).trans ?_
  have hrow : ((cfg3 a3).win 1).index ⟨i.val, h⟩ (0 : Fin 3) = pK m i := by
    rw [row1_eq a3 i h, ha]; rfl
  exact congrFun (rawIK_congr m c hrow _ _) k

/-- The last 64 lanes of the negative items block: row neg[i] of the raw item table. -/
theorem hi2_eq (ha : a3.1 = tbl m) (hn : ∀ i, nK m i < 50000) (c : Dev nD) (i : Fin 4096) (h : i.val < (cfg3 a3).N) :
    lanesHi (iblk3 a3 (V7 m) c 2 ⟨i.val, h⟩) = rawIK m c (nK m i) (hn i) := by
  funext k
  show iblk3 a3 (V7 m) c 2 ⟨i.val, h⟩ (ValueIdx.ix3 (0 : Fin 1) (0 : Fin 1) (⟨64 + k.val, by omega⟩ : Fin 128)) = _
  refine (iblk3_apply_2 a3 (V7 m) c ⟨i.val, h⟩ _).trans ?_
  refine (V7_items_hi_ix m c _ k).trans ?_
  have hrow : ((cfg3 a3).win 2).index ⟨i.val, h⟩ (0 : Fin 3) = nK m i := by
    rw [row2_eq a3 i h, ha]; rfl
  exact congrFun (rawIK_congr m c hrow _ _) k

/-! ## The two results -/

/-- The program's first result: the sum over the 4096 queries of the softplus of the negative score minus the
    positive score, the scores taken between rows of the propagated table. -/
theorem kernel_loss (ha : a3.1 = tbl m) (hu : ∀ i, uK m i < 100000) (hp : ∀ i, pK m i < 50000) (hn : ∀ i, nK m i < 50000) (c : Dev nD) :
    W9 m a3 c (Proc.devRef .tc main_v51)
      = fun _ => ∑ i : Fin 4096, Cert.Spec.lossRow (lightKRow m c (uK m i) (by have := hu i; omega))
          (lightKRow m c (100000 + pK m i) (by have := hp i; omega)) (lightKRow m c (100000 + nK m i) (by have := hn i; omega)) := by
  rw [W9_loss, arrAt3_out]
  funext _
  refine (acc3_loss a3 (V7 m) c 4095 (last_lt3 a3)).trans ?_
  refine Finset.sum_congr rfl fun i _ => ?_
  have hi : i.val < (cfg3 a3).N := by have h4 := last_lt3 a3; have := i.isLt; omega
  rw [lo0_eq m a3 ha hu c i hi, lo1_eq m a3 ha hp c i hi, lo2_eq m a3 ha hn c i hi]

/-- The program's second result: the sum over the queries of half the three squared norms of the raw rows, divided
    by the batch size. -/
theorem kernel_reg (ha : a3.1 = tbl m) (hu : ∀ i, uK m i < 100000) (hp : ∀ i, pK m i < 50000) (hn : ∀ i, nK m i < 50000) (c : Dev nD) :
    W9 m a3 c (Proc.devRef .tc main_v54)
      = fun _ => Ideal.div (∑ i : Fin 4096, Cert.Spec.regRow (rawUK m c (uK m i) (hu i)) (rawIK m c (pK m i) (hp i)) (rawIK m c (nK m i) (hn i)))
          (Ideal.ofBits .f32 0x45800000#32) := by
  rw [W9_reg, arrAt3_out]
  funext _
  show Ideal.div (acc3 a3 (V7 m) c 4095 (last_lt3 a3) (ix2 (0 : Fin 1) (1 : Fin 128))) (Ideal.ofBits .f32 0x45800000#32) = _
  refine congrArg (fun z => Ideal.div z (Ideal.ofBits .f32 0x45800000#32)) ?_
  refine (acc3_reg a3 (V7 m) c 4095 (last_lt3 a3)).trans ?_
  refine Finset.sum_congr rfl fun i _ => ?_
  have hi : i.val < (cfg3 a3).N := by have h4 := last_lt3 a3; have := i.isLt; omega
  rw [hi0_eq m a3 ha hu c i hi, hi1_eq m a3 ha hp c i hi, hi2_eq m a3 ha hn c i hi]

end Results

end Cert.KernelIdeal.Hand
end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibIdxSum.lean ====
/-
  Three re-indexings of a sum over an index type by its one free coordinate: a sum over the positions of a column
  [R, 1] or of a vector [R] is the sum over the R rows, and a sum over the positions of a row [1, C] is the sum over
  the C columns. Each index type is in bijection with its free coordinate's range; the unit axis contributes the one
  coordinate 0.
-/
import Idealize.ShloMosaic.Lib.ValueIdx
import Mathlib.Algebra.BigOperators.Group.Finset.Basic
import Mathlib.Algebra.BigOperators.Fin

namespace Cert.LibIdxSum

open Idealize.ShloMosaic Idealize.ShloMosaic.ValueIdx
open scoped BigOperators

variable {M : Type*} [AddCommMonoid M]

/-- A sum over the positions of a column [R, 1] is the sum over its rows, each at column 0. -/
theorem sum_col {R : ℕ} (f : (⟨2, ![R, 1]⟩ : Shape).Idx → M) :
    ∑ y : (⟨2, ![R, 1]⟩ : Shape).Idx, f y = ∑ n : Fin R, f (ix2 n (0 : Fin 1)) := by
  rw [sum_idx2]
  exact Finset.sum_congr rfl fun n _ => Fin.sum_univ_one fun b : Fin 1 => f (ix2 n b)

/-- A sum over the positions of a row [1, C] is the sum over its columns, each at row 0. -/
theorem sum_row {C : ℕ} (f : (⟨2, ![1, C]⟩ : Shape).Idx → M) :
    ∑ y : (⟨2, ![1, C]⟩ : Shape).Idx, f y = ∑ q : Fin C, f (ix2 (0 : Fin 1) q) := by
  rw [sum_idx2]
  exact Fin.sum_univ_one fun a : Fin 1 => ∑ q : Fin C, f (ix2 a q)

/-- A rank-1 index set is its coordinate's range. -/
def idxEquiv1 {R : ℕ} : Fin R ≃ (⟨1, ![R]⟩ : Shape).Idx where
  toFun n := ix1 n
  invFun y := y 0
  left_inv _ := rfl
  right_inv y := (eq_ix1 y).symm

/-- A sum over the positions of a vector [R] is the sum over its coordinate. -/
theorem sum_vec {R : ℕ} (f : (⟨1, ![R]⟩ : Shape).Idx → M) :
    ∑ y : (⟨1, ![R]⟩ : Shape).Idx, f y = ∑ n : Fin R, f (ix1 n) :=
  (Fintype.sum_equiv idxEquiv1 (fun n => f (ix1 n)) f fun _ => rfl).symm

end Cert.LibIdxSum
-- ==== Proof.RefValue.lean ====
/-
  What the reference program computes, on the extended reals.

  The reference first builds a table of 150000 propagated rows of 64 lanes: the 100000 user rows stacked on the 50000
  item rows, plus three rounds of propagation along the edges, the four summands divided by 4. That table is kept
  here as one opaque function, `light`: nothing below looks inside a propagation round. For each of the 4096 queries
  i the reference looks up three propagated rows — row users[i] of the upper 100000 rows, rows pos[i] and neg[i] of
  the lower 50000 rows — and three raw rows, row users[i] of the user table and rows pos[i], neg[i] of the item
  table. A row number is a 32-bit word; a negative one is wrapped around by adding the table's height, and every one
  is clamped into the table. For a word whose unsigned value is below the table's height (so below 2³¹: it is not
  negative as a signed integer) the wrap leaves it and the clamp is the identity, and the lookup reads that very row.

  The first result is 0 plus the sum over the queries of softplus(user · negative − user · positive) on propagated
  rows, each inner product a sum from 0 over the 64 lanes, and softplus spelt max(d, 0) + log(1 + exp(−|d − 0|))
  behind a test "d − 0 ≠ d − 0" that no extended real passes. The second result is one half of
  ((|u|² + |p|²) + |n|²) over 4096, each squared norm 0 plus the sum over all queries and lanes of the raw entries'
  squares — a sum over the positions of a [4096, 64] array, which is the double sum over queries and lanes.
-/
import proofs.«428003_j33079838114572_4_alg».proof.Proof.RefModules
import proofs.«428003_j33079838114572_4_alg».proof.Proof.Spec
import proofs.«428003_j33079838114572_4_alg».proof.Proof.LibRowGather
import proofs.«428003_j33079838114572_4_alg».proof.Proof.LibIdxSum
import Idealize.ShloMosaic.Lib.IdealHost

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## Row numbers as words -/

/-- A word below 2³¹ read as a signed integer is not negative, so the wrap-around of a negative row number leaves it. -/
theorem wrap_eq (w K : BitVec 32) (h : w.toNat < 2 ^ 31) :
    Scalar.select (IntOp.cmpi .slt w 0#32) (IntOp.addi w K) w = w := by
  have h0 : IntOp.cmpi .slt w 0#32 = 0#1 := by
    have hlt : ¬ w.toInt < (0#32 : BitVec 32).toInt := by
      rw [BitVec.toInt_eq_toNat_of_lt (by omega)]; simp
    have hs : w.slt 0#32 = false := by
      rw [Bool.eq_false_iff]; intro hh; exact hlt (BitVec.slt_iff_toInt_lt.mp hh)
    show BitVec.ofBool (w.slt 0#32) = 0#1
    rw [hs]; rfl
  rw [h0, select_zero]

/-- A word below the height N of a table (N at most 2³¹), read signed and clamped into 0 … N − 1, is its own value. -/
theorem clamp_eq (N : ℕ) (hN : 0 < N) (w : BitVec 32) (h : w.toNat < N) (h31 : N ≤ 2 ^ 31) :
    (Cert.LibRowGather.clampRow N hN w).val = w.toNat := by
  unfold Cert.LibRowGather.clampRow
  show min w.toInt.toNat (N - 1) = w.toNat
  rw [BitVec.toInt_eq_toNat_of_lt (by omega)]
  simp only [Int.toNat_natCast]
  omega

/-- A column of row numbers made from a vector of 4096 words by the wrap-around of negative entries (whatever the
    height `K` added), read at row p: the word itself, when it is below 2³¹. -/
theorem col_at (x K : IVec S4096 32) (p : Fin 4096) (h : (x (ix1 p)).toNat < 2 ^ 31) :
    broadcastInDim S4096x1 ![0] bcast_S4096_S4096x1_0
      (select (cmpi .slt x (broadcastInDim S4096 ![] bcast_S_S4096 (constantI S_ 32 0#32))) (addi x K) x) (ix2 p (0 : Fin 1))
      = x (ix1 p) := by
  rw [broadcastInDim_apply _ bcast_S4096_S4096x1_0 _ (ix2 p (0 : Fin 1)) (ix1 p)
    (fun a => match a with
      | ⟨0, _⟩ => by show p.val = if (4096 : Nat) = 1 then 0 else p.val; rw [if_neg (by decide)])]
  show Scalar.select (IntOp.cmpi .slt (x (ix1 p)) (broadcastInDim S4096 ![] bcast_S_S4096 (constantI S_ 32 0#32) (ix1 p)))
    (IntOp.addi (x (ix1 p)) (K (ix1 p))) (x (ix1 p)) = _
  rw [broadcastInDim_scalar_apply]
  exact wrap_eq _ _ h

section Rows
variable {α : Type}

/-- A lookup of table rows at a row number in range reads that row: the clamp is the identity there. -/
theorem gather_row_inrange {N D R : ℕ} (hN : 0 < N) (h31 : N ≤ 2 ^ 31)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ 32) (p : Fin R) (k : Fin D) (w : BitVec 32)
    (hw : ids (ix2 p (0 : Fin 1)) = w) (h : w.toNat < N) :
    Host.gather (Cert.LibRowGather.rowDims N D R wf) x ids (ix2 p k) = x (ix2 ⟨w.toNat, h⟩ k) := by
  rw [Cert.LibRowGather.gather_row_apply hN, hw]
  exact congrArg (fun r => x (ix2 r k)) (Fin.ext (clamp_eq N hN w h h31))

end Rows

/-! ## The six lookups, at a query whose row number is in range -/

section Stages
variable (x0 : FVec Ideal S100000x64 .f32) (x1 : FVec Ideal S50000x64 .f32) (x2 : FVec Ideal S4000000 .f32)
  (x3 x4 : IVec S4000000 32) (x5 x6 x7 : IVec S4096 32)

/-- The raw user row of query p. -/
theorem v74_at (p : Fin 4096) (k : Fin 64) (h : (x5 (ix1 p)).toNat < 100000) :
    val_main_v74 (F := Ideal) x0 x5 (ix2 p k) = x0 (ix2 ⟨(x5 (ix1 p)).toNat, h⟩ k) :=
  gather_row_inrange (by decide) (by decide) gather_S100000x64_S4096x1_S4096x64_1_0_n_n_0_1_164_wf x0 _ p k _
    (col_at x5 _ p (by omega)) h

/-- The raw positive item row of query p. -/
theorem v81_at (p : Fin 4096) (k : Fin 64) (h : (x6 (ix1 p)).toNat < 50000) :
    val_main_v81 (F := Ideal) x1 x6 (ix2 p k) = x1 (ix2 ⟨(x6 (ix1 p)).toNat, h⟩ k) :=
  gather_row_inrange (by decide) (by decide) gather_S50000x64_S4096x1_S4096x64_1_0_n_n_0_1_164_wf x1 _ p k _
    (col_at x6 _ p (by omega)) h

/-- The raw negative item row of query p. -/
theorem v88_at (p : Fin 4096) (k : Fin 64) (h : (x7 (ix1 p)).toNat < 50000) :
    val_main_v88 (F := Ideal) x1 x7 (ix2 p k) = x1 (ix2 ⟨(x7 (ix1 p)).toNat, h⟩ k) :=
  gather_row_inrange (by decide) (by decide) gather_S50000x64_S4096x1_S4096x64_1_0_n_n_0_1_164_wf x1 _ p k _
    (col_at x7 _ p (by omega)) h

/-- The propagated user row of query p: row users[p] of the table's upper 100000 rows. -/
theorem v53_at (p : Fin 4096) (k : Fin 64) (h : (x5 (ix1 p)).toNat < 100000) :
    val_main_v53 (F := Ideal) x0 x1 x2 x3 x4 x5 (ix2 p k)
      = val_main_v44 (F := Ideal) x0 x1 x2 x3 x4 (ix2 ⟨(x5 (ix1 p)).toNat, by omega⟩ k) := by
  have e := gather_row_inrange (by decide) (by decide) gather_S100000x64_S4096x1_S4096x64_1_0_n_n_0_1_164_wf
    (val_main_v45 (F := Ideal) x0 x1 x2 x3 x4) (val_main_v52 (F := Ideal) x5) p k _ (col_at x5 _ p (by omega)) h
  refine Eq.trans e ?_
  rw [val_main_v45_apply]
  exact congrArg (val_main_v44 (F := Ideal) x0 x1 x2 x3 x4)
    (funext fun a => by match a with | ⟨0, _⟩ => rfl | ⟨1, _⟩ => rfl)

/-- The propagated positive item row of query p: row 100000 + pos[p] of the table. -/
theorem v60_at (p : Fin 4096) (k : Fin 64) (h : (x6 (ix1 p)).toNat < 50000) :
    val_main_v60 (F := Ideal) x0 x1 x2 x3 x4 x6 (ix2 p k)
      = val_main_v44 (F := Ideal) x0 x1 x2 x3 x4 (ix2 ⟨100000 + (x6 (ix1 p)).toNat, by omega⟩ k) := by
  have e := gather_row_inrange (by decide) (by decide) gather_S50000x64_S4096x1_S4096x64_1_0_n_n_0_1_164_wf
    (val_main_v46 (F := Ideal) x0 x1 x2 x3 x4) (val_main_v59 (F := Ideal) x6) p k _ (col_at x6 _ p (by omega)) h
  refine Eq.trans e ?_
  rw [val_main_v46_apply]
  exact congrArg (val_main_v44 (F := Ideal) x0 x1 x2 x3 x4)
    (funext fun a => by match a with | ⟨0, _⟩ => rfl | ⟨1, _⟩ => rfl)

/-- The propagated negative item row of query p: row 100000 + neg[p] of the table. -/
theorem v67_at (p : Fin 4096) (k : Fin 64) (h : (x7 (ix1 p)).toNat < 50000) :
    val_main_v67 (F := Ideal) x0 x1 x2 x3 x4 x7 (ix2 p k)
      = val_main_v44 (F := Ideal) x0 x1 x2 x3 x4 (ix2 ⟨100000 + (x7 (ix1 p)).toNat, by omega⟩ k) := by
  have e := gather_row_inrange (by decide) (by decide) gather_S50000x64_S4096x1_S4096x64_1_0_n_n_0_1_164_wf
    (val_main_v46 (F := Ideal) x0 x1 x2 x3 x4) (val_main_v66 (F := Ideal) x7) p k _ (col_at x7 _ p (by omega)) h
  refine Eq.trans e ?_
  rw [val_main_v46_apply]
  exact congrArg (val_main_v44 (F := Ideal) x0 x1 x2 x3 x4)
    (funext fun a => by match a with | ⟨0, _⟩ => rfl | ⟨1, _⟩ => rfl)

/-! ## The scores and the softplus -/

/-- No extended real differs from itself: the reference's guard "d ≠ d" never fires. -/
theorem cmp_une_self (x : EReal) : FloatOps.cmpf (F := Ideal) (φ := .f32) .une x x = 0#1 := by
  show Ideal.cmp .une x x = 0#1
  simp [Ideal.cmp]

/-- The positive score of query p: the inner product of its propagated user row and positive item row. -/
theorem v100_at (p : Fin 4096) (hu : (x5 (ix1 p)).toNat < 100000) (hp : (x6 (ix1 p)).toNat < 50000) :
    val_main_v100 (F := Ideal) x0 x1 x2 x3 x4 x5 x6 (ix1 p)
      = Cert.Spec.dot (fun k => val_main_v44 (F := Ideal) x0 x1 x2 x3 x4 (ix2 ⟨(x5 (ix1 p)).toNat, by omega⟩ k))
          (fun k => val_main_v44 (F := Ideal) x0 x1 x2 x3 x4 (ix2 ⟨100000 + (x6 (ix1 p)).toNat, by omega⟩ k)) := by
  rw [val_main_v100_apply, val_main_cst_25_apply, Ideal.ofBits_def, Ideal.ofBits_zero_f32]
  unfold Cert.Spec.dot
  refine congrArg (fun s => (0 : EReal) + s) (Finset.sum_congr rfl fun k _ => ?_)
  rw [show idx_main_v100 (ix1 p) k = ix2 p k from funext fun a => by match a with | ⟨0, _⟩ => rfl | ⟨1, _⟩ => rfl,
    val_main_v99_apply, v53_at x0 x1 x2 x3 x4 x5 p k hu, v60_at x0 x1 x2 x3 x4 x6 p k hp]
  rfl

/-- The negative score of query p: the inner product of its propagated user row and negative item row. -/
theorem v102_at (p : Fin 4096) (hu : (x5 (ix1 p)).toNat < 100000) (hn : (x7 (ix1 p)).toNat < 50000) :
    val_main_v102 (F := Ideal) x0 x1 x2 x3 x4 x5 x7 (ix1 p)
      = Cert.Spec.dot (fun k => val_main_v44 (F := Ideal) x0 x1 x2 x3 x4 (ix2 ⟨(x5 (ix1 p)).toNat, by omega⟩ k))
          (fun k => val_main_v44 (F := Ideal) x0 x1 x2 x3 x4 (ix2 ⟨100000 + (x7 (ix1 p)).toNat, by omega⟩ k)) := by
  rw [val_main_v102_apply, val_main_cst_26_apply, Ideal.ofBits_def, Ideal.ofBits_zero_f32]
  unfold Cert.Spec.dot
  refine congrArg (fun s => (0 : EReal) + s) (Finset.sum_congr rfl fun k _ => ?_)
  rw [show idx_main_v102 (ix1 p) k = ix2 p k from funext fun a => by match a with | ⟨0, _⟩ => rfl | ⟨1, _⟩ => rfl,
    val_main_v101_apply, v53_at x0 x1 x2 x3 x4 x5 p k hu, v67_at x0 x1 x2 x3 x4 x7 p k hn]
  rfl

/-- Query p's summand of the loss: the softplus of its negative score minus its positive score. -/
theorem v104_at (p : Fin 4096) (hu : (x5 (ix1 p)).toNat < 100000) (hp : (x6 (ix1 p)).toNat < 50000)
    (hn : (x7 (ix1 p)).toNat < 50000) :
    val_main_v104 (F := Ideal) x0 x1 x2 x3 x4 x5 x6 x7 (ix1 p)
      = Cert.Spec.lossRow (fun k => val_main_v44 (F := Ideal) x0 x1 x2 x3 x4 (ix2 ⟨(x5 (ix1 p)).toNat, by omega⟩ k))
          (fun k => val_main_v44 (F := Ideal) x0 x1 x2 x3 x4 (ix2 ⟨100000 + (x6 (ix1 p)).toNat, by omega⟩ k))
          (fun k => val_main_v44 (F := Ideal) x0 x1 x2 x3 x4 (ix2 ⟨100000 + (x7 (ix1 p)).toNat, by omega⟩ k)) := by
  rw [val_main_v104_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v5_apply, val_main_call0_v2_apply,
    val_main_call0_v0_apply, val_main_call0_cst_apply, val_main_v103_apply,
    v102_at x0 x1 x2 x3 x4 x5 x7 p hu hn, v100_at x0 x1 x2 x3 x4 x5 x6 p hu hp, cmp_une_self, select_zero]
  simp only [Ideal.ofBits_def, Ideal.ofBits_zero_f32, Ideal.addf_def, Ideal.subf_def, Ideal.maximumf_def,
    Ideal.hostUnary_log1p_def, Ideal.hostUnary_exp_def, Ideal.hostNegf_def, Ideal.hostAbsf_def, Ideal.negf_def]
  rfl

end Stages

/-! ## The three squared norms -/

section Norms
variable (x0 : FVec Ideal S100000x64 .f32) (x1 : FVec Ideal S50000x64 .f32) (x5 x6 x7 : IVec S4096 32)

/-- The users' squared norm: 0 plus, over all queries and lanes, the square of the raw user row's entry. -/
theorem v90_at (hu : ∀ i : Fin 4096, (x5 (ix1 i)).toNat < 100000) (j : S_.Idx) :
    val_main_v90 (F := Ideal) x0 x5 j
      = 0 + ∑ i : Fin 4096, ∑ k : Fin 64,
          x0 (ix2 ⟨(x5 (ix1 i)).toNat, hu i⟩ k) * x0 (ix2 ⟨(x5 (ix1 i)).toNat, hu i⟩ k) := by
  rw [val_main_v90_apply, val_main_cst_20_apply, Ideal.ofBits_def, Ideal.ofBits_zero_f32, sum_idx2]
  refine congrArg (fun s => (0 : EReal) + s) (Finset.sum_congr rfl fun i _ => Finset.sum_congr rfl fun k _ => ?_)
  rw [val_main_v89_apply, v74_at x0 x5 i k (hu i)]
  rfl

/-- The positive items' squared norm. -/
theorem v92_at (hp : ∀ i : Fin 4096, (x6 (ix1 i)).toNat < 50000) (j : S_.Idx) :
    val_main_v92 (F := Ideal) x1 x6 j
      = 0 + ∑ i : Fin 4096, ∑ k : Fin 64,
          x1 (ix2 ⟨(x6 (ix1 i)).toNat, hp i⟩ k) * x1 (ix2 ⟨(x6 (ix1 i)).toNat, hp i⟩ k) := by
  rw [val_main_v92_apply, val_main_cst_21_apply, Ideal.ofBits_def, Ideal.ofBits_zero_f32, sum_idx2]
  refine congrArg (fun s => (0 : EReal) + s) (Finset.sum_congr rfl fun i _ => Finset.sum_congr rfl fun k _ => ?_)
  rw [val_main_v91_apply, v81_at x1 x6 i k (hp i)]
  rfl

/-- The negative items' squared norm. -/
theorem v95_at (hn : ∀ i : Fin 4096, (x7 (ix1 i)).toNat < 50000) (j : S_.Idx) :
    val_main_v95 (F := Ideal) x1 x7 j
      = 0 + ∑ i : Fin 4096, ∑ k : Fin 64,
          x1 (ix2 ⟨(x7 (ix1 i)).toNat, hn i⟩ k) * x1 (ix2 ⟨(x7 (ix1 i)).toNat, hn i⟩ k) := by
  rw [val_main_v95_apply, val_main_cst_22_apply, Ideal.ofBits_def, Ideal.ofBits_zero_f32, sum_idx2]
  refine congrArg (fun s => (0 : EReal) + s) (Finset.sum_congr rfl fun i _ => Finset.sum_congr rfl fun k _ => ?_)
  rw [val_main_v94_apply, v88_at x1 x7 i k (hn i)]
  rfl

end Norms

/-- The f32 pattern `0x3F000000` is one half. -/
theorem ofBits_half_f32 : Ideal.ofBits .f32 0x3F000000#32 = (((1 : ℝ) / 2 : ℝ) : EReal) := by
  simp [Ideal.ofBits, Ideal.ieee, -EReal.coe_mul]; norm_num

/-- The f32 pattern `0x45800000` is 4096. -/
theorem ofBits_4096_f32 : Ideal.ofBits .f32 0x45800000#32 = ((4096 : ℝ) : EReal) := by
  simp [Ideal.ofBits, Ideal.ieee, -EReal.coe_mul]; norm_num

/-! ## The two results, of the program's arguments -/

variable (m : (ℓ : Loc nD τ sig) → Buf (Elt Ideal) ℓ) (c : Dev nD)

/-- The reference's propagated table: the stacked user and item rows plus three propagation rounds, over 4. Opaque:
    no statement below opens a round. -/
def light : FVec Ideal S150000x64 .f32 :=
  val_main_v44 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- Row r of the propagated table, as a function of the lane. -/
def lightRow (r : ℕ) (hr : r < 150000) : Fin 64 → EReal := fun k => light m c (ix2 ⟨r, hr⟩ k)

/-- Row r of the raw user table. -/
def rawU (r : ℕ) (hr : r < 100000) : Fin 64 → EReal :=
  fun k => (m ((c.tc : Thread nD τ).loc main_arg0) : FVec Ideal S100000x64 .f32) (ix2 ⟨r, hr⟩ k)

/-- Row r of the raw item table. -/
def rawI (r : ℕ) (hr : r < 50000) : Fin 64 → EReal :=
  fun k => (m ((c.tc : Thread nD τ).loc main_arg1) : FVec Ideal S50000x64 .f32) (ix2 ⟨r, hr⟩ k)

/-- Query i's user row number, positive item row number and negative item row number: the words' unsigned values. -/
def uIdx (i : Fin 4096) : ℕ := ((m ((c.tc : Thread nD τ).loc main_arg5) : IVec S4096 32) (ix1 i)).toNat
def pIdx (i : Fin 4096) : ℕ := ((m ((c.tc : Thread nD τ).loc main_arg6) : IVec S4096 32) (ix1 i)).toNat
def nIdx (i : Fin 4096) : ℕ := ((m ((c.tc : Thread nD τ).loc main_arg7) : IVec S4096 32) (ix1 i)).toNat

/-- THE LOSS: with every row number in range, the reference's first result is 0 plus the sum over the queries of the
    softplus of (user · negative item) − (user · positive item) on propagated rows. -/
theorem ref_loss (hu : ∀ i : Fin 4096, uIdx m c i < 100000) (hp : ∀ i : Fin 4096, pIdx m c i < 50000)
    (hn : ∀ i : Fin 4096, nIdx m c i < 50000) :
    Cert.ReferenceIdeal.Value.res_main_v105 (F := Ideal) m c
      = fun _ => 0 + ∑ i : Fin 4096, Cert.Spec.lossRow
          (lightRow m c (uIdx m c i) (by have := hu i; omega))
          (lightRow m c (100000 + pIdx m c i) (by have := hp i; omega))
          (lightRow m c (100000 + nIdx m c i) (by have := hn i; omega)) := by
  rw [val_main_v105_eq]
  funext j
  rw [val_main_v105_apply, val_main_cst_27_apply, Ideal.ofBits_def, Ideal.ofBits_zero_f32, Cert.LibIdxSum.sum_vec]
  exact congrArg (fun s => (0 : EReal) + s) (Finset.sum_congr rfl fun i _ => v104_at _ _ _ _ _ _ _ _ i (hu i) (hp i) (hn i))

/-- THE REGULARISER: with every row number in range, the reference's second result is one half of
    ((|u|² + |p|²) + |n|²) over 4096, each squared norm 0 plus the double sum over queries and lanes of the raw
    row's squared entries. -/
theorem ref_reg (hu : ∀ i : Fin 4096, uIdx m c i < 100000) (hp : ∀ i : Fin 4096, pIdx m c i < 50000)
    (hn : ∀ i : Fin 4096, nIdx m c i < 50000) :
    val_main_v98 (F := Ideal) (m ((c.tc : Thread nD τ).loc main_arg0)) (m ((c.tc : Thread nD τ).loc main_arg1))
        (m ((c.tc : Thread nD τ).loc main_arg5)) (m ((c.tc : Thread nD τ).loc main_arg6)) (m ((c.tc : Thread nD τ).loc main_arg7))
      = fun _ => Ideal.div ((((1 : ℝ) / 2 : ℝ) : EReal) *
          (((0 + ∑ i : Fin 4096, ∑ k : Fin 64, rawU m c (uIdx m c i) (hu i) k * rawU m c (uIdx m c i) (hu i) k)
            + (0 + ∑ i : Fin 4096, ∑ k : Fin 64, rawI m c (pIdx m c i) (hp i) k * rawI m c (pIdx m c i) (hp i) k))
            + (0 + ∑ i : Fin 4096, ∑ k : Fin 64, rawI m c (nIdx m c i) (hn i) k * rawI m c (nIdx m c i) (hn i) k)))
          ((4096 : ℝ) : EReal) := by
  funext j
  rw [val_main_v98_apply, val_main_v97_apply, val_main_cst_23_apply, val_main_cst_24_apply, val_main_v96_apply,
    val_main_v93_apply, v90_at _ _ hu, v92_at _ _ hp, v95_at _ _ hn]
  simp only [Ideal.hostDivf_def, Ideal.mulf_def, Ideal.addf_def, Ideal.ofBits_def, ofBits_half_f32, ofBits_4096_f32]
  rfl

end Cert.RefValue

end
-- ==== Proof.LibSumAlgebra.lean ====
/-
  The one algebraic law that joins the two programs.

  On the extended reals a product does not distribute over a sum in general, but a factor that is a non-negative
  real number does: c · (t₁ + … + tₙ) = c · t₁ + … + c · tₙ for 0 ≤ c < ⊤, whatever the terms are. With it, a scale
  that is constant over the terms of a sum may be applied once to the sum or once to every term: the destination's
  degree scale, taken out of the sum over the edges that arrive at one node, against the same scale gathered per
  edge inside the sum. Commuting and regrouping the factors of each term needs nothing of the kind.
-/
import Mathlib.Data.EReal.Operations
import Mathlib.Data.EReal.Inv
import Mathlib.Algebra.BigOperators.Group.Finset.Basic

noncomputable section

namespace Cert.SumAlgebra

open scoped BigOperators

/-- A non-negative real factor distributes over a finite sum of extended reals. -/
theorem mul_sum_of_nonneg {ι : Type*} (s : Finset ι) (c : EReal) (h0 : 0 ≤ c) (ht : c ≠ ⊤) (t : ι → EReal) :
    c * ∑ u ∈ s, t u = ∑ u ∈ s, c * t u := by
  classical
  induction s using Finset.induction_on with
  | empty => simp
  | insert a s ha ih =>
    rw [Finset.sum_insert ha, Finset.sum_insert ha, EReal.left_distrib_of_nonneg_of_ne_top h0 ht, ih]

/-- THE LAW. Over the terms `u` of a finite sum, let `a u` be the edge weight, `dr u` the source's scale, `dc u` the
    destination's scale gathered per edge and `h u` the source's feature. If the gathered destination scale is the one
    number `c` (non-negative, finite) on every term, then scaling the sum of `a · (dr · h)` by `c` is summing
    `((dr · dc) · a) · h`; a zero start of the sum and a bias added at the end ride along. -/
theorem scaled_sum_eq {ι : Type*} (s : Finset ι) (c : EReal) (h0 : 0 ≤ c) (ht : c ≠ ⊤) (a dr dc h : ι → EReal)
    (hdc : ∀ u ∈ s, dc u = c) (b : EReal) :
    c * (0 + ∑ u ∈ s, a u * (dr u * h u)) + b = (0 + ∑ u ∈ s, ((dr u * dc u) * a u) * h u) + b := by
  rw [zero_add, zero_add, mul_sum_of_nonneg s c h0 ht]
  congr 1
  refine Finset.sum_congr rfl fun u hu => ?_
  rw [hdc u hu]
  rw [mul_comm (dr u) c, mul_assoc c (dr u) (a u), mul_assoc c, mul_comm (dr u) (a u), mul_assoc (a u)]

end Cert.SumAlgebra

end
-- ==== Proof.Algebra.lean ====
/-
  The two laws that join the programs, on the extended reals.

  The mean over the layers. The kernel accumulates ((a + b) · 1 + c) · 1 + d and scales the last sum by 1/4; the
  reference adds the four terms in the same order and divides by 4. A factor 1 is the identity on every extended
  real, and dividing by the real 4 is multiplying by the real 1/4 on every extended real, infinities included.

  The regulariser. The kernel adds, query by query, half of (|u|² + |p|²) + |n|²; the reference halves once the sum
  of the three totals. A non-negative real factor distributes over a finite sum of extended reals whatever the terms
  are, and a finite sum of sums may be split term by term, addition being commutative and associative there.
-/
import proofs.«428003_j33079838114572_4_alg».proof.Proof.Consts
import proofs.«428003_j33079838114572_4_alg».proof.Proof.Spec
import proofs.«428003_j33079838114572_4_alg».proof.Proof.LibSumAlgebra

noncomputable section

namespace Cert.Join

open Idealize.ShloMosaic
open scoped BigOperators

/-- ((a + b) · 1 + c) · 1 + d, times 1/4, is (((a + b) + c) + d) / 4. -/
theorem mean_eq (a b c d : EReal) :
    (((a + b) * Ideal.ofBits .f32 0x3F800000#32 + c) * Ideal.ofBits .f32 0x3F800000#32 + d) * Ideal.ofBits .f32 0x3E800000#32
      = Ideal.div (((a + b) + c) + d) (Ideal.ofBits .f32 0x40800000#32) := by
  rw [Cert.Lits.one, Cert.Lits.quarter, Cert.Lits.four, mul_one, mul_one, Ideal.div_coe (by norm_num : (4 : ℝ) ≠ 0)]

/-- Half of each query's three squared norms, summed over the queries, is half of the three totals' sum. -/
theorem reg_eq {n : ℕ} (A B C : Fin n → EReal) :
    ∑ i : Fin n, ((1 / 2 : ℝ) : EReal) * ((A i + B i) + C i)
      = ((1 / 2 : ℝ) : EReal) * (((0 + ∑ i : Fin n, A i) + (0 + ∑ i : Fin n, B i)) + (0 + ∑ i : Fin n, C i)) := by
  rw [zero_add, zero_add, zero_add, ← Finset.sum_add_distrib, ← Finset.sum_add_distrib]
  exact (Cert.SumAlgebra.mul_sum_of_nonneg Finset.univ _ (by exact_mod_cast (by norm_num : (0 : ℝ) ≤ 1 / 2)) (EReal.coe_ne_top _) _).symm

end Cert.Join

end
-- ==== Proof.LightBridge.lean ====
/-
  The propagated table of the two programs is one table.

  Both programs stack the 100000 user rows on the 50000 item rows and then, three times, send the table through the
  same propagation round: every edge reads the row at its source, scales it by the edge's value, and the scaled rows
  are added, per destination, into the zero table. The two programs spell a round with the same operations on the
  same arguments, so round by round the results are the same term, whatever the float operations are: no statement
  here looks inside a lookup or a scatter, and none evaluates one. The kernel then folds the four tables in three
  calls as ((e + x1) · 1 + x2) · 1 + x3, times 1/4; the reference adds them in the same order and divides by 4. Entry
  by entry these are one extended real.
-/
import proofs.«428003_j33079838114572_4_alg».proof.Proof.RefValue
import proofs.«428003_j33079838114572_4_alg».proof.Proof.KernelIdeal.Glue
import proofs.«428003_j33079838114572_4_alg».proof.Proof.Algebra

noncomputable section

namespace Cert.Bridge

open Idealize.ShloMosaic Idealize.ShloMosaic.TcCoe Idealize.SL.Sem Idealize.ShloMosaic.StableHlo
open Idealize.ShloMosaic.ValueIdx
open Cert.ReferenceIdeal.Gen Cert.KernelIdeal.Gen

section Generic
variable {F : FTy → Type} [FloatOps F]
variable (a0 : FVec F Cert.ReferenceIdeal.S100000x64 .f32) (a1 : FVec F Cert.ReferenceIdeal.S50000x64 .f32)
  (a2 : FVec F Cert.ReferenceIdeal.S4000000 .f32) (a3 a4 : IVec Cert.ReferenceIdeal.S4000000 32)

/-- The stacked table: the kernel's concatenation is the reference's. -/
theorem emb_eq : concatenate Cert.KernelIdeal.S150000x64 0 [⟨Cert.KernelIdeal.S100000x64, a0⟩, ⟨Cert.KernelIdeal.S50000x64, a1⟩]
      Cert.KernelIdeal.Facts₀.concatenates_S100000x64_S50000x64_S150000x64_d0
    = Cert.ReferenceIdeal.Read.val_main_v0 (F := F) a0 a1 := rfl

/-- The first propagation round. -/
theorem x1_eq : Cert.KernelIdeal.Hand.prop a3 a4 a2 (Cert.ReferenceIdeal.Read.val_main_v0 (F := F) a0 a1)
    = Cert.ReferenceIdeal.Read.val_main_v13 (F := F) a0 a1 a2 a3 a4 := rfl

/-- The second propagation round. -/
theorem x2_eq : Cert.KernelIdeal.Hand.prop a3 a4 a2 (Cert.ReferenceIdeal.Read.val_main_v13 (F := F) a0 a1 a2 a3 a4)
    = Cert.ReferenceIdeal.Read.val_main_v27 (F := F) a0 a1 a2 a3 a4 := rfl

/-- The third propagation round. -/
theorem x3_eq : Cert.KernelIdeal.Hand.prop a3 a4 a2 (Cert.ReferenceIdeal.Read.val_main_v27 (F := F) a0 a1 a2 a3 a4)
    = Cert.ReferenceIdeal.Read.val_main_v41 (F := F) a0 a1 a2 a3 a4 := rfl

end Generic

section AtIdeal
variable (a0 : FVec Ideal Cert.ReferenceIdeal.S100000x64 .f32) (a1 : FVec Ideal Cert.ReferenceIdeal.S50000x64 .f32)
  (a2 : FVec Ideal Cert.ReferenceIdeal.S4000000 .f32) (a3 a4 : IVec Cert.ReferenceIdeal.S4000000 32)

/-- The mean over the four layers, entry by entry: for ANY four arrays e, y1, y2, y3 the kernel's three accumulate
    calls leave ((e + y1) · 1 + y2) · 1 + y3 times 1/4, and the reference's sums over 4 are the same extended real. -/
theorem mean_arrays (e y1 y2 y3 : FVec Ideal Cert.ReferenceIdeal.S150000x64 .f32) (i : Cert.ReferenceIdeal.S150000x64.Idx) :
    Cert.KernelIdeal.Hand.accG2 (F := Ideal) (Cert.KernelIdeal.Hand.accG1 (Cert.KernelIdeal.Hand.accG0 e y1) y2) y3 i
      = Ideal.div (((e i + y1 i) + y2 i) + y3 i) (Ideal.ofBits .f32 0x40800000#32) :=
  Cert.Join.mean_eq (e i) (y1 i) (y2 i) (y3 i)

/-- The three accumulate calls on the reference's own four tables give the reference's mean. -/
theorem light_gen :
    Cert.KernelIdeal.Hand.accG2 (F := Ideal) (Cert.KernelIdeal.Hand.accG1 (Cert.KernelIdeal.Hand.accG0
        (Cert.ReferenceIdeal.Read.val_main_v0 (F := Ideal) a0 a1)
        (Cert.ReferenceIdeal.Read.val_main_v13 (F := Ideal) a0 a1 a2 a3 a4))
        (Cert.ReferenceIdeal.Read.val_main_v27 (F := Ideal) a0 a1 a2 a3 a4))
        (Cert.ReferenceIdeal.Read.val_main_v41 (F := Ideal) a0 a1 a2 a3 a4)
      = Cert.ReferenceIdeal.Read.val_main_v44 (F := Ideal) a0 a1 a2 a3 a4 := by
  funext i
  rw [mean_arrays, Cert.ReferenceIdeal.Read.val_main_v44_apply, Cert.ReferenceIdeal.Read.val_main_v42_apply,
    Cert.ReferenceIdeal.Read.val_main_v28_apply, Cert.ReferenceIdeal.Read.val_main_v14_apply,
    Cert.ReferenceIdeal.Read.val_main_v43_apply, Cert.ReferenceIdeal.Read.val_main_cst_7_apply]
  rfl

/-- The kernel's chain on any five argument arrays: the stacked table, three propagation rounds and the three
    accumulate calls give the reference's propagated table of the same arrays. -/
theorem light_chain :
    Cert.KernelIdeal.Hand.accG2 (F := Ideal) (Cert.KernelIdeal.Hand.accG1 (Cert.KernelIdeal.Hand.accG0
        (concatenate Cert.KernelIdeal.S150000x64 0 [⟨Cert.KernelIdeal.S100000x64, a0⟩, ⟨Cert.KernelIdeal.S50000x64, a1⟩]
          Cert.KernelIdeal.Facts₀.concatenates_S100000x64_S50000x64_S150000x64_d0)
        (Cert.KernelIdeal.Hand.prop a3 a4 a2
          (concatenate Cert.KernelIdeal.S150000x64 0 [⟨Cert.KernelIdeal.S100000x64, a0⟩, ⟨Cert.KernelIdeal.S50000x64, a1⟩]
            Cert.KernelIdeal.Facts₀.concatenates_S100000x64_S50000x64_S150000x64_d0)))
        (Cert.KernelIdeal.Hand.prop a3 a4 a2 (Cert.KernelIdeal.Hand.prop a3 a4 a2
          (concatenate Cert.KernelIdeal.S150000x64 0 [⟨Cert.KernelIdeal.S100000x64, a0⟩, ⟨Cert.KernelIdeal.S50000x64, a1⟩]
            Cert.KernelIdeal.Facts₀.concatenates_S100000x64_S50000x64_S150000x64_d0))))
        (Cert.KernelIdeal.Hand.prop a3 a4 a2 (Cert.KernelIdeal.Hand.prop a3 a4 a2 (Cert.KernelIdeal.Hand.prop a3 a4 a2
          (concatenate Cert.KernelIdeal.S150000x64 0 [⟨Cert.KernelIdeal.S100000x64, a0⟩, ⟨Cert.KernelIdeal.S50000x64, a1⟩]
            Cert.KernelIdeal.Facts₀.concatenates_S100000x64_S50000x64_S150000x64_d0))))
      = Cert.ReferenceIdeal.Read.val_main_v44 (F := Ideal) a0 a1 a2 a3 a4 := by
  rw [emb_eq, x1_eq, x2_eq, x3_eq]
  exact light_gen a0 a1 a2 a3 a4

end AtIdeal

/-- THE PROPAGATED TABLE IS ONE: from memories agreeing on the five arguments it is made of, the kernel's table is
    the reference's. -/
theorem light_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Hand.lightK (F := Ideal) m c = Cert.RefValue.light m' c := by
  unfold Cert.RefValue.light
  rw [h0, h1, h2, h3, h4]
  unfold Cert.KernelIdeal.Hand.lightK Cert.KernelIdeal.Hand.x3K Cert.KernelIdeal.Hand.x2K Cert.KernelIdeal.Hand.x1K
    Cert.KernelIdeal.Hand.embK
  exact light_chain _ _ _ _ _

end Cert.Bridge
end
-- ==== Proof.Bridge.lean ====
/-
  The two programs' results are the same extended reals. On the kernel side the loss is the sum over the 4096
  queries of the softplus terms over rows of the kernel's propagated table, and the regulariser the sum of the
  per-query halves of squared norms over raw rows, divided by 4096. On the reference side the loss is the same sum
  started from 0 over rows of the reference's propagated table, and the regulariser half of the three totals, divided
  by 4096. The memories agree on the arguments, so the query indices, the raw rows and (the propagated tables being
  equal) the propagated rows agree; a sum started from 0 is the sum; and the half distributes over the queries.
-/
import proofs.«428003_j33079838114572_4_alg».proof.Defs
import proofs.«428003_j33079838114572_4_alg».proof.Proof.KernelIdeal.KernelRows
import proofs.«428003_j33079838114572_4_alg».proof.Proof.LightBridge
import proofs.«428003_j33079838114572_4_alg».proof.Proof.RefValue
import proofs.«428003_j33079838114572_4_alg».proof.Proof.Algebra

noncomputable section

namespace Cert.Bridge

open Idealize.ShloMosaic Idealize.ShloMosaic.TcCoe Idealize.SL.Sem
open scoped BigOperators
open Cert.KernelIdeal.Hand (uK pK nK lightKRow rawUK rawIK tbl ixK)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A [4096] index built from its coordinate either way is one index. -/
theorem ixK_eq (i : Fin 4096) : ixK i = ValueIdx.ix1 i := by
  refine (ValueIdx.eq_ix1 (ixK i)).trans ?_
  congr 1

/-- There is one core. -/
theorem core_eq (c : Dev Cert.KernelIdeal.nD) : c = 0 := Subsingleton.elim _ _

section
variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
include hagree

/-- The query indices agree. -/
theorem u_eq (c : Dev Cert.KernelIdeal.nD) (i : Fin 4096) : Cert.RefValue.uIdx m' c i = uK m i := by
  obtain rfl := core_eq c
  unfold Cert.RefValue.uIdx uK
  rw [(hagree 0).2.2.2.2.2.1, ixK_eq]
theorem p_eq (c : Dev Cert.KernelIdeal.nD) (i : Fin 4096) : Cert.RefValue.pIdx m' c i = pK m i := by
  obtain rfl := core_eq c
  unfold Cert.RefValue.pIdx pK
  rw [(hagree 0).2.2.2.2.2.2.1, ixK_eq]
theorem n_eq (c : Dev Cert.KernelIdeal.nD) (i : Fin 4096) : Cert.RefValue.nIdx m' c i = nK m i := by
  obtain rfl := core_eq c
  unfold Cert.RefValue.nIdx nK
  rw [(hagree 0).2.2.2.2.2.2.2, ixK_eq]

/-- Equal row numbers name equal rows of the one propagated table. -/
theorem lightRow_eq (c : Dev Cert.KernelIdeal.nD) {r r' : ℕ} (h : r' = r) (hr : r < 150000) (hr' : r' < 150000) :
    lightKRow m c r hr = Cert.RefValue.lightRow m' c r' hr' := by
  subst h
  unfold lightKRow Cert.RefValue.lightRow
  rw [Cert.Bridge.light_eq m m' c (hagree c).1 (hagree c).2.1 (hagree c).2.2.1 (hagree c).2.2.2.1 (hagree c).2.2.2.2.1]

/-- Equal row numbers name equal raw rows. -/
theorem rawU_eq (c : Dev Cert.KernelIdeal.nD) {r r' : ℕ} (h : r' = r) (hr : r < 100000) (hr' : r' < 100000) :
    rawUK m c r hr = Cert.RefValue.rawU m' c r' hr' := by
  subst h
  unfold rawUK Cert.RefValue.rawU
  rw [(hagree c).1]
theorem rawI_eq (c : Dev Cert.KernelIdeal.nD) {r r' : ℕ} (h : r' = r) (hr : r < 50000) (hr' : r' < 50000) :
    rawIK m c r hr = Cert.RefValue.rawI m' c r' hr' := by
  subst h
  unfold rawIK Cert.RefValue.rawI
  rw [(hagree c).2.1]

/-- THE LOSS: the kernel's first result is the reference's. -/
theorem loss_eq (a3 : (Cert.KernelIdeal.pcfg3 (F := Ideal)).Adm) (ha : a3.1 = tbl m)
    (hu : ∀ i, uK m i < 100000) (hp : ∀ i, pK m i < 50000) (hn : ∀ i, nK m i < 50000) (c : Dev Cert.KernelIdeal.nD) :
    Cert.KernelIdeal.Hand.W9 m a3 c (Proc.devRef .tc Cert.KernelIdeal.main_v51) = Cert.ReferenceIdeal.Value.res_main_v105 (F := Ideal) m' c := by
  have hu' : ∀ i : Fin 4096, Cert.RefValue.uIdx m' c i < 100000 := fun i => by rw [u_eq m m' hagree c i]; exact hu i
  have hp' : ∀ i : Fin 4096, Cert.RefValue.pIdx m' c i < 50000 := fun i => by rw [p_eq m m' hagree c i]; exact hp i
  have hn' : ∀ i : Fin 4096, Cert.RefValue.nIdx m' c i < 50000 := fun i => by rw [n_eq m m' hagree c i]; exact hn i
  rw [Cert.KernelIdeal.Hand.kernel_loss m a3 ha hu hp hn c, Cert.RefValue.ref_loss m' c hu' hp' hn']
  funext _
  rw [zero_add]
  refine Finset.sum_congr rfl fun i _ => ?_
  refine congr (congr (congrArg Cert.Spec.lossRow ?_) ?_) ?_
  · exact lightRow_eq m m' hagree c (u_eq m m' hagree c i) _ _
  · exact lightRow_eq m m' hagree c (congrArg (100000 + ·) (p_eq m m' hagree c i)) _ _
  · exact lightRow_eq m m' hagree c (congrArg (100000 + ·) (n_eq m m' hagree c i)) _ _

/-- THE REGULARISER: the kernel's second result is the reference's. -/
theorem reg_eq (a3 : (Cert.KernelIdeal.pcfg3 (F := Ideal)).Adm) (ha : a3.1 = tbl m)
    (hu : ∀ i, uK m i < 100000) (hp : ∀ i, pK m i < 50000) (hn : ∀ i, nK m i < 50000) (c : Dev Cert.KernelIdeal.nD) :
    Cert.KernelIdeal.Hand.W9 m a3 c (Proc.devRef .tc Cert.KernelIdeal.main_v54)
      = Cert.ReferenceIdeal.Read.val_main_v98 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  have hu' : ∀ i : Fin 4096, Cert.RefValue.uIdx m' c i < 100000 := fun i => by rw [u_eq m m' hagree c i]; exact hu i
  have hp' : ∀ i : Fin 4096, Cert.RefValue.pIdx m' c i < 50000 := fun i => by rw [p_eq m m' hagree c i]; exact hp i
  have hn' : ∀ i : Fin 4096, Cert.RefValue.nIdx m' c i < 50000 := fun i => by rw [n_eq m m' hagree c i]; exact hn i
  rw [Cert.KernelIdeal.Hand.kernel_reg m a3 ha hu hp hn c, Cert.RefValue.ref_reg m' c hu' hp' hn']
  funext _
  rw [Cert.Lits.batch]
  refine congrArg (fun x => Ideal.div x ((4096 : ℝ) : EReal)) ?_
  unfold Cert.Spec.regRow
  rw [Cert.Join.reg_eq]
  refine congrArg (fun x => ((1 / 2 : ℝ) : EReal) * x) ?_
  refine congr (congrArg HAdd.hAdd (congr (congrArg HAdd.hAdd ?_) ?_)) ?_
  · refine congrArg (fun x => (0 : EReal) + x) (Finset.sum_congr rfl fun i _ => ?_)
    rw [rawU_eq m m' hagree c (u_eq m m' hagree c i) (hu i) (hu' i)]; unfold Cert.Spec.sq; rw [zero_add]
  · refine congrArg (fun x => (0 : EReal) + x) (Finset.sum_congr rfl fun i _ => ?_)
    rw [rawI_eq m m' hagree c (p_eq m m' hagree c i) (hp i) (hp' i)]; unfold Cert.Spec.sq; rw [zero_add]
  · refine congrArg (fun x => (0 : EReal) + x) (Finset.sum_congr rfl fun i _ => ?_)
    rw [rawI_eq m m' hagree c (n_eq m m' hagree c i) (hn i) (hn' i)]; unfold Cert.Spec.sq; rw [zero_add]

end

end Cert.Bridge

end
-- ==== Proof.lean ====
/-
  The certificate of the LightGCN forward pass: a Pallas program of three accumulate calls and one lookup call among
  host operations, against its jnp reference, under the precondition that every float input is finite and every
  query index lies inside the table it indexes.

  Frames. Each kernel program is run as its nine items (five host stretches, four kernel calls); the run ends with
  every unscoped buffer at the last contents of a fold from the launch memory, which at an argument array is the
  launch memory itself. The reference is a host program; its frame is its run with the results dropped.

  Values. At the extended reals the kernel's two results are read off the same fold: the lookup call's [1, 128] output
  accumulates, query by query, the softplus of (user · negative) − (user · positive) over rows of the propagated table
  and half the three squared norms of the raw rows; the propagated table is ((emb + x₁) · 1 + x₂) · 1 + x₃, times 1/4,
  the x the three propagation stages both programs compute by the same host operations. The reference computes
  (((emb + x₁) + x₂) + x₃) / 4, gathers the same rows, and reduces the same per-query terms. A factor 1 is the identity,
  times 1/4 is division by 4, a sum may be taken in any order, and the non-negative real 1/2 distributes over a
  finite sum: the results agree.
-/
import proofs.«428003_j33079838114572_4_alg».proof.Defs
import proofs.«428003_j33079838114572_4_alg».proof.Proof.Gen.Kernel
import proofs.«428003_j33079838114572_4_alg».proof.Proof.Gen.KernelIdeal
import proofs.«428003_j33079838114572_4_alg».proof.Proof.Gen.ReferenceIdeal
import proofs.«428003_j33079838114572_4_alg».proof.Proof.RefModules
import proofs.«428003_j33079838114572_4_alg».proof.Proof.Gen.Pre_finite_inputs
import proofs.«428003_j33079838114572_4_alg».proof.Proof.Kernel.GlueEnd
import proofs.«428003_j33079838114572_4_alg».proof.Proof.Kernel.Ok
import proofs.«428003_j33079838114572_4_alg».proof.Proof.KernelIdeal.GlueEnd
import proofs.«428003_j33079838114572_4_alg».proof.Proof.KernelIdeal.Ok
import proofs.«428003_j33079838114572_4_alg».proof.Proof.KernelIdeal.KernelRows
import proofs.«428003_j33079838114572_4_alg».proof.Proof.Bridge
import Idealize.ShloMosaic.Adequacy
import Idealize.ShloMosaic.Init

noncomputable section

namespace Cert.Proof

open Idealize.ShloMosaic Idealize.ShloMosaic.TcCoe Idealize.SL.Sem

/-- The lookup call's three index tables as the launch memory holds them: admissible under the precondition. -/
def adm_Kernel (m : (ℓ : Loc Cert.Kernel.nD Cert.Kernel.τ Cert.Kernel.sig) → Buf (Elt Bits) ℓ) (hpre : Cert.Pre_Kernel m) :
    (Cert.Kernel.pcfg3 (F := Bits)).Adm :=
  ⟨Cert.Kernel.Hand.tbl m, Cert.Kernel.Hand.ok_of_pre m hpre⟩

/-- They are what the tables hold when the lookup call is entered: nothing before it writes an argument. -/
theorem tables_Kernel (m : (ℓ : Loc Cert.Kernel.nD Cert.Kernel.τ Cert.Kernel.sig) → Buf (Elt Bits) ℓ) (hpre : Cert.Pre_Kernel m) :
    ∀ (c : Dev Cert.Kernel.nD) k, (adm_Kernel m hpre).1 k = Cert.Kernel.Hand.V7 m c (Cert.Kernel.pre3.ref k) := fun c k => by
  have hc : c = 0 := Subsingleton.elim _ _
  subst hc
  exact (Cert.Kernel.Hand.V7_pre' m 0 k).symm

/-- The lookup call's three index tables as the launch memory holds them: admissible under the precondition. -/
def adm_KernelIdeal (m : (ℓ : Loc Cert.KernelIdeal.nD Cert.KernelIdeal.τ Cert.KernelIdeal.sig) → Buf (Elt Ideal) ℓ) (hpre : Cert.Pre_KernelIdeal m) :
    (Cert.KernelIdeal.pcfg3 (F := Ideal)).Adm :=
  ⟨Cert.KernelIdeal.Hand.tbl m, Cert.KernelIdeal.Hand.ok_of_pre m hpre⟩

/-- They are what the tables hold when the lookup call is entered: nothing before it writes an argument. -/
theorem tables_KernelIdeal (m : (ℓ : Loc Cert.KernelIdeal.nD Cert.KernelIdeal.τ Cert.KernelIdeal.sig) → Buf (Elt Ideal) ℓ) (hpre : Cert.Pre_KernelIdeal m) :
    ∀ (c : Dev Cert.KernelIdeal.nD) k, (adm_KernelIdeal m hpre).1 k = Cert.KernelIdeal.Hand.V7 m c (Cert.KernelIdeal.pre3.ref k) := fun c k => by
  have hc : c = 0 := Subsingleton.elim _ _
  subst hc
  exact (Cert.KernelIdeal.Hand.V7_pre' m 0 k).symm

/-- `Kernel` runs to the end and leaves its arguments as launched: the run of its nine items ends with every unscoped
    buffer at the last contents of the fold, which at an argument is the launch memory. The index tables are admissible
    because the precondition puts every index inside its table. -/
theorem frame_p : Cert.frame_Kernel := fun m ρ hpre =>
  (θ_run (Cert.Kernel.defs (F := Bits)) _ _).mono
    (fun r h c => ⟨(h c _ (Cert.Kernel.Hand.mem_uc Cert.Kernel.main_arg0 (by decide))).trans (Cert.Kernel.Hand.W9_main_arg0 m (adm_Kernel m hpre) c),
      (h c _ (Cert.Kernel.Hand.mem_uc Cert.Kernel.main_arg1 (by decide))).trans (Cert.Kernel.Hand.W9_main_arg1 m (adm_Kernel m hpre) c),
      (h c _ (Cert.Kernel.Hand.mem_uc Cert.Kernel.main_arg2 (by decide))).trans (Cert.Kernel.Hand.W9_main_arg2 m (adm_Kernel m hpre) c),
      (h c _ (Cert.Kernel.Hand.mem_uc Cert.Kernel.main_arg3 (by decide))).trans (Cert.Kernel.Hand.W9_main_arg3 m (adm_Kernel m hpre) c),
      (h c _ (Cert.Kernel.Hand.mem_uc Cert.Kernel.main_arg4 (by decide))).trans (Cert.Kernel.Hand.W9_main_arg4 m (adm_Kernel m hpre) c),
      (h c _ (Cert.Kernel.Hand.mem_uc Cert.Kernel.main_arg5 (by decide))).trans (Cert.Kernel.Hand.W9_main_arg5 m (adm_Kernel m hpre) c),
      (h c _ (Cert.Kernel.Hand.mem_uc Cert.Kernel.main_arg6 (by decide))).trans (Cert.Kernel.Hand.W9_main_arg6 m (adm_Kernel m hpre) c),
      (h c _ (Cert.Kernel.Hand.mem_uc Cert.Kernel.main_arg7 (by decide))).trans (Cert.Kernel.Hand.W9_main_arg7 m (adm_Kernel m hpre) c)⟩)
    (Cert.Kernel.Hand.run m ρ (adm_Kernel m hpre) (tables_Kernel m hpre))

/-- `KernelIdeal` runs to the end and leaves its arguments as launched: the run of its nine items ends with every unscoped
    buffer at the last contents of the fold, which at an argument is the launch memory. The index tables are admissible
    because the precondition puts every index inside its table. -/
theorem frame_pi : Cert.frame_KernelIdeal := fun m ρ hpre =>
  (θ_run (Cert.KernelIdeal.defs (F := Ideal)) _ _).mono
    (fun r h c => ⟨(h c _ (Cert.KernelIdeal.Hand.mem_uc Cert.KernelIdeal.main_arg0 (by decide))).trans (Cert.KernelIdeal.Hand.W9_main_arg0 m (adm_KernelIdeal m hpre) c),
      (h c _ (Cert.KernelIdeal.Hand.mem_uc Cert.KernelIdeal.main_arg1 (by decide))).trans (Cert.KernelIdeal.Hand.W9_main_arg1 m (adm_KernelIdeal m hpre) c),
      (h c _ (Cert.KernelIdeal.Hand.mem_uc Cert.KernelIdeal.main_arg2 (by decide))).trans (Cert.KernelIdeal.Hand.W9_main_arg2 m (adm_KernelIdeal m hpre) c),
      (h c _ (Cert.KernelIdeal.Hand.mem_uc Cert.KernelIdeal.main_arg3 (by decide))).trans (Cert.KernelIdeal.Hand.W9_main_arg3 m (adm_KernelIdeal m hpre) c),
      (h c _ (Cert.KernelIdeal.Hand.mem_uc Cert.KernelIdeal.main_arg4 (by decide))).trans (Cert.KernelIdeal.Hand.W9_main_arg4 m (adm_KernelIdeal m hpre) c),
      (h c _ (Cert.KernelIdeal.Hand.mem_uc Cert.KernelIdeal.main_arg5 (by decide))).trans (Cert.KernelIdeal.Hand.W9_main_arg5 m (adm_KernelIdeal m hpre) c),
      (h c _ (Cert.KernelIdeal.Hand.mem_uc Cert.KernelIdeal.main_arg6 (by decide))).trans (Cert.KernelIdeal.Hand.W9_main_arg6 m (adm_KernelIdeal m hpre) c),
      (h c _ (Cert.KernelIdeal.Hand.mem_uc Cert.KernelIdeal.main_arg7 (by decide))).trans (Cert.KernelIdeal.Hand.W9_main_arg7 m (adm_KernelIdeal m hpre) c)⟩)
    (Cert.KernelIdeal.Hand.run m ρ (adm_KernelIdeal m hpre) (tables_KernelIdeal m hpre))

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read at the extended reals. -/
theorem preserves : Cert.preserves_Kernel_KernelIdeal := trivial

/-- Both programs run, from memories agreeing on the arguments, to the same two results. -/
theorem algebraic : Cert.algebraic_KernelIdeal_ReferenceIdeal := by
  intro m ρ m' ρ' hpre hagree
  refine ⟨fun c => Cert.KernelIdeal.Hand.W9 m (adm_KernelIdeal m hpre) c (Proc.devRef .tc Cert.KernelIdeal.main_v51),
    fun c => Cert.KernelIdeal.Hand.W9 m (adm_KernelIdeal m hpre) c (Proc.devRef .tc Cert.KernelIdeal.main_v54), ?_, ?_⟩
  · exact (θ_run (Cert.KernelIdeal.defs (F := Ideal)) _ _).mono
      (fun r h c => ⟨h c _ (Cert.KernelIdeal.Hand.mem_uc Cert.KernelIdeal.main_v51 (by decide)),
        h c _ (Cert.KernelIdeal.Hand.mem_uc Cert.KernelIdeal.main_v54 (by decide)),
        (h c _ (Cert.KernelIdeal.Hand.mem_uc Cert.KernelIdeal.main_arg0 (by decide))).trans (Cert.KernelIdeal.Hand.W9_main_arg0 m (adm_KernelIdeal m hpre) c),
      (h c _ (Cert.KernelIdeal.Hand.mem_uc Cert.KernelIdeal.main_arg1 (by decide))).trans (Cert.KernelIdeal.Hand.W9_main_arg1 m (adm_KernelIdeal m hpre) c),
      (h c _ (Cert.KernelIdeal.Hand.mem_uc Cert.KernelIdeal.main_arg2 (by decide))).trans (Cert.KernelIdeal.Hand.W9_main_arg2 m (adm_KernelIdeal m hpre) c),
      (h c _ (Cert.KernelIdeal.Hand.mem_uc Cert.KernelIdeal.main_arg3 (by decide))).trans (Cert.KernelIdeal.Hand.W9_main_arg3 m (adm_KernelIdeal m hpre) c),
      (h c _ (Cert.KernelIdeal.Hand.mem_uc Cert.KernelIdeal.main_arg4 (by decide))).trans (Cert.KernelIdeal.Hand.W9_main_arg4 m (adm_KernelIdeal m hpre) c),
      (h c _ (Cert.KernelIdeal.Hand.mem_uc Cert.KernelIdeal.main_arg5 (by decide))).trans (Cert.KernelIdeal.Hand.W9_main_arg5 m (adm_KernelIdeal m hpre) c),
      (h c _ (Cert.KernelIdeal.Hand.mem_uc Cert.KernelIdeal.main_arg6 (by decide))).trans (Cert.KernelIdeal.Hand.W9_main_arg6 m (adm_KernelIdeal m hpre) c),
      (h c _ (Cert.KernelIdeal.Hand.mem_uc Cert.KernelIdeal.main_arg7 (by decide))).trans (Cert.KernelIdeal.Hand.W9_main_arg7 m (adm_KernelIdeal m hpre) c)⟩)
      (Cert.KernelIdeal.Hand.run m ρ (adm_KernelIdeal m hpre) (tables_KernelIdeal m hpre))
  · have hu : ∀ i, Cert.KernelIdeal.Hand.uK m i < 100000 := fun i => Cert.KernelIdeal.Hand.users_lt m hpre (Cert.KernelIdeal.Hand.ixK i)
    have hp : ∀ i, Cert.KernelIdeal.Hand.pK m i < 50000 := fun i => Cert.KernelIdeal.Hand.pos_lt m hpre (Cert.KernelIdeal.Hand.ixK i)
    have hn : ∀ i, Cert.KernelIdeal.Hand.nK m i < 50000 := fun i => Cert.KernelIdeal.Hand.neg_lt m hpre (Cert.KernelIdeal.Hand.ixK i)
    exact (θ_run Cert.ReferenceIdeal.defs _ _).mono
      (fun r h c => ⟨(h c).1.trans (Cert.Bridge.loss_eq m m' hagree (adm_KernelIdeal m hpre) rfl hu hp hn c).symm,
        (h c).2.1.trans ((Cert.ReferenceIdeal.Read.val_main_v98_eq _ _ _ _ _).trans
          (Cert.Bridge.reg_eq m m' hagree (adm_KernelIdeal m hpre) rfl hu hp hn c).symm), (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
